-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x9 : Shape := ⟨2, ![65536, 9]⟩
abbrev S65536x6 : Shape := ⟨2, ![65536, 6]⟩
abbrev S524288x1 : Shape := ⟨2, ![524288, 1]⟩
abbrev S524288 : Shape := ⟨1, ![524288]⟩
abbrev S21x64 : Shape := ⟨2, ![21, 64]⟩
abbrev S64 : Shape := ⟨1, ![64]⟩
abbrev S64x64 : Shape := ⟨2, ![64, 64]⟩
abbrev S43x64 : Shape := ⟨2, ![43, 64]⟩
abbrev S192x64 : Shape := ⟨2, ![192, 64]⟩
abbrev S128x64 : Shape := ⟨2, ![128, 64]⟩
abbrev S64x3 : Shape := ⟨2, ![64, 3]⟩
abbrev S3 : Shape := ⟨1, ![3]⟩
abbrev S_ : Shape := ⟨0, ![]⟩

class Facts : Prop where
  bcast_S_S65536x9 : S_.BroadcastsInDim S65536x9 (![] : Fin 0 → Fin S65536x9.rank)
  reducesTo_S65536x9_S_d0_1 : S65536x9.ReducesTo [0, 1] S_
  h_S_ : 0 < S_.numel
  bcast_S_S65536x6 : S_.BroadcastsInDim S65536x6 (![] : Fin 0 → Fin S65536x6.rank)
  reducesTo_S65536x6_S_d0_1 : S65536x6.ReducesTo [0, 1] S_
  bcast_S_S524288x1 : S_.BroadcastsInDim S524288x1 (![] : Fin 0 → Fin S524288x1.rank)
  reducesTo_S524288x1_S_d0_1 : S524288x1.ReducesTo [0, 1] S_
  bcast_S_S21x64 : S_.BroadcastsInDim S21x64 (![] : Fin 0 → Fin S21x64.rank)
  reducesTo_S21x64_S_d0_1 : S21x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S43x64 : S_.BroadcastsInDim S43x64 (![] : Fin 0 → Fin S43x64.rank)
  reducesTo_S43x64_S_d0_1 : S43x64.ReducesTo [0, 1] S_
  bcast_S_S192x64 : S_.BroadcastsInDim S192x64 (![] : Fin 0 → Fin S192x64.rank)
  reducesTo_S192x64_S_d0_1 : S192x64.ReducesTo [0, 1] S_
  bcast_S_S128x64 : S_.BroadcastsInDim S128x64 (![] : Fin 0 → Fin S128x64.rank)
  reducesTo_S128x64_S_d0_1 : S128x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part6 {F : FTy → Type} [FloatOps F] (main_arg23 : FVec F S64x3 .f32) (main_arg24 : FVec F S3 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x3 .f32 := Host.absf main_arg23
  let main_cst_40 : FVec F S_ .f32 := constant S_ .f32 0x7F800000#32
  let main_v105 : FVec F S64x3 .f32 := broadcastInDim S64x3 ![] bcast_S_S64x3 main_cst_40
  let main_v106 : IVec S64x3 1 := cmpf .olt main_v104 main_v105
  let main_c_41 : IVec S_ 1 := constantI S_ 1 1#1
  let main_v107 : IVec S_ 1 := (fun x v => Host.reduce IntOp.andi x v reducesTo_S64x3_S_d0_1 h_S_) main_v106 main_c_41
  let main_v108 : IVec S_ 1 := andi main_v103 main_v107
  let main_v109 : FVec F S3 .f32 := Host.absf main_arg24
  let main_cst_42 : FVec F S_ .f32 := constant S_ .f32 0x7F800000#32
  let main_v110 : FVec F S3 .f32 := broadcastInDim S3 ![] bcast_S_S3 main_cst_42
  let main_v111 : IVec S3 1 := cmpf .olt main_v109 main_v110
  let main_c_43 : IVec S_ 1 := constantI S_ 1 1#1
  let main_v112 : IVec S_ 1 := (fun x v => Host.reduce IntOp.andi x v reducesTo_S3_S_d0 h_S_) main_v111 main_c_43
  let main_v113 : IVec S_ 1 := andi main_v108 main_v112
  main_v113

def fn_part5 {F : FTy → Type} [FloatOps F] (main_arg20 : FVec F S64 .f32) (main_arg21 : FVec F S64x64 .f32) (main_arg22 : FVec F S64 .f32) (main_arg23 : FVec F S64x3 .f32) (main_arg24 : FVec F S3 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x64 .f32 := Host.absf main_arg21
  let main_cst_36 : FVec F S_ .f32 := constant S_ .f32 0x7F800000#32
  let main_v95 : FVec F S64x64 .f32 := broadcastInDim S64x64 ![] bcast_S_S64x64 main_cst_36
  let main_v96 : IVec S64x64 1 := cmpf .olt main_v94 main_v95
  let main_c_37 : IVec S_ 1 := constantI S_ 1 1#1
  let main_v97 : IVec S_ 1 := (fun x v => Host.reduce IntOp.andi x v reducesTo_S64x64_S_d0_1 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S64 .f32) (main_arg17 : FVec F S128x64 .f32) (main_arg18 : FVec F S64 .f32) (main_arg19 : FVec F S64x64 .f32) (main_arg20 : FVec F S64 .f32) (main_arg21 : FVec F S64x64 .f32) (main_arg22 : FVec F S64 .f32) (main_arg23 : FVec F S64x3 .f32) (main_arg24 : FVec F S3 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S128x64 .f32 := Host.absf main_arg17
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S64x64 .f32) (main_arg14 : FVec F S64 .f32) (main_arg15 : FVec F S192x64 .f32) (main_arg16 : FVec F S64 .f32) (main_arg17 : FVec F S128x64 .f32) (main_arg18 : FVec F S64 .f32) (main_arg19 : FVec F S64x64 .f32) (main_arg20 : FVec F S64 .f32) (main_arg21 : FVec F S64x64 .f32) (main_arg22 : FVec F S64 .f32) (main_arg23 : FVec F S64x3 .f32) (main_arg24 : FVec F S3 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S192x64 .f32 := Host.absf main_arg15
  let main_cst_24 : FVec F S_ .f32 := constant S_ .f32 0x7F800000#32
  let main_v65 : FVec F S192x64 .f32 := broadcastInDim S192x64 ![] bcast_S_S192x64 main_cst_24
  let main_v66 : IVec S192x64 1 := cmpf .olt main_v64 main_v65
  let main_c_25 : IVec S_ 1 := constantI S_ 1 1#1
  let main_v67 : IVec S_ 1 := (fun x v => Host.reduce IntOp.andi x v reducesTo_S192x64_S_d0_1 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S43x64 .f32) (main_arg10 : FVec F S64 .f32) (main_arg11 : FVec F S64x64 .f32) (main_arg12 : FVec F S64 .f32) (main_arg13 : FVec F S64x64 .f32) (main_arg14 : FVec F S64 .f32) (main_arg15 : FVec F S192x64 .f32) (main_arg16 : FVec F S64 .f32) (main_arg17 : FVec F S128x64 .f32) (main_arg18 : FVec F S64 .f32) (main_arg19 : FVec F S64x64 .f32) (main_arg20 : FVec F S64 .f32) (main_arg21 : FVec F S64x64 .f32) (main_arg22 : FVec F S64 .f32) (main_arg23 : FVec F S64x3 .f32) (main_arg24 : FVec F S3 .f32) (main_v33 : IVec S_ 1) : IVec S_ 1 :=
  let main_v34 : FVec F S43x64 .f32 := Host.absf main_arg9
  let main_cst_12 : FVec F S_ .f32 := constant S_ .f32 0x7F800000#32
  let main_v35 : FVec F S43x64 .f32 := broadcastInDim S43x64 ![] bcast_S_S43x64 main_cst_12
  let main_v36 : IVec S43x64 1 := cmpf .olt main_v34 main_v35
  let main_c_13 : IVec S_ 1 := constantI S_ 1 1#1
  let main_v37 : IVec S_ 1 := (fun x v => Host.reduce IntOp.andi x v reducesTo_S43x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S64 .f32) (main_arg7 : FVec F S64x64 .f32) (main_arg8 : FVec F S64 .f32) (main_arg9 : FVec F S43x64 .f32) (main_arg10 : FVec F S64 .f32) (main_arg11 : FVec F S64x64 .f32) (main_arg12 : FVec F S64 .f32) (main_arg13 : FVec F S64x64 .f32) (main_arg14 : FVec F S64 .f32) (main_arg15 : FVec F S192x64 .f32) (main_arg16 : FVec F S64 .f32) (main_arg17 : FVec F S128x64 .f32) (main_arg18 : FVec F S64 .f32) (main_arg19 : FVec F S64x64 .f32) (main_arg20 : FVec F S64 .f32) (main_arg21 : FVec F S64x64 .f32) (main_arg22 : FVec F S64 .f32) (main_arg23 : FVec F S64x3 .f32) (main_arg24 : FVec F S3 .f32) (main_v13 : IVec S_ 1) (main_v16 : IVec S21x64 1) : IVec S_ 1 :=
  let main_c_5 : IVec S_ 1 := constantI S_ 1 1#1
  let main_v17 : IVec S_ 1 := (fun x v => Host.reduce IntOp.andi x v reducesTo_S21x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S65536x9 .f32) (main_arg1 : FVec F S65536x6 .f32) (main_arg2 : FVec F S524288x1 .f32) (main_arg3 : IVec S524288 32) (main_arg4 : IVec S524288 32) (main_arg5 : FVec F S21x64 .f32) (main_arg6 : FVec F S64 .f32) (main_arg7 : FVec F S64x64 .f32) (main_arg8 : FVec F S64 .f32) (main_arg9 : FVec F S43x64 .f32) (main_arg10 : FVec F S64 .f32) (main_arg11 : FVec F S64x64 .f32) (main_arg12 : FVec F S64 .f32) (main_arg13 : FVec F S64x64 .f32) (main_arg14 : FVec F S64 .f32) (main_arg15 : FVec F S192x64 .f32) (main_arg16 : FVec F S64 .f32) (main_arg17 : FVec F S128x64 .f32) (main_arg18 : FVec F S64 .f32) (main_arg19 : FVec F S64x64 .f32) (main_arg20 : FVec F S64 .f32) (main_arg21 : FVec F S64x64 .f32) (main_arg22 : FVec F S64 .f32) (main_arg23 : FVec F S64x3 .f32) (main_arg24 : FVec F S3 .f32) : IVec S_ 1 :=
  let main_v0 : FVec F S65536x9 .f32 := Host.absf main_arg0
  let main_cst : FVec F S_ .f32 := constant S_ .f32 0x7F800000#32
  let main_v1 : FVec F S65536x9 .f32 := broadcastInDim S65536x9 ![] bcast_S_S65536x9 main_cst
  let main_v2 : IVec S65536x9 1 := cmpf .olt main_v0 main_v1
  let main_c : IVec S_ 1 := constantI S_ 1 1#1
  let main_v3 : IVec S_ 1 := (fun x v => Host.reduce IntOp.andi x v reducesTo_S65536x9_S_d0_1 h_S_) main_v2 main_c
  let main_v4 : FVec F S65536x6 .f32 := Host.absf main_arg1
  let main_cst_0 : FVec F S_ .f32 := constant S_ .f32 0x7F800000#32
  let main_v5 : FVec F S65536x6 .f32 := broadcastInDim S65536x6 ![] bcast_S_S65536x6 main_cst_0
  let main_v6 : IVec S65536x6 1 := cmpf .olt main_v4 main_v5
  let main_c_1 : IVec S_ 1 := constantI S_ 1 1#1
  let main_v7 : IVec S_ 1 := (fun x v => Host.reduce IntOp.andi x v reducesTo_S65536x6_S_d0_1 h_S_) main_v6 main_c_1
  let main_v8 : IVec S_ 1 := andi main_v3 main_v7
  let main_v9 : FVec F S524288x1 .f32 := Host.absf main_arg2
  let main_cst_2 : FVec F S_ .f32 := constant S_ .f32 0x7F800000#32
  let main_v10 : FVec F S524288x1 .f32 := broadcastInDim S524288x1 ![] bcast_S_S524288x1 main_cst_2
  let main_v11 : IVec S524288x1 1 := cmpf .olt main_v9 main_v10
  let main_c_3 : IVec S_ 1 := constantI S_ 1 1#1
  let main_v12 : IVec S_ 1 := (fun x v => Host.reduce IntOp.andi x v reducesTo_S524288x1_S_d0_1 h_S_) main_v11 main_c_3
  let main_v13 : IVec S_ 1 := andi main_v8 main_v12
  let main_v14 : FVec F S21x64 .f32 := Host.absf main_arg5
  let main_cst_4 : FVec F S_ .f32 := constant S_ .f32 0x7F800000#32
  let main_v15 : FVec F S21x64 .f32 := broadcastInDim S21x64 ![] bcast_S_S21x64 main_cst_4
  let main_v16 : IVec S21x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S65536x9 : Shape := ⟨2, ![65536, 9]⟩
abbrev S65536x6 : Shape := ⟨2, ![65536, 6]⟩
abbrev S524288x1 : Shape := ⟨2, ![524288, 1]⟩
abbrev S524288 : Shape := ⟨1, ![524288]⟩
abbrev S21x64 : Shape := ⟨2, ![21, 64]⟩
abbrev S64 : Shape := ⟨1, ![64]⟩
abbrev S64x64 : Shape := ⟨2, ![64, 64]⟩
abbrev S43x64 : Shape := ⟨2, ![43, 64]⟩
abbrev S192x64 : Shape := ⟨2, ![192, 64]⟩
abbrev S128x64 : Shape := ⟨2, ![128, 64]⟩
abbrev S64x3 : Shape := ⟨2, ![64, 3]⟩
abbrev S3 : Shape := ⟨1, ![3]⟩
abbrev S_ : Shape := ⟨0, ![]⟩
abbrev S65536x15 : Shape := ⟨2, ![65536, 15]⟩
abbrev S65536x21 : Shape := ⟨2, ![65536, 21]⟩
abbrev S65536x64 : Shape := ⟨2, ![65536, 64]⟩
abbrev S8192x21 : Shape := ⟨2, ![8192, 21]⟩
abbrev S8192x64 : Shape := ⟨2, ![8192, 64]⟩
abbrev S1x64 : Shape := ⟨2, ![1, 64]⟩
abbrev S524288x21 : Shape := ⟨2, ![524288, 21]⟩
abbrev S524288x64 : Shape := ⟨2, ![524288, 64]⟩
abbrev S8192x1 : Shape := ⟨2, ![8192, 1]⟩
abbrev S8192x15 : Shape := ⟨2, ![8192, 15]⟩
abbrev S8192x6 : Shape := ⟨2, ![8192, 6]⟩
abbrev S8192x43 : Shape := ⟨2, ![8192, 43]⟩
abbrev S8192x128 : Shape := ⟨2, ![8192, 128]⟩
abbrev S8192x192 : Shape := ⟨2, ![8192, 192]⟩
abbrev S65536x3 : Shape := ⟨2, ![65536, 3]⟩
abbrev S8192x3 : Shape := ⟨2, ![8192, 3]⟩
abbrev S1x3 : Shape := ⟨2, ![1, 3]⟩

abbrev nBuf : Space → Nat
  | .hbm => 80
  | .vmem => 60
  | .smem => 0
  | _ => 0

abbrev bufTy : (tb : Table) → Fin (tcTables nBuf tb) → BufTy
  | .hbm, ⟨0, _⟩ => ⟨S65536x9, .f32⟩
  | .hbm, ⟨1, _⟩ => ⟨S65536x6, .f32⟩
  | .hbm, ⟨2, _⟩ => ⟨S524288x1, .f32⟩
  | .hbm, ⟨3, _⟩ => ⟨S524288, .i32⟩
  | .hbm, ⟨4, _⟩ => ⟨S524288, .i32⟩
  | .hbm, ⟨5, _⟩ => ⟨S21x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S43x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S192x64, .f32⟩
  | .hbm, ⟨16, _⟩ => ⟨S64, .f32⟩
  | .hbm, ⟨17, _⟩ => ⟨S128x64, .f32⟩
  | .hbm, ⟨18, _⟩ => ⟨S64, .f32⟩
  | .hbm, ⟨19, _⟩ => ⟨S64x64, .f32⟩
  | .hbm, ⟨20, _⟩ => ⟨S64, .f32⟩
  | .hbm, ⟨21, _⟩ => ⟨S64x64, .f32⟩
  | .hbm, ⟨22, _⟩ => ⟨S64, .f32⟩
  | .hbm, ⟨23, _⟩ => ⟨S64x3, .f32⟩
  | .hbm, ⟨24, _⟩ => ⟨S3, .f32⟩
  | .hbm, ⟨25, _⟩ => ⟨S_, .f32⟩
  | .hbm, ⟨26, _⟩ => ⟨S65536x6, .f32⟩
  | .hbm, ⟨27, _⟩ => ⟨S65536x15, .f32⟩
  | .hbm, ⟨28, _⟩ => ⟨S65536x21, .f32⟩
  | .hbm, ⟨29, _⟩ => ⟨S65536x64, .f32⟩
  | .hbm, ⟨30, _⟩ => ⟨S_, .i32⟩
  | .hbm, ⟨31, _⟩ => ⟨S524288, .i32⟩
  | .hbm, ⟨32, _⟩ => ⟨S524288, .i1⟩
  | .hbm, ⟨33, _⟩ => ⟨S_, .i32⟩
  | .hbm, ⟨34, _⟩ => ⟨S524288, .i32⟩
  | .hbm, ⟨35, _⟩ => ⟨S524288, .i32⟩
  | .hbm, ⟨36, _⟩ => ⟨S524288, .i32⟩
  | .hbm, ⟨37, _⟩ => ⟨S524288x1, .i32⟩
  | .hbm, ⟨38, _⟩ => ⟨S524288x21, .f32⟩
  | .hbm, ⟨39, _⟩ => ⟨S_, .i32⟩
  | .hbm, ⟨40, _⟩ => ⟨S524288, .i32⟩
  | .hbm, ⟨41, _⟩ => ⟨S524288, .i1⟩
  | .hbm, ⟨42, _⟩ => ⟨S_, .i32⟩
  | .hbm, ⟨43, _⟩ => ⟨S524288, .i32⟩
  | .hbm, ⟨44, _⟩ => ⟨S524288, .i32⟩
  | .hbm, ⟨45, _⟩ => ⟨S524288, .i32⟩
  | .hbm, ⟨46, _⟩ => ⟨S524288x1, .i32⟩
  | .hbm, ⟨47, _⟩ => ⟨S524288x21, .f32⟩
  | .hbm, ⟨48, _⟩ => ⟨S524288x64, .f32⟩
  | .hbm, ⟨49, _⟩ => ⟨S64x64, .f32⟩
  | .hbm, ⟨50, _⟩ => ⟨S524288x64, .f32⟩
  | .hbm, ⟨51, _⟩ => ⟨S_, .f32⟩
  | .hbm, ⟨52, _⟩ => ⟨S65536x64, .f32⟩
  | .hbm, ⟨53, _⟩ => ⟨S524288x1, .i32⟩
  | .hbm, ⟨54, _⟩ => ⟨S65536x64, .f32⟩
  | .hbm, ⟨55, _⟩ => ⟨S65536x64, .f32⟩
  | .hbm, ⟨56, _⟩ => ⟨S_, .i32⟩
  | .hbm, ⟨57, _⟩ => ⟨S524288, .i32⟩
  | .hbm, ⟨58, _⟩ => ⟨S524288, .i1⟩
  | .hbm, ⟨59, _⟩ => ⟨S_, .i32⟩
  | .hbm, ⟨60, _⟩ => ⟨S524288, .i32⟩
  | .hbm, ⟨61, _⟩ => ⟨S524288, .i32⟩
  | .hbm, ⟨62, _⟩ => ⟨S524288, .i32⟩
  | .hbm, ⟨63, _⟩ => ⟨S524288x1, .i32⟩
  | .hbm, ⟨64, _⟩ => ⟨S524288x64, .f32⟩
  | .hbm, ⟨65, _⟩ => ⟨S_, .i32⟩
  | .hbm, ⟨66, _⟩ => ⟨S524288, .i32⟩
  | .hbm, ⟨67, _⟩ => ⟨S524288, .i1⟩
  | .hbm, ⟨68, _⟩ => ⟨S_, .i32⟩
  | .hbm, ⟨69, _⟩ => ⟨S524288, .i32⟩
  | .hbm, ⟨70, _⟩ => ⟨S524288, .i32⟩
  | .hbm, ⟨71, _⟩ => ⟨S524288, .i32⟩
  | .hbm, ⟨72, _⟩ => ⟨S524288x1, .i32⟩
  | .hbm, ⟨73, _⟩ => ⟨S524288x64, .f32⟩
  | .hbm, ⟨74, _⟩ => ⟨S524288x64, .f32⟩
  | .hbm, ⟨75, _⟩ => ⟨S_, .f32⟩
  | .hbm, ⟨76, _⟩ => ⟨S65536x64, .f32⟩
  | .hbm, ⟨77, _⟩ => ⟨S524288x1, .i32⟩
  | .hbm, ⟨78, _⟩ => ⟨S65536x64, .f32⟩
  | .hbm, ⟨79, _⟩ => ⟨S65536x3, .f32⟩
  | .local _ .vmem, ⟨0, _⟩ => ⟨S8192x21, .f32⟩
  | .local _ .vmem, ⟨1, _⟩ => ⟨S8192x21, .f32⟩
  | .local _ .vmem, ⟨2, _⟩ => ⟨S21x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S8192x64, .f32⟩
  | .local _ .vmem, ⟨7, _⟩ => ⟨S8192x64, .f32⟩
  | .local _ .vmem, ⟨8, _⟩ => ⟨S8192x21, .f32⟩
  | .local _ .vmem, ⟨9, _⟩ => ⟨S8192x21, .f32⟩
  | .local _ .vmem, ⟨10, _⟩ => ⟨S8192x21, .f32⟩
  | .local _ .vmem, ⟨11, _⟩ => ⟨S8192x21, .f32⟩
  | .local _ .vmem, ⟨12, _⟩ => ⟨S8192x1, .f32⟩
  | .local _ .vmem, ⟨13, _⟩ => ⟨S8192x1, .f32⟩
  | .local _ .vmem, ⟨14, _⟩ => ⟨S43x64, .f32⟩
  | .local _ .vmem, ⟨15, _⟩ => ⟨S64, .f32⟩
  | .local _ .vmem, ⟨16, _⟩ => ⟨S64x64, .f32⟩
  | .local _ .vmem, ⟨17, _⟩ => ⟨S64, .f32⟩
  | .local _ .vmem, ⟨18, _⟩ => ⟨S64x64, .f32⟩
  | .local _ .vmem, ⟨19, _⟩ => ⟨S64, .f32⟩
  | .local _ .vmem, ⟨20, _⟩ => ⟨S8192x64, .f32⟩
  | .local _ .vmem, ⟨21, _⟩ => ⟨S8192x64, .f32⟩
  | .local _ .vmem, ⟨22, _⟩ => ⟨S8192x64, .f32⟩
  | .local _ .vmem, ⟨23, _⟩ => ⟨S8192x64, .f32⟩
  | .local _ .vmem, ⟨24, _⟩ => ⟨S64x64, .f32⟩
  | .local _ .vmem, ⟨25, _⟩ => ⟨S64, .f32⟩
  | .local _ .vmem, ⟨26, _⟩ => ⟨S8192x64, .f32⟩
  | .local _ .vmem, ⟨27, _⟩ => ⟨S8192x64, .f32⟩
  | .local _ .vmem, ⟨28, _⟩ => ⟨S8192x64, .f32⟩
  | .local _ .vmem, ⟨29, _⟩ => ⟨S8192x64, .f32⟩
  | .local _ .vmem, ⟨30, _⟩ => ⟨S8192x64, .f32⟩
  | .local _ .vmem, ⟨31, _⟩ => ⟨S8192x64, .f32⟩
  | .local _ .vmem, ⟨32, _⟩ => ⟨S128x64, .f32⟩
  | .local _ .vmem, ⟨33, _⟩ => ⟨S64, .f32⟩
  | .local _ .vmem, ⟨34, _⟩ => ⟨S8192x64, .f32⟩
  | .local _ .vmem, ⟨35, _⟩ => ⟨S8192x64, .f32⟩
  | .local _ .vmem, ⟨36, _⟩ => ⟨S8192x64, .f32⟩
  | .local _ .vmem, ⟨37, _⟩ => ⟨S8192x64, .f32⟩
  | .local _ .vmem, ⟨38, _⟩ => ⟨S8192x64, .f32⟩
  | .local _ .vmem, ⟨39, _⟩ => ⟨S8192x64, .f32⟩
  | .local _ .vmem, ⟨40, _⟩ => ⟨S8192x64, .f32⟩
  | .local _ .vmem, ⟨41, _⟩ => ⟨S8192x64, .f32⟩
  | .local _ .vmem, ⟨42, _⟩ => ⟨S192x64, .f32⟩
  | .local _ .vmem, ⟨43, _⟩ => ⟨S64, .f32⟩
  | .local _ .vmem, ⟨44, _⟩ => ⟨S8192x64, .f32⟩
  | .local _ .vmem, ⟨45, _⟩ => ⟨S8192x64, .f32⟩
  | .local _ .vmem, ⟨46, _⟩ => ⟨S8192x64, .f32⟩
  | .local _ .vmem, ⟨47, _⟩ => ⟨S8192x64, .f32⟩
  | .local _ .vmem, ⟨48, _⟩ => ⟨S8192x64, .f32⟩
  | .local _ .vmem, ⟨49, _⟩ => ⟨S8192x64, .f32⟩
  | .local _ .vmem, ⟨50, _⟩ => ⟨S128x64, .f32⟩
  | .local _ .vmem, ⟨51, _⟩ => ⟨S64, .f32⟩
  | .local _ .vmem, ⟨52, _⟩ => ⟨S64x64, .f32⟩
  | .local _ .vmem, ⟨53, _⟩ => ⟨S64, .f32⟩
  | .local _ .vmem, ⟨54, _⟩ => ⟨S64x64, .f32⟩
  | .local _ .vmem, ⟨55, _⟩ => ⟨S64, .f32⟩
  | .local _ .vmem, ⟨56, _⟩ => ⟨S64x3, .f32⟩
  | .local _ .vmem, ⟨57, _⟩ => ⟨S3, .f32⟩
  | .local _ .vmem, ⟨58, _⟩ => ⟨S8192x3, .f32⟩
  | .local _ .vmem, ⟨59, _⟩ => ⟨S8192x3, .f32⟩
  | _, _ => ⟨S65536x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c_1 : Ref sig .tc := ⟨.hbm, 39, rfl⟩
abbrev main_v11 : Ref sig .tc := ⟨.hbm, 40, rfl⟩
abbrev main_v12 : Ref sig .tc := ⟨.hbm, 41, rfl⟩
abbrev main_c_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_3 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_c_4 : Ref sig .tc := ⟨.hbm, 56, rfl⟩
abbrev main_v25 : Ref sig .tc := ⟨.hbm, 57, rfl⟩
abbrev main_v26 : Ref sig .tc := ⟨.hbm, 58, rfl⟩
abbrev main_c_5 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_6 : Ref sig .tc := ⟨.hbm, 65, rfl⟩
abbrev main_v32 : Ref sig .tc := ⟨.hbm, 66, rfl⟩
abbrev main_v33 : Ref sig .tc := ⟨.hbm, 67, rfl⟩
abbrev main_c_7 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_8 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg5_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg6_0 : Ref sig .tc := ⟨.vmem, 54, rfl⟩
abbrev cc5_stg7_0 : Ref sig .tc := ⟨.vmem, 55, rfl⟩
abbrev cc5_stg8_0 : Ref sig .tc := ⟨.vmem, 56, rfl⟩
abbrev cc5_stg9_0 : Ref sig .tc := ⟨.vmem, 57, rfl⟩
abbrev cc5_stg10_0 : Ref sig .tc := ⟨.vmem, 58, rfl⟩
abbrev cc5_stg10_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem4_0 : DmaSem sig := 43
abbrev cc4_sem5_0 : DmaSem sig := 44
abbrev cc4_sem5_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem7_0 : DmaSem sig := 55
abbrev cc5_sem8_0 : DmaSem sig := 56
abbrev cc5_sem9_0 : DmaSem sig := 57
abbrev cc5_sem10_0 : DmaSem sig := 58
abbrev cc5_sem10_1 : DmaSem sig := 59

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x21 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S21x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x21 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x21 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S43x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S8192x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8192x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S8192x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S192x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S8192x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8192x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S64x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S64x3 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S3 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S8192x3 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

class Facts₀ : Prop where
  bcast_S_S65536x6 : S_.BroadcastsInDim S65536x6 (![] : Fin 0 → Fin S65536x6.rank)
  concatenates_S65536x9_S65536x6_S65536x15_d1 : Shape.Concatenates [S65536x9, S65536x6] S65536x15 1
  concatenates_S65536x15_S65536x6_S65536x21_d1 : Shape.Concatenates [S65536x15, S65536x6] S65536x21 1
  inb_S8192x21_S8192x21_0_0 : ∀ a, (![0, 0] : Fin 2 → Nat) a + S8192x21.size a ≤ S8192x21.size a
  h_S8192x21 : 0 < S8192x21.numel
  shapeCasts_S8192x21_S8192x21 : S8192x21.ShapeCasts S8192x21
  inb_S21x64_S21x64_0_0 : ∀ a, (![0, 0] : Fin 2 → Nat) a + S21x64.size a ≤ S21x64.size a
  h_S21x64 : 0 < S21x64.numel
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  inb_S64x64_S64x64_0_0 : ∀ a, (![0, 0] : Fin 2 → Nat) a + S64x64.size a ≤ S64x64.size a
  h_S64x64 : 0 < S64x64.numel
  inb_S8192x64_S8192x64_0_0 : ∀ a, (![0, 0] : Fin 2 → Nat) a + S8192x64.size a ≤ S8192x64.size a
  h_S8192x64 : 0 < S8192x64.numel
  bcast_S_S524288 : S_.BroadcastsInDim S524288 (![] : Fin 0 → Fin S524288.rank)
  bcast_S524288_S524288x1_0 : S524288.BroadcastsInDim S524288x1 (![0] : Fin 1 → Fin S524288x1.rank)
  slices_S8192x21_o0_0_S8192x15 : S8192x21.Slices ![0, 0] S8192x15
  slices_S8192x21_o0_15_S8192x6 : S8192x21.Slices ![0, 15] S8192x6
  inb_S8192x1_S8192x1_0_0 : ∀ a, (![0, 0] : Fin 2 → Nat) a + S8192x1.size a ≤ S8192x1.size a
  h_S8192x1 : 0 < S8192x1.numel
  concatenates_S8192x15_S8192x15_S8192x6_S8192x6_S8192x1_S8192x43_d1 : Shape.Concatenates [S8192x15, S8192x15, S8192x6, S8192x6, S8192x1] S8192x43 1
  inb_S43x64_S43x64_0_0 : ∀ a, (![0, 0] : Fin 2 → Nat) a + S43x64.size a ≤ S43x64.size a
  h_S43x64 : 0 < S43x64.numel
  slices_S192x64_S64x64_0_0 : S192x64.Slices ![0, 0] S64x64
  shapeCasts_S8192x64_S8192x64 : S8192x64.ShapeCasts S8192x64
  shapeCasts_S64x64_S64x64 : S64x64.ShapeCasts S64x64
  bcast_S_S65536x64 : S_.BroadcastsInDim S65536x64 (![] : Fin 0 → Fin S65536x64.rank)
  concatenates_S8192x64_S8192x64_S8192x128_d1 : Shape.Concatenates [S8192x64, S8192x64] S8192x128 1
  inb_S128x64_S128x64_0_0 : ∀ a, (![0, 0] : Fin 2 → Nat) a + S128x64.size a ≤ S128x64.size a
  h_S128x64 : 0 < S128x64.numel
  concatenates_S8192x64_S8192x64_S8192x64_S8192x192_d1 : Shape.Concatenates [S8192x64, S8192x64, S8192x64] S8192x192 1
  inb_S192x64_S192x64_0_0 : ∀ a, (![0, 0] : Fin 2 → Nat) a + S192x64.size a ≤ S192x64.size a
  h_S192x64 : 0 < S192x64.numel
  inb_S64x3_S64x3_0_0 : ∀ a, (![0, 0] : Fin 2 → Nat) a + S64x3.size a ≤ S64x3.size a
  h_S64x3 : 0 < S64x3.numel
  inb_S3_S3_0 : ∀ a, (![0] : Fin 1 → Nat) a + S3.size a ≤ S3.size a
  h_S3 : 0 < S3.numel
  shapeCasts_S3_S1x3 : S3.ShapeCasts S1x3
  broadcasts_S1x3_S8192x3 : S1x3.Broadcasts S8192x3
  inb_S8192x3_S8192x3_0_0 : ∀ a, (![0, 0] : Fin 2 → Nat) a + S8192x3.size a ≤ S8192x3.size a
  h_S8192x3 : 0 < S8192x3.numel
  dot_S8192x21_S21x64_S8192x64_1_0_0_1_n_n_wf : DotDims.WF S8192x21 S21x64 S8192x64 [1] [0] [0] [1] [] []
  dot_S8192x64_S64x64_S8192x64_1_0_0_1_n_n_wf : DotDims.WF S8192x64 S64x64 S8192x64 [1] [0] [0] [1] [] []
  gather_S65536x21_S524288x1_S524288x21_1_0_n_n_0_1_121_wf : GatherDims.WF S65536x21 S524288x1 S524288x21 [1] [0] [] [0] [] 1 ![1, 21]
  dot_S8192x43_S43x64_S8192x64_1_0_0_1_n_n_wf : DotDims.WF S8192x43 S43x64 S8192x64 [1] [0] [0] [1] [] []
  scatter_S65536x64_S524288x1_S524288x64_1_0_0_1_wf : ScatterDims.WF S65536x64 S524288x1 S524288x64 [1] [0] [0] 1
  dot_S8192x128_S128x64_S8192x64_1_0_0_1_n_n_wf : DotDims.WF S8192x128 S128x64 S8192x64 [1] [0] [0] [1] [] []
  gather_S65536x64_S524288x1_S524288x64_1_0_n_n_0_1_164_wf : GatherDims.WF S65536x64 S524288x1 S524288x64 [1] [0] [] [0] [] 1 ![1, 64]
  dot_S8192x192_S192x64_S8192x64_1_0_0_1_n_n_wf : DotDims.WF S8192x192 S192x64 S8192x64 [1] [0] [0] [1] [] []
  dot_S8192x64_S64x3_S8192x3_1_0_0_1_n_n_wf : DotDims.WF S8192x64 S64x3 S8192x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x21.size a ≤ S65536x21.size a
  hwx0_0 : ∀ i : grid0.Coords, EltTy.bits .f32 = 32 ∨ (Rect.block (s := S65536x21) S8192x21.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S21x64.size a ≤ S21x64.size a
  hwx0_1 : ∀ i : grid0.Coords, EltTy.bits .f32 = 32 ∨ (Rect.block (s := S21x64) S21x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x64.size a ≤ S65536x64.size a
  hwx0_5 : ∀ i : grid0.Coords, EltTy.bits .f32 = 32 ∨ (Rect.block (s := S65536x64) S8192x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x21.size a ≤ S524288x21.size a
  hwx1_0 : ∀ i : grid1.Coords, EltTy.bits .f32 = 32 ∨ (Rect.block (s := S524288x21) S8192x21.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x21.size a ≤ S524288x21.size a
  hwx1_1 : ∀ i : grid1.Coords, EltTy.bits .f32 = 32 ∨ (Rect.block (s := S524288x21) S8192x21.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x1.size a ≤ S524288x1.size a
  hwx1_2 : ∀ i : grid1.Coords, EltTy.bits .f32 = 32 ∨ (Rect.block (s := S524288x1) S8192x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S43x64.size a ≤ S43x64.size a
  hwx1_3 : ∀ i : grid1.Coords, EltTy.bits .f32 = 32 ∨ (Rect.block (s := S43x64) S43x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8192x64.size a ≤ S524288x64.size a
  hwx1_9 : ∀ i : grid1.Coords, EltTy.bits .f32 = 32 ∨ (Rect.block (s := S524288x64) S8192x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S524288x64.size a
  hwx2_0 : ∀ i : grid2.Coords, EltTy.bits .f32 = 32 ∨ (Rect.block (s := S524288x64) S8192x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8192x64.size a ≤ S524288x64.size a
  hwx2_3 : ∀ i : grid2.Coords, EltTy.bits .f32 = 32 ∨ (Rect.block (s := S524288x64) S8192x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x64.size a ≤ S65536x64.size a
  hwx3_0 : ∀ i : grid3.Coords, EltTy.bits .f32 = 32 ∨ (Rect.block (s := S65536x64) S8192x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x64.size a ≤ S65536x64.size a
  hwx3_1 : ∀ i : grid3.Coords, EltTy.bits .f32 = 32 ∨ (Rect.block (s := S65536x64) S8192x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8192x64.size a ≤ S65536x64.size a
  hwx3_4 : ∀ i : grid3.Coords, EltTy.bits .f32 = 32 ∨ (Rect.block (s := S65536x64) S8192x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x64.size a ≤ S524288x64.size a
  hwx4_0 : ∀ i : grid4.Coords, EltTy.bits .f32 = 32 ∨ (Rect.block (s := S524288x64) S8192x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x64.size a ≤ S524288x64.size a
  hwx4_1 : ∀ i : grid4.Coords, EltTy.bits .f32 = 32 ∨ (Rect.block (s := S524288x64) S8192x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x64.size a ≤ S524288x64.size a
  hwx4_2 : ∀ i : grid4.Coords, EltTy.bits .f32 = 32 ∨ (Rect.block (s := S524288x64) S8192x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S192x64.size a ≤ S192x64.size a
  hwx4_3 : ∀ i : grid4.Coords, EltTy.bits .f32 = 32 ∨ (Rect.block (s := S192x64) S192x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8192x64.size a ≤ S524288x64.size a
  hwx4_5 : ∀ i : grid4.Coords, EltTy.bits .f32 = 32 ∨ (Rect.block (s := S524288x64) S8192x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x64.size a ≤ S65536x64.size a
  hwx5_0 : ∀ i : grid5.Coords, EltTy.bits .f32 = 32 ∨ (Rect.block (s := S65536x64) S8192x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8192x64.size a ≤ S65536x64.size a
  hwx5_1 : ∀ i : grid5.Coords, EltTy.bits .f32 = 32 ∨ (Rect.block (s := S65536x64) S8192x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x64.size a ≤ S128x64.size a
  hwx5_2 : ∀ i : grid5.Coords, EltTy.bits .f32 = 32 ∨ (Rect.block (s := S128x64) S128x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64.size a ≤ S64.size a
  hwx5_5 : ∀ i : grid5.Coords, EltTy.bits .f32 = 32 ∨ (Rect.block (s := S64) S64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64x64.size a ≤ S64x64.size a
  hwx5_6 : ∀ i : grid5.Coords, EltTy.bits .f32 = 32 ∨ (Rect.block (s := S64x64) S64x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S64.size a ≤ S64.size a
  hwx5_7 : ∀ i : grid5.Coords, EltTy.bits .f32 = 32 ∨ (Rect.block (s := S64) S64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S64x3.size a ≤ S64x3.size a
  hwx5_8 : ∀ i : grid5.Coords, EltTy.bits .f32 = 32 ∨ (Rect.block (s := S64x3) S64x3.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S3.size a ≤ S3.size a
  hwx5_9 : ∀ i : grid5.Coords, EltTy.bits .f32 = 32 ∨ (Rect.block (s := S3) S3.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S8192x3.size a ≤ S65536x3.size a
  hwx5_10 : ∀ i : grid5.Coords, EltTy.bits .f32 = 32 ∨ (Rect.block (s := S65536x3) S8192x3.size (cc5_transform_10 i) (hinb5_10 i)).WholeWords (EltTy.packing .f32)

variable [Facts₀]

def dot_S8192x21_S21x64_S8192x64_1_0_0_1_n_n : DotDims S8192x21 S21x64 S8192x64 where
  lhsContracting := [1]
  rhsContracting := [0]
  lhsNonContracting := [0]
  rhsNonContracting := [1]
  lhsBatch := []
  rhsBatch := []
  wf := dot_S8192x21_S21x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def gather_S65536x21_S524288x1_S524288x21_1_0_n_n_0_1_121 : GatherDims S65536x21 S524288x1 S524288x21 where
  offsetDims := [1]
  collapsedSliceDims := [0]
  operandBatchingDims := []
  startIndicesBatchingDims := []
  startIndexMap := [0]
  indexVectorDim := 1
  sliceSizes := ![1, 21]
  wf := gather_S65536x21_S524288x1_S524288x21_1_0_n_n_0_1_121_wf
def dot_S8192x43_S43x64_S8192x64_1_0_0_1_n_n : DotDims S8192x43 S43x64 S8192x64 where
  lhsContracting := [1]
  rhsContracting := [0]
  lhsNonContracting := [0]
  rhsNonContracting := [1]
  lhsBatch := []
  rhsBatch := []
  wf := dot_S8192x43_S43x64_S8192x64_1_0_0_1_n_n_wf
def scatter_S65536x64_S524288x1_S524288x64_1_0_0_1 : ScatterDims S65536x64 S524288x1 S524288x64 where
  updateWindowDims := [1]
  insertedWindowDims := [0]
  scatterDimsToOperandDims := [0]
  indexVectorDim := 1
  wf := scatter_S65536x64_S524288x1_S524288x64_1_0_0_1_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def gather_S65536x64_S524288x1_S524288x64_1_0_n_n_0_1_164 : GatherDims S65536x64 S524288x1 S524288x64 where
  offsetDims := [1]
  collapsedSliceDims := [0]
  operandBatchingDims := []
  startIndicesBatchingDims := []
  startIndexMap := [0]
  indexVectorDim := 1
  sliceSizes := ![1, 64]
  wf := gather_S65536x64_S524288x1_S524288x64_1_0_n_n_0_1_164_wf
def dot_S8192x192_S192x64_S8192x64_1_0_0_1_n_n : DotDims S8192x192 S192x64 S8192x64 where
  lhsContracting := [1]
  rhsContracting := [0]
  lhsNonContracting := [0]
  rhsNonContracting := [1]
  lhsBatch := []
  rhsBatch := []
  wf := dot_S8192x192_S192x64_S8192x64_1_0_0_1_n_n_wf
def dot_S8192x64_S64x3_S8192x3_1_0_0_1_n_n : DotDims S8192x64 S64x3 S8192x3 where
  lhsContracting := [1]
  rhsContracting := [0]
  lhsNonContracting := [0]
  rhsNonContracting := [1]
  lhsBatch := []
  rhsBatch := []
  wf := dot_S8192x64_S64x3_S8192x3_1_0_0_1_n_n_wf

abbrev win0_0 : Pipeline.Window sig grid0 :=
  Pipeline.Window.ofSpec (Memref.whole main_v2) S8192x21.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S21x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S8192x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v10) S8192x21.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S8192x21.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S8192x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S43x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v18) S8192x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v18) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg16) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S8192x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v3) S8192x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S8192x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg17) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg18) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v24) S8192x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v18) S8192x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31) S8192x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v38) S8192x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S192x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg16) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v39) S8192x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v3) S8192x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v42) S8192x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg17) S128x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg18) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg19) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg20) S64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg21) S64x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg22) S64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_arg23) S64x3.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_arg24) S3.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v43) S8192x3.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

class Facts : Prop extends Facts₀ where

variable [Facts]
-- ==== ReferenceIdeal.lean ====
abbrev S65536x9 : Shape := ⟨2, ![65536, 9]⟩
abbrev S65536x6 : Shape := ⟨2, ![65536, 6]⟩
abbrev S524288x1 : Shape := ⟨2, ![524288, 1]⟩
abbrev S524288 : Shape := ⟨1, ![524288]⟩
abbrev S21x64 : Shape := ⟨2, ![21, 64]⟩
abbrev S64 : Shape := ⟨1, ![64]⟩
abbrev S64x64 : Shape := ⟨2, ![64, 64]⟩
abbrev S43x64 : Shape := ⟨2, ![43, 64]⟩
abbrev S192x64 : Shape := ⟨2, ![192, 64]⟩
abbrev S128x64 : Shape := ⟨2, ![128, 64]⟩
abbrev S64x3 : Shape := ⟨2, ![64, 3]⟩
abbrev S3 : Shape := ⟨1, ![3]⟩
abbrev S_ : Shape := ⟨0, ![]⟩
abbrev S65536x15 : Shape := ⟨2, ![65536, 15]⟩
abbrev S524288x15 : Shape := ⟨2, ![524288, 15]⟩
abbrev S524288x6 : Shape := ⟨2, ![524288, 6]⟩
abbrev S524288x43 : Shape := ⟨2, ![524288, 43]⟩
abbrev S524288x64 : Shape := ⟨2, ![524288, 64]⟩
abbrev S1x64 : Shape := ⟨2, ![1, 64]⟩
abbrev S65536x21 : Shape := ⟨2, ![65536, 21]⟩
abbrev S65536x64 : Shape := ⟨2, ![65536, 64]⟩
abbrev S524288x192 : Shape := ⟨2, ![524288, 192]⟩
abbrev S65536x128 : Shape := ⟨2, ![65536, 128]⟩
abbrev S65536x3 : Shape := ⟨2, ![65536, 3]⟩
abbrev S1x3 : Shape := ⟨2, ![1, 3]⟩

abbrev nBuf : Space → Nat
  | .hbm => 197
  | .vmem => 0
  | .smem => 0
  | _ => 0

abbrev hbmTy0_0 (i : Nat) : BufTy := match i % 128 with
  | 0 => ⟨S65536x9, .f32⟩
  | 1 => ⟨S65536x6, .f32⟩
  | 2 => ⟨S524288x1, .f32⟩
  | 3 => ⟨S524288, .i32⟩
  | 4 => ⟨S524288, .i32⟩
  | 5 => ⟨S21x64, .f32⟩
  | 6 => ⟨S64, .f32⟩
  | 7 => ⟨S64x64, .f32⟩
  | 8 => ⟨S64, .f32⟩
  | 9 => ⟨S43x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S192x64, .f32⟩
  | 16 => ⟨S64, .f32⟩
  | 17 => ⟨S128x64, .f32⟩
  | 18 => ⟨S64, .f32⟩
  | 19 => ⟨S64x64, .f32⟩
  | 20 => ⟨S64, .f32⟩
  | 21 => ⟨S64x64, .f32⟩
  | 22 => ⟨S64, .f32⟩
  | 23 => ⟨S64x3, .f32⟩
  | 24 => ⟨S3, .f32⟩
  | 25 => ⟨S_, .f32⟩
  | 26 => ⟨S65536x6, .f32⟩
  | 27 => ⟨S65536x15, .f32⟩
  | 28 => ⟨S_, .i32⟩
  | 29 => ⟨S524288, .i32⟩
  | 30 => ⟨S524288, .i1⟩
  | 31 => ⟨S_, .i32⟩
  | 32 => ⟨S524288, .i32⟩
  | 33 => ⟨S524288, .i32⟩
  | 34 => ⟨S524288, .i32⟩
  | 35 => ⟨S524288x1, .i32⟩
  | 36 => ⟨S524288x15, .f32⟩
  | 37 => ⟨S_, .i32⟩
  | 38 => ⟨S524288, .i32⟩
  | 39 => ⟨S524288, .i1⟩
  | 40 => ⟨S_, .i32⟩
  | 41 => ⟨S524288, .i32⟩
  | 42 => ⟨S524288, .i32⟩
  | 43 => ⟨S524288, .i32⟩
  | 44 => ⟨S524288x1, .i32⟩
  | 45 => ⟨S524288x15, .f32⟩
  | 46 => ⟨S_, .i32⟩
  | 47 => ⟨S524288, .i32⟩
  | 48 => ⟨S524288, .i1⟩
  | 49 => ⟨S_, .i32⟩
  | 50 => ⟨S524288, .i32⟩
  | 51 => ⟨S524288, .i32⟩
  | 52 => ⟨S524288, .i32⟩
  | 53 => ⟨S524288x1, .i32⟩
  | 54 => ⟨S524288x6, .f32⟩
  | 55 => ⟨S_, .i32⟩
  | 56 => ⟨S524288, .i32⟩
  | 57 => ⟨S524288, .i1⟩
  | 58 => ⟨S_, .i32⟩
  | 59 => ⟨S524288, .i32⟩
  | 60 => ⟨S524288, .i32⟩
  | 61 => ⟨S524288, .i32⟩
  | 62 => ⟨S524288x1, .i32⟩
  | 63 => ⟨S524288x6, .f32⟩
  | 64 => ⟨S524288x43, .f32⟩
  | 65 => ⟨S524288x64, .f32⟩
  | 66 => ⟨S1x64, .f32⟩
  | 67 => ⟨S524288x64, .f32⟩
  | 68 => ⟨S524288x64, .f32⟩
  | 69 => ⟨S_, .f32⟩
  | 70 => ⟨S524288x64, .f32⟩
  | 71 => ⟨S524288x64, .f32⟩
  | 72 => ⟨S524288x64, .f32⟩
  | 73 => ⟨S1x64, .f32⟩
  | 74 => ⟨S524288x64, .f32⟩
  | 75 => ⟨S524288x64, .f32⟩
  | 76 => ⟨S_, .f32⟩
  | 77 => ⟨S524288x64, .f32⟩
  | 78 => ⟨S524288x64, .f32⟩
  | 79 => ⟨S524288x64, .f32⟩
  | 80 => ⟨S1x64, .f32⟩
  | 81 => ⟨S524288x64, .f32⟩
  | 82 => ⟨S524288x64, .f32⟩
  | 83 => ⟨S_, .f32⟩
  | 84 => ⟨S524288x64, .f32⟩
  | 85 => ⟨S524288x64, .f32⟩
  | 86 => ⟨S65536x21, .f32⟩
  | 87 => ⟨S65536x64, .f32⟩
  | 88 => ⟨S1x64, .f32⟩
  | 89 => ⟨S65536x64, .f32⟩
  | 90 => ⟨S65536x64, .f32⟩
  | 91 => ⟨S_, .f32⟩
  | 92 => ⟨S65536x64, .f32⟩
  | 93 => ⟨S65536x64, .f32⟩
  | 94 => ⟨S65536x64, .f32⟩
  | 95 => ⟨S1x64, .f32⟩
  | 96 => ⟨S65536x64, .f32⟩
  | 97 => ⟨S65536x64, .f32⟩
  | 98 => ⟨S_, .f32⟩
  | 99 => ⟨S65536x64, .f32⟩
  | 100 => ⟨S65536x64, .f32⟩
  | 101 => ⟨S_, .f32⟩
  | 102 => ⟨S65536x64, .f32⟩
  | 103 => ⟨S_, .i32⟩
  | 104 => ⟨S524288, .i32⟩
  | 105 => ⟨S524288, .i1⟩
  | 106 => ⟨S_, .i32⟩
  | 107 => ⟨S524288, .i32⟩
  | 108 => ⟨S524288, .i32⟩
  | 109 => ⟨S524288, .i32⟩
  | 110 => ⟨S524288x1, .i32⟩
  | 111 => ⟨S524288x64, .f32⟩
  | 112 => ⟨S_, .i32⟩
  | 113 => ⟨S524288, .i32⟩
  | 114 => ⟨S524288, .i1⟩
  | 115 => ⟨S_, .i32⟩
  | 116 => ⟨S524288, .i32⟩
  | 117 => ⟨S524288, .i32⟩
  | 118 => ⟨S524288, .i32⟩
  | 119 => ⟨S524288x1, .i32⟩
  | 120 => ⟨S524288x64, .f32⟩
  | 121 => ⟨S524288x192, .f32⟩
  | 122 => ⟨S524288x64, .f32⟩
  | 123 => ⟨S1x64, .f32⟩
  | 124 => ⟨S524288x64, .f32⟩
  | 125 => ⟨S524288x64, .f32⟩
  | 126 => ⟨S_, .f32⟩
  | 127 => ⟨S524288x64, .f32⟩
  | _ => ⟨S65536x9, .f32⟩

abbrev hbmTy0_1 (i : Nat) : BufTy := match i % 128 with
  | 0 => ⟨S524288x64, .f32⟩
  | 1 => ⟨S_, .f32⟩
  | 2 => ⟨S65536x64, .f32⟩
  | 3 => ⟨S524288x1, .i32⟩
  | 4 => ⟨S65536x64, .f32⟩
  | 5 => ⟨S65536x128, .f32⟩
  | 6 => ⟨S65536x64, .f32⟩
  | 7 => ⟨S1x64, .f32⟩
  | 8 => ⟨S65536x64, .f32⟩
  | 9 => ⟨S65536x64, .f32⟩
  | 10 => ⟨S_, .f32⟩
  | 11 => ⟨S65536x64, .f32⟩
  | 12 => ⟨S65536x64, .f32⟩
  | 13 => ⟨S_, .i32⟩
  | 14 => ⟨S524288, .i32⟩
  | 15 => ⟨S524288, .i1⟩
  | 16 => ⟨S_, .i32⟩
  | 17 => ⟨S524288, .i32⟩
  | 18 => ⟨S524288, .i32⟩
  | 19 => ⟨S524288, .i32⟩
  | 20 => ⟨S524288x1, .i32⟩
  | 21 => ⟨S524288x64, .f32⟩
  | 22 => ⟨S_, .i32⟩
  | 23 => ⟨S524288, .i32⟩
  | 24 => ⟨S524288, .i1⟩
  | 25 => ⟨S_, .i32⟩
  | 26 => ⟨S524288, .i32⟩
  | 27 => ⟨S524288, .i32⟩
  | 28 => ⟨S524288, .i32⟩
  | 29 => ⟨S524288x1, .i32⟩
  | 30 => ⟨S524288x64, .f32⟩
  | 31 => ⟨S524288x192, .f32⟩
  | 32 => ⟨S524288x64, .f32⟩
  | 33 => ⟨S1x64, .f32⟩
  | 34 => ⟨S524288x64, .f32⟩
  | 35 => ⟨S524288x64, .f32⟩
  | 36 => ⟨S_, .f32⟩
  | 37 => ⟨S524288x64, .f32⟩
  | 38 => ⟨S524288x64, .f32⟩
  | 39 => ⟨S_, .f32⟩
  | 40 => ⟨S65536x64, .f32⟩
  | 41 => ⟨S524288x1, .i32⟩
  | 42 => ⟨S65536x64, .f32⟩
  | 43 => ⟨S65536x128, .f32⟩
  | 44 => ⟨S65536x64, .f32⟩
  | 45 => ⟨S1x64, .f32⟩
  | 46 => ⟨S65536x64, .f32⟩
  | 47 => ⟨S65536x64, .f32⟩
  | 48 => ⟨S_, .f32⟩
  | 49 => ⟨S65536x64, .f32⟩
  | 50 => ⟨S65536x64, .f32⟩
  | 51 => ⟨S65536x64, .f32⟩
  | 52 => ⟨S1x64, .f32⟩
  | 53 => ⟨S65536x64, .f32⟩
  | 54 => ⟨S65536x64, .f32⟩
  | 55 => ⟨S_, .f32⟩
  | 56 => ⟨S65536x64, .f32⟩
  | 57 => ⟨S65536x64, .f32⟩
  | 58 => ⟨S65536x64, .f32⟩
  | 59 => ⟨S1x64, .f32⟩
  | 60 => ⟨S65536x64, .f32⟩
  | 61 => ⟨S65536x64, .f32⟩
  | 62 => ⟨S_, .f32⟩
  | 63 => ⟨S65536x64, .f32⟩
  | 64 => ⟨S65536x64, .f32⟩
  | 65 => ⟨S65536x3, .f32⟩
  | 66 => ⟨S1x3, .f32⟩
  | 67 => ⟨S65536x3, .f32⟩
  | 68 => ⟨S65536x3, .f32⟩
  | _ => ⟨S65536x9, .f32⟩

abbrev hbmTy (i : Nat) : BufTy := match i / 128 with
  | 0 => hbmTy0_0 i
  | 1 => hbmTy0_1 i
  | _ => ⟨S65536x9, .f32⟩

abbrev bufTy : (tb : Table) → Fin (tcTables nBuf tb) → BufTy
  | .hbm, ⟨i, _⟩ => hbmTy i
  | _, _ => ⟨S65536x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_v1 : Ref sig .tc := ⟨.hbm, 27, rfl⟩
abbrev main_c : Ref sig .tc := ⟨.hbm, 28, rfl⟩
abbrev main_v2 : Ref sig .tc := ⟨.hbm, 29, rfl⟩
abbrev main_v3 : Ref sig .tc := ⟨.hbm, 30, rfl⟩
abbrev main_c_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_c_1 : Ref sig .tc := ⟨.hbm, 37, rfl⟩
abbrev main_v9 : Ref sig .tc := ⟨.hbm, 38, rfl⟩
abbrev main_v10 : Ref sig .tc := ⟨.hbm, 39, rfl⟩
abbrev main_c_2 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_c_3 : Ref sig .tc := ⟨.hbm, 46, rfl⟩
abbrev main_v16 : Ref sig .tc := ⟨.hbm, 47, rfl⟩
abbrev main_v17 : Ref sig .tc := ⟨.hbm, 48, rfl⟩
abbrev main_c_4 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_c_5 : Ref sig .tc := ⟨.hbm, 55, rfl⟩
abbrev main_v23 : Ref sig .tc := ⟨.hbm, 56, rfl⟩
abbrev main_v24 : Ref sig .tc := ⟨.hbm, 57, rfl⟩
abbrev main_c_6 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_call0_cst : Ref sig .tc := ⟨.hbm, 69, rfl⟩
abbrev main_call0_v0 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_call1_cst : Ref sig .tc := ⟨.hbm, 76, rfl⟩
abbrev main_call1_v0 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_call2_cst : Ref sig .tc := ⟨.hbm, 83, rfl⟩
abbrev main_call2_v0 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_call3_cst : Ref sig .tc := ⟨.hbm, 91, rfl⟩
abbrev main_call3_v0 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_call4_cst : Ref sig .tc := ⟨.hbm, 98, rfl⟩
abbrev main_call4_v0 : Ref sig .tc := ⟨.hbm, 99, rfl⟩
abbrev main_v56 : Ref sig .tc := ⟨.hbm, 100, rfl⟩
abbrev main_cst_7 : Ref sig .tc := ⟨.hbm, 101, rfl⟩
abbrev main_v57 : Ref sig .tc := ⟨.hbm, 102, rfl⟩
abbrev main_c_8 : Ref sig .tc := ⟨.hbm, 103, rfl⟩
abbrev main_v58 : Ref sig .tc := ⟨.hbm, 104, rfl⟩
abbrev main_v59 : Ref sig .tc := ⟨.hbm, 105, rfl⟩
abbrev main_c_9 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_c_10 : Ref sig .tc := ⟨.hbm, 112, rfl⟩
abbrev main_v65 : Ref sig .tc := ⟨.hbm, 113, rfl⟩
abbrev main_v66 : Ref sig .tc := ⟨.hbm, 114, rfl⟩
abbrev main_c_11 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_call5_cst : Ref sig .tc := ⟨.hbm, 126, rfl⟩
abbrev main_call5_v0 : Ref sig .tc := ⟨.hbm, 127, rfl⟩
abbrev main_v77 : Ref sig .tc := ⟨.hbm, 128, rfl⟩
abbrev main_cst_12 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_call6_cst : Ref sig .tc := ⟨.hbm, 138, rfl⟩
abbrev main_call6_v0 : Ref sig .tc := ⟨.hbm, 139, rfl⟩
abbrev main_v86 : Ref sig .tc := ⟨.hbm, 140, rfl⟩
abbrev main_c_13 : Ref sig .tc := ⟨.hbm, 141, rfl⟩
abbrev main_v87 : Ref sig .tc := ⟨.hbm, 142, rfl⟩
abbrev main_v88 : Ref sig .tc := ⟨.hbm, 143, rfl⟩
abbrev main_c_14 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_c_15 : Ref sig .tc := ⟨.hbm, 150, rfl⟩
abbrev main_v94 : Ref sig .tc := ⟨.hbm, 151, rfl⟩
abbrev main_v95 : Ref sig .tc := ⟨.hbm, 152, rfl⟩
abbrev main_c_16 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_call7_cst : Ref sig .tc := ⟨.hbm, 164, rfl⟩
abbrev main_call7_v0 : Ref sig .tc := ⟨.hbm, 165, rfl⟩
abbrev main_v106 : Ref sig .tc := ⟨.hbm, 166, rfl⟩
abbrev main_cst_17 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_call8_cst : Ref sig .tc := ⟨.hbm, 176, rfl⟩
abbrev main_call8_v0 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_call9_cst : Ref sig .tc := ⟨.hbm, 183, rfl⟩
abbrev main_call9_v0 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_call10_cst : Ref sig .tc := ⟨.hbm, 190, rfl⟩
abbrev main_call10_v0 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩

abbrev nD : Nat := 1
abbrev τ : Topo := Topo.v7x

variable {F : FTy → Type} [FloatOps F]

class Facts₀ : Prop where
  bcast_S_S65536x6 : S_.BroadcastsInDim S65536x6 (![] : Fin 0 → Fin S65536x6.rank)
  concatenates_S65536x9_S65536x6_S65536x15_d1 : Shape.Concatenates [S65536x9, S65536x6] S65536x15 1
  bcast_S_S524288 : S_.BroadcastsInDim S524288 (![] : Fin 0 → Fin S524288.rank)
  bcast_S524288_S524288x1_0 : S524288.BroadcastsInDim S524288x1 (![0] : Fin 1 → Fin S524288x1.rank)
  concatenates_S524288x15_S524288x15_S524288x6_S524288x6_S524288x1_S524288x43_d1 : Shape.Concatenates [S524288x15, S524288x15, S524288x6, S524288x6, S524288x1] S524288x43 1
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  bcast_S_S524288x64 : S_.BroadcastsInDim S524288x64 (![] : Fin 0 → Fin S524288x64.rank)
  concatenates_S65536x15_S65536x6_S65536x21_d1 : Shape.Concatenates [S65536x15, S65536x6] S65536x21 1
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  concatenates_S524288x64_S524288x64_S524288x64_S524288x192_d1 : Shape.Concatenates [S524288x64, S524288x64, S524288x64] S524288x192 1
  concatenates_S65536x64_S65536x64_S65536x128_d1 : Shape.Concatenates [S65536x64, S65536x64] S65536x128 1
  bcast_S3_S1x3_1 : S3.BroadcastsInDim S1x3 (![1] : Fin 1 → Fin S1x3.rank)
  bcast_S1x3_S65536x3_0_1 : S1x3.BroadcastsInDim S65536x3 (![0, 1] : Fin 2 → Fin S65536x3.rank)
  gather_S65536x15_S524288x1_S524288x15_1_0_n_n_0_1_115_wf : GatherDims.WF S65536x15 S524288x1 S524288x15 [1] [0] [] [0] [] 1 ![1, 15]
  gather_S65536x6_S524288x1_S524288x6_1_0_n_n_0_1_16_wf : GatherDims.WF S65536x6 S524288x1 S524288x6 [1] [0] [] [0] [] 1 ![1, 6]
  dot_S524288x43_S43x64_S524288x64_1_0_0_1_n_n_wf : DotDims.WF S524288x43 S43x64 S524288x64 [1] [0] [0] [1] [] []
  dot_S524288x64_S64x64_S524288x64_1_0_0_1_n_n_wf : DotDims.WF S524288x64 S64x64 S524288x64 [1] [0] [0] [1] [] []
  dot_S65536x21_S21x64_S65536x64_1_0_0_1_n_n_wf : DotDims.WF S65536x21 S21x64 S65536x64 [1] [0] [0] [1] [] []
  dot_S65536x64_S64x64_S65536x64_1_0_0_1_n_n_wf : DotDims.WF S65536x64 S64x64 S65536x64 [1] [0] [0] [1] [] []
  gather_S65536x64_S524288x1_S524288x64_1_0_n_n_0_1_164_wf : GatherDims.WF S65536x64 S524288x1 S524288x64 [1] [0] [] [0] [] 1 ![1, 64]
  dot_S524288x192_S192x64_S524288x64_1_0_0_1_n_n_wf : DotDims.WF S524288x192 S192x64 S524288x64 [1] [0] [0] [1] [] []
  scatter_S65536x64_S524288x1_S524288x64_1_0_0_1_wf : ScatterDims.WF S65536x64 S524288x1 S524288x64 [1] [0] [0] 1
  dot_S65536x128_S128x64_S65536x64_1_0_0_1_n_n_wf : DotDims.WF S65536x128 S128x64 S65536x64 [1] [0] [0] [1] [] []
  dot_S65536x64_S64x3_S65536x3_1_0_0_1_n_n_wf : DotDims.WF S65536x64 S64x3 S65536x3 [1] [0] [0] [1] [] []

variable [Facts₀]

def gather_S65536x15_S524288x1_S524288x15_1_0_n_n_0_1_115 : GatherDims S65536x15 S524288x1 S524288x15 where
  offsetDims := [1]
  collapsedSliceDims := [0]
  operandBatchingDims := []
  startIndicesBatchingDims := []
  startIndexMap := [0]
  indexVectorDim := 1
  sliceSizes := ![1, 15]
  wf := gather_S65536x15_S524288x1_S524288x15_1_0_n_n_0_1_115_wf
def gather_S65536x6_S524288x1_S524288x6_1_0_n_n_0_1_16 : GatherDims S65536x6 S524288x1 S524288x6 where
  offsetDims := [1]
  collapsedSliceDims := [0]
  operandBatchingDims := []
  startIndicesBatchingDims := []
  startIndexMap := [0]
  indexVectorDim := 1
  sliceSizes := ![1, 6]
  wf := gather_S65536x6_S524288x1_S524288x6_1_0_n_n_0_1_16_wf
def dot_S524288x43_S43x64_S524288x64_1_0_0_1_n_n : DotDims S524288x43 S43x64 S524288x64 where
  lhsContracting := [1]
  rhsContracting := [0]
  lhsNonContracting := [0]
  rhsNonContracting := [1]
  lhsBatch := []
  rhsBatch := []
  wf := dot_S524288x43_S43x64_S524288x64_1_0_0_1_n_n_wf
def dot_S524288x64_S64x64_S524288x64_1_0_0_1_n_n : DotDims S524288x64 S64x64 S524288x64 where
  lhsContracting := [1]
  rhsContracting := [0]
  lhsNonContracting := [0]
  rhsNonContracting := [1]
  lhsBatch := []
  rhsBatch := []
  wf := dot_S524288x64_S64x64_S524288x64_1_0_0_1_n_n_wf
def dot_S65536x21_S21x64_S65536x64_1_0_0_1_n_n : DotDims S65536x21 S21x64 S65536x64 where
  lhsContracting := [1]
  rhsContracting := [0]
  lhsNonContracting := [0]
  rhsNonContracting := [1]
  lhsBatch := []
  rhsBatch := []
  wf := dot_S65536x21_S21x64_S65536x64_1_0_0_1_n_n_wf
def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf
def gather_S65536x64_S524288x1_S524288x64_1_0_n_n_0_1_164 : GatherDims S65536x64 S524288x1 S524288x64 where
  offsetDims := [1]
  collapsedSliceDims := [0]
  operandBatchingDims := []
  startIndicesBatchingDims := []
  startIndexMap := [0]
  indexVectorDim := 1
  sliceSizes := ![1, 64]
  wf := gather_S65536x64_S524288x1_S524288x64_1_0_n_n_0_1_164_wf
def dot_S524288x192_S192x64_S524288x64_1_0_0_1_n_n : DotDims S524288x192 S192x64 S524288x64 where
  lhsContracting := [1]
  rhsContracting := [0]
  lhsNonContracting := [0]
  rhsNonContracting := [1]
  lhsBatch := []
  rhsBatch := []
  wf := dot_S524288x192_S192x64_S524288x64_1_0_0_1_n_n_wf
def scatter_S65536x64_S524288x1_S524288x64_1_0_0_1 : ScatterDims S65536x64 S524288x1 S524288x64 where
  updateWindowDims := [1]
  insertedWindowDims := [0]
  scatterDimsToOperandDims := [0]
  indexVectorDim := 1
  wf := scatter_S65536x64_S524288x1_S524288x64_1_0_0_1_wf
def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x64_S64x3_S65536x3_1_0_0_1_n_n : DotDims S65536x64 S64x3 S65536x3 where
  lhsContracting := [1]
  rhsContracting := [0]
  lhsNonContracting := [0]
  rhsNonContracting := [1]
  lhsBatch := []
  rhsBatch := []
  wf := dot_S65536x64_S64x3_S65536x3_1_0_0_1_n_n_wf

class Facts : Prop extends Facts₀ where

variable [Facts]
-- ==== Proof.LibContract.lean ====
/-
  A matrix product with ONE contracted axis, read at an output index over the extended reals.

  The matrix unit's product into a zero accumulator is, at an output index j, the sum over the contraction
  index of the products of the two operands at the operand indices the dimension numbers give. When a single
  axis is contracted, of extent K, the contraction index is that axis's coordinate, and the sum is a sum over
  `Fin K`. The caller names the operand index at coordinate k on each side.
-/
import Idealize.ShloMosaic.PureOps.Ideal
import Idealize.ShloMosaic.PureOps.Ideal.Laws
import Idealize.ShloMosaic.Lib.ValueIdx

noncomputable section

open scoped BigOperators

namespace Idealize.ShloMosaic.Contract

open Idealize.ShloMosaic Idealize.ShloMosaic.ValueIdx

/-- With no batch axes and ONE free (non-contracted) axis on the left operand, the left operand's index on that axis
    is the output index's first coordinate. (The library has the companion fact for the contracted axis,
    `DotDims.lhsIdx_val_of_single`; this is proved the same way: the position of the axis in a one-element list is 0.) -/
theorem lhsIdx_val_of_free {sl sr so : Shape} (d : DotDims sl sr so) {nl : Fin sl.rank} (hb : d.lhsBatch = [])
    (hn : d.lhsNonContracting = [nl]) (h0 : 0 < so.rank) (j : so.Idx) (k : d.contr.Idx) :
    (d.lhsIdx j k nl).val = (j ⟨0, h0⟩).val := by
  have hmem : nl ∈ d.lhsNonContracting := by rw [hn]; exact List.mem_singleton.mpr rfl
  unfold DotDims.lhsIdx
  rw [dif_neg (by rw [hb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axes, one free axis on the left and ONE free axis on the right operand, the right operand's index
    on its free axis is the output index's second coordinate. -/
theorem rhsIdx_val_of_free {sl sr so : Shape} (d : DotDims sl sr so) {nl : Fin sl.rank} {nr : Fin sr.rank}
    (hbl : d.lhsBatch = []) (hbr : d.rhsBatch = []) (hnl : d.lhsNonContracting = [nl]) (hnr : d.rhsNonContracting = [nr])
    (h1 : 1 < so.rank) (j : so.Idx) (k : d.contr.Idx) :
    (d.rhsIdx j k nr).val = (j ⟨1, h1⟩).val := by
  have hmem : nr ∈ d.rhsNonContracting := by rw [hnr]; exact List.mem_singleton.mpr rfl
  unfold DotDims.rhsIdx
  rw [dif_neg (by rw [hbr]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hbl, hnl, hnr])

/-- A product into the zero accumulator with one contracted axis of extent `K`, at output index `j`: the sum over
    `k : Fin K` of the left operand at `li k` times the right operand at `ri k`, where `li k` and `ri k` are the
    operand indices of contraction coordinate `k`. -/
theorem matmul_zero_single {sl sr so : Shape} {φ₁ φ₂ : FTy} (d : DotDims sl sr so) (prec : Option ContractPrecision) (K : Nat)
    (hr : d.contr.rank = 1) (hs : d.contr.size ⟨0, by omega⟩ = K)
    (L : FVec Ideal sl φ₁) (R : FVec Ideal sr φ₂) (j : so.Idx) (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    FloatOps.matmul d prec L R (constant so .f32 0x00000000#32) j = ∑ k : Fin K, L (li k) * R (ri k) := by
  rw [Ideal.matmul_constant_zero_apply, ← Equiv.sum_comp (contrEquiv1 d K hr hs).symm]
  exact Finset.sum_congr rfl fun k _ => by rw [hl k, hrr k]

/-- ROWS TIMES COLUMNS: a product of an `A × K` by a `K × B` matrix into the zero accumulator (left axis 1 against right
    axis 0, no batch axes), at entry `(p, h)`: the sum over `k` of `L[p,k] · R[k,h]`. At a literal dimension record every
    hypothesis is `rfl`. -/
theorem matmul_zero_rows_cols {A K B : Nat} {φ₁ φ₂ : FTy}
    (d : DotDims (⟨2, ![A, K]⟩ : Shape) (⟨2, ![K, B]⟩ : Shape) (⟨2, ![A, B]⟩ : Shape)) (prec : Option ContractPrecision)
    (hr : d.contr.rank = 1) (hs : d.contr.size ⟨0, by omega⟩ = K)
    (hbl : d.lhsBatch = []) (hbr : d.rhsBatch = []) (hnl : d.lhsNonContracting = [0]) (hnr : d.rhsNonContracting = [1])
    (hcl : d.lhsContracting = [1]) (hcr : d.rhsContracting = [0])
    (L : FVec Ideal (⟨2, ![A, K]⟩ : Shape) φ₁) (R : FVec Ideal (⟨2, ![K, B]⟩ : Shape) φ₂) (p : Fin A) (h : Fin B) :
    FloatOps.matmul d prec L R (constant (⟨2, ![A, B]⟩ : Shape) .f32 0x00000000#32) (ix2 p h)
      = ∑ k : Fin K, L (ix2 p k) * R (ix2 k h) := by
  refine matmul_zero_single d prec K hr hs L R (ix2 p h) (fun k => ix2 p k) (fun k => ix2 k h) (fun k => ?_) (fun k => ?_)
  · have hk := contrEquiv1_symm_val d K hr hs k
    exact funext fun a => Fin.ext (by
      match a with
      | ⟨0, _⟩ => exact lhsIdx_val_of_free d hbl hnl Nat.zero_lt_two _ _
      | ⟨1, _⟩ => exact (d.lhsIdx_val_of_single hcl _ _).trans hk)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

/-- COLUMNS TIMES COLUMNS: a product of a `K × A` by a `K × B` matrix into the zero accumulator, contracting the FIRST
    axis of both (the left operand used transposed), at entry `(p, h)`: the sum over `k` of `L[k,p] · R[k,h]`. -/
theorem matmul_zero_cols_cols {A K B : Nat} {φ₁ φ₂ : FTy}
    (d : DotDims (⟨2, ![K, A]⟩ : Shape) (⟨2, ![K, B]⟩ : Shape) (⟨2, ![A, B]⟩ : Shape)) (prec : Option ContractPrecision)
    (hr : d.contr.rank = 1) (hs : d.contr.size ⟨0, by omega⟩ = K)
    (hbl : d.lhsBatch = []) (hbr : d.rhsBatch = []) (hnl : d.lhsNonContracting = [1]) (hnr : d.rhsNonContracting = [1])
    (hcl : d.lhsContracting = [0]) (hcr : d.rhsContracting = [0])
    (L : FVec Ideal (⟨2, ![K, A]⟩ : Shape) φ₁) (R : FVec Ideal (⟨2, ![K, B]⟩ : Shape) φ₂) (p : Fin A) (h : Fin B) :
    FloatOps.matmul d prec L R (constant (⟨2, ![A, B]⟩ : Shape) .f32 0x00000000#32) (ix2 p h)
      = ∑ k : Fin K, L (ix2 k p) * R (ix2 k h) := by
  refine matmul_zero_single d prec K hr hs L R (ix2 p h) (fun k => ix2 k p) (fun k => ix2 k h) (fun k => ?_) (fun k => ?_)
  · have hk := contrEquiv1_symm_val d K hr hs k
    exact funext fun a => Fin.ext (by
      match a with
      | ⟨0, _⟩ => exact (d.lhsIdx_val_of_single hcl _ _).trans hk
      | ⟨1, _⟩ => exact lhsIdx_val_of_free d hbl hnl Nat.zero_lt_two _ _)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

/-- The host's product with one contracted axis, the same way. -/
theorem dotGeneral_single {sl sr so : Shape} {φ₁ φ₂ : FTy} (d : DotDims sl sr so) (prec : Option ContractPrecision)
    (sched : HostSchedule) (K : Nat)
    (hr : d.contr.rank = 1) (hs : d.contr.size ⟨0, by omega⟩ = K)
    (L : FVec Ideal sl φ₁) (R : FVec Ideal sr φ₂) (j : so.Idx) (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    FloatOps.dotGeneral d prec sched L R j = ∑ k : Fin K, L (li k) * R (ri k) := by
  rw [Ideal.dotGeneral_apply, ← Equiv.sum_comp (contrEquiv1 d K hr hs).symm]
  exact Finset.sum_congr rfl fun k _ => by rw [hl k, hrr k]

/-- The host's product of an `A × K` by a `K × B` matrix (left axis 1 against right axis 0), at entry `(p, h)`. -/
theorem dotGeneral_rows_cols {A K B : Nat} {φ₁ φ₂ : FTy}
    (d : DotDims (⟨2, ![A, K]⟩ : Shape) (⟨2, ![K, B]⟩ : Shape) (⟨2, ![A, B]⟩ : Shape)) (prec : Option ContractPrecision)
    (sched : HostSchedule)
    (hr : d.contr.rank = 1) (hs : d.contr.size ⟨0, by omega⟩ = K)
    (hbl : d.lhsBatch = []) (hbr : d.rhsBatch = []) (hnl : d.lhsNonContracting = [0]) (hnr : d.rhsNonContracting = [1])
    (hcl : d.lhsContracting = [1]) (hcr : d.rhsContracting = [0])
    (L : FVec Ideal (⟨2, ![A, K]⟩ : Shape) φ₁) (R : FVec Ideal (⟨2, ![K, B]⟩ : Shape) φ₂) (p : Fin A) (h : Fin B) :
    FloatOps.dotGeneral d prec sched L R (ix2 p h) = ∑ k : Fin K, L (ix2 p k) * R (ix2 k h) := by
  refine dotGeneral_single d prec sched K hr hs L R (ix2 p h) (fun k => ix2 p k) (fun k => ix2 k h) (fun k => ?_) (fun k => ?_)
  · have hk := contrEquiv1_symm_val d K hr hs k
    exact funext fun a => Fin.ext (by
      match a with
      | ⟨0, _⟩ => exact lhsIdx_val_of_free d hbl hnl Nat.zero_lt_two _ _
      | ⟨1, _⟩ => exact (d.lhsIdx_val_of_single hcl _ _).trans hk)
  · have hk := contrEquiv1_symm_val d K hr hs k
    exact funext fun a => Fin.ext (by
      match a with
      | ⟨0, _⟩ => exact (d.rhsIdx_val_of_single hcr _ _).trans hk
      | ⟨1, _⟩ => exact rhsIdx_val_of_free d hbl hbr hnl hnr Nat.one_lt_two _ _)

end Idealize.ShloMosaic.Contract

end
-- ==== Proof.LibGatherRow.lean ====
/-
  `stablehlo.gather` of whole ROWS of a rank-2 table at a column of start indices, read at an index.

  What `table[idx]` of a table `[N, D]` at an integer vector `idx : [R]` lowers to: a gather with offset_dims `[1]`,
  collapsed_slice_dims `[0]`, start_index_map `[0]`, slice_sizes `[1, D]` and index_vector_dim 1 over the indices as
  `[R, 1]`. Result element `(e, j)` is the table's entry in column `j` of the row whose number is the start index
  `idx[e, 0]` read as a signed integer and clamped into `[0, N − 1]` (every start index is clamped so that the slice
  fits). The row read depends on the indices and on `e` only, never on the table: a gather of rows commutes with every
  function applied row by row.
-/
import Idealize.ShloMosaic.PureOps
import Idealize.ShloMosaic.Lib.ValueIdx

noncomputable section

namespace Idealize.ShloMosaic.GatherRow

open Idealize.ShloMosaic Idealize.ShloMosaic.ValueIdx

variable {α : Type}

/-- Those dimension numbers for a table `[N, D]`, start indices `[R, 1]` and result `[R, D]`; their conditions are
    decided on a program's literal shapes. -/
abbrev dims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The table row that result row `e` reads: the start index `idx[e, 0]`, signed, clamped into `[0, N − 1]`. -/
def sel {N R w : Nat} (hN : 0 < N) (idx : IVec ⟨2, ![R, 1]⟩ w) (e : Fin R) : Fin N :=
  ⟨min (idx (ix2 e (0 : Fin 1))).toInt.toNat (N - 1), by omega⟩

/-- The start-indices index at which result index `y` reads its one start component: `[y 0, 0]` (the batch
    coordinate of `y` on axis 0, and `0` on the size-1 index-vector axis). -/
theorem siIdx_row {N D R : Nat}
    (wf : GatherDims.WF ⟨2, ![N, D]⟩ ⟨2, ![R, 1]⟩ ⟨2, ![R, D]⟩ [1] [0] [] [0] [] 1 ![1, D])
    (y : (⟨2, ![R, D]⟩ : Shape).Idx) (c : Fin (dims N D R wf).startIndexMap.length) :
    (dims N D R wf).siIdx y c = ix2 (⟨(y 0).val, (y 0).isLt⟩ : Fin R) (0 : Fin 1) := by
  funext b
  refine Fin.ext ?_
  match b with
  | ⟨0, _⟩ => rfl
  | ⟨1, _⟩ =>
    show c.val = 0
    have := c.isLt
    simp only [List.length_singleton] at this
    omega

/-- Operand axis 1 is a kept axis of the row gather: neither collapsed nor batching. -/
theorem one_mem_sKept {N D R : Nat}
    (wf : GatherDims.WF ⟨2, ![N, D]⟩ ⟨2, ![R, 1]⟩ ⟨2, ![R, D]⟩ [1] [0] [] [0] [] 1 ![1, D]) :
    (1 : Fin 2) ∈ (dims N D R wf).sKept :=
  (GatherDims.mem_sKept _ _).mpr ⟨(by decide : (1 : Fin 2) ∉ [0]), List.not_mem_nil⟩

/-- THE GATHER READ AT `(e, j)`: the table at row `sel idx e` and column `j`. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (dims N D R wf) x idx y
      = x (ix2 (sel hN idx ⟨(y 0).val, (y 0).isLt⟩) (⟨(y 1).val, (y 1).isLt⟩ : Fin D)) := by
  unfold Host.gather
  congr 1
  funext a
  refine Fin.ext ?_
  match a with
  | ⟨0, _⟩ =>
    -- axis 0 is in the start index map and collapsed: the coordinate is the clamped start alone
    show (dims N D R wf).start y idx 0 + (dims N D R wf).batchCoord y 0 + (dims N D R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims N D R wf).startIndexMap from List.mem_singleton.mpr rfl), siIdx_row]
    rfl
  | ⟨1, _⟩ =>
    -- axis 1 is outside the start index map and kept: the coordinate is the result's offset coordinate alone
    show (dims N D R wf).start y idx 1 + (dims N D R wf).batchCoord y 1 + (dims N D R wf).offCoord y 1 = (y 1).val
    rw [GatherDims.batchCoord_eq_zero _ _ _ List.not_mem_nil]
    unfold GatherDims.start GatherDims.offCoord
    rw [dif_neg (show ¬ (1 : Fin 2) ∈ (dims N D R wf).startIndexMap from (by decide : (1 : Fin 2) ∉ [0])),
      dif_pos (one_mem_sKept wf)]
    simp only [Nat.zero_add]
    rfl

end Idealize.ShloMosaic.GatherRow

end
-- ==== Proof.LibRowOps.lean ====
/-
  Matrices of extended reals read ROW BY ROW, and the printed operations that act on rows.

  A multilayer perceptron acts on each row of its input matrix by itself: entry (p, h) of the result depends on row p of
  the input (and on the whole weight matrix and bias) only. This file names that structure. `rows1 f X` is the matrix
  whose row p is `f` of row p of `X` (`rows2`, `rows3`: of the rows p of two or three matrices with the same number of
  rows); `dense W b` is the affine map x ↦ x·W + b on a row; `relu` the positive part of a row; `cat2`, `cat3`, `cat5`
  put rows side by side; `lo` and `hi` cut a row in two.
  Then each printed operation is identified with its row form, as a whole array: a matrix product into the zero
  accumulator followed by a broadcast bias (the kernel's spelling: a cast to one row and a broadcast over the rows; the
  host's: two `broadcast_in_dim`), with and without the positive part; a concatenation of two, three or five matrices along
  the column axis; a unit-stride slice of columns; a gather of whole rows.
  Nothing here needs finiteness: sums and products of extended reals are only regrouped, never distributed or cancelled.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«425260_j75557064671889_3_alg».proof.Proof.LibContract
import proofs.«425260_j75557064671889_3_alg».proof.Proof.LibGatherRow

noncomputable section

open scoped BigOperators

namespace Idealize.ShloMosaic.RowOps

open Idealize.ShloMosaic Idealize.ShloMosaic.ValueIdx

/-- An `A × B` matrix of extended reals. -/
abbrev Mat (A B : Nat) : Type := FVec Ideal (⟨2, ![A, B]⟩ : Shape) .f32
/-- A vector of `B` extended reals, as a rank-1 array. -/
abbrev Arr (B : Nat) : Type := FVec Ideal (⟨1, ![B]⟩ : Shape) .f32

/-- Row `p` of a matrix. -/
def row {A C : Nat} (X : Mat A C) (p : Fin A) : Fin C → EReal := fun k => X (ix2 p k)

/-- The affine map of a layer on one row: `(x·W + b)[h] = Σₖ x[k]·W[k,h] + b[h]`. -/
def dense {K B : Nat} (W : Mat K B) (b : Arr B) (x : Fin K → EReal) : Fin B → EReal :=
  fun h => (∑ k : Fin K, x k * W (ix2 k h)) + b (ix1 h)

/-- The positive part of a row. -/
def relu {B : Nat} (y : Fin B → EReal) : Fin B → EReal := fun h => max (y h) 0

/-- Two rows side by side, as a row of length `n` (`n = a + b` wherever it is used). -/
def cat2 {a b n : Nat} (x : Fin a → EReal) (y : Fin b → EReal) : Fin n → EReal :=
  fun k => if h : k.val < a then x ⟨k.val, h⟩ else if h2 : k.val - a < b then y ⟨k.val - a, h2⟩ else 0

/-- Three rows side by side. -/
def cat3 {a b c n : Nat} (x : Fin a → EReal) (y : Fin b → EReal) (z : Fin c → EReal) : Fin n → EReal :=
  cat2 x (cat2 (n := b + c) y z)

/-- Five rows side by side. -/
def cat5 {a b c d e n : Nat} (x : Fin a → EReal) (y : Fin b → EReal) (z : Fin c → EReal) (u : Fin d → EReal)
    (v : Fin e → EReal) : Fin n → EReal :=
  cat2 x (cat2 (n := b + (c + (d + e))) y (cat2 (n := c + (d + e)) z (cat2 (n := d + e) u v)))

/-- The first `a` entries of a row of length `n`. -/
def lo {n : Nat} (a : Nat) (ha : a ≤ n) (x : Fin n → EReal) : Fin a → EReal := fun k => x ⟨k.val, by omega⟩
/-- The `b` entries of a row from position `a` on. -/
def hi {n : Nat} (a b : Nat) (hab : a + b ≤ n) (x : Fin n → EReal) : Fin b → EReal := fun k => x ⟨a + k.val, by omega⟩

/-- The matrix whose row `p` is `f` of row `p` of `X`. -/
def rows1 {A C D : Nat} (f : (Fin C → EReal) → Fin D → EReal) (X : Mat A C) : Mat A D :=
  fun j => f (row X ⟨(j 0).val, idx2_lt0 j⟩) ⟨(j 1).val, idx2_lt1 j⟩
/-- The matrix whose row `p` is `f` of the rows `p` of `X` and `Y`. -/
def rows2 {A C₁ C₂ D : Nat} (f : (Fin C₁ → EReal) → (Fin C₂ → EReal) → Fin D → EReal) (X : Mat A C₁) (Y : Mat A C₂) :
    Mat A D :=
  fun j => f (row X ⟨(j 0).val, idx2_lt0 j⟩) (row Y ⟨(j 0).val, idx2_lt0 j⟩) ⟨(j 1).val, idx2_lt1 j⟩
/-- The matrix whose row `p` is `f` of the rows `p` of `X`, `Y` and `Z`. -/
def rows3 {A C₁ C₂ C₃ D : Nat} (f : (Fin C₁ → EReal) → (Fin C₂ → EReal) → (Fin C₃ → EReal) → Fin D → EReal)
    (X : Mat A C₁) (Y : Mat A C₂) (Z : Mat A C₃) : Mat A D :=
  fun j => f (row X ⟨(j 0).val, idx2_lt0 j⟩) (row Y ⟨(j 0).val, idx2_lt0 j⟩) (row Z ⟨(j 0).val, idx2_lt0 j⟩)
    ⟨(j 1).val, idx2_lt1 j⟩

theorem rows1_apply {A C D : Nat} (f : (Fin C → EReal) → Fin D → EReal) (X : Mat A C) (p : Fin A) (h : Fin D) :
    rows1 f X (ix2 p h) = f (row X p) h := rfl
theorem rows2_apply {A C₁ C₂ D : Nat} (f : (Fin C₁ → EReal) → (Fin C₂ → EReal) → Fin D → EReal) (X : Mat A C₁)
    (Y : Mat A C₂) (p : Fin A) (h : Fin D) : rows2 f X Y (ix2 p h) = f (row X p) (row Y p) h := rfl
theorem rows3_apply {A C₁ C₂ C₃ D : Nat} (f : (Fin C₁ → EReal) → (Fin C₂ → EReal) → (Fin C₃ → EReal) → Fin D → EReal)
    (X : Mat A C₁) (Y : Mat A C₂) (Z : Mat A C₃) (p : Fin A) (h : Fin D) :
    rows3 f X Y Z (ix2 p h) = f (row X p) (row Y p) (row Z p) h := rfl

/-- Two matrices are equal when their entries at every `(p, h)` are. -/
theorem mat_ext {A B : Nat} {X Y : Mat A B} (h : ∀ (p : Fin A) (q : Fin B), X (ix2 p q) = Y (ix2 p q)) : X = Y :=
  funext fun j => by rw [eq_ix2 j]; exact h _ _

/-- Row `p` of a row-wise matrix is the function of row `p`. -/
theorem row_rows1 {A C D : Nat} (f : (Fin C → EReal) → Fin D → EReal) (X : Mat A C) (p : Fin A) :
    row (rows1 f X) p = f (row X p) := rfl
theorem row_rows2 {A C₁ C₂ D : Nat} (f : (Fin C₁ → EReal) → (Fin C₂ → EReal) → Fin D → EReal) (X : Mat A C₁)
    (Y : Mat A C₂) (p : Fin A) : row (rows2 f X Y) p = f (row X p) (row Y p) := rfl
theorem row_rows3 {A C₁ C₂ C₃ D : Nat} (f : (Fin C₁ → EReal) → (Fin C₂ → EReal) → (Fin C₃ → EReal) → Fin D → EReal)
    (X : Mat A C₁) (Y : Mat A C₂) (Z : Mat A C₃) (p : Fin A) :
    row (rows3 f X Y Z) p = f (row X p) (row Y p) (row Z p) := rfl

/-- The matrix whose row `p` is `f` of the rows `p` of five matrices. -/
def rows5 {A C₁ C₂ C₃ C₄ C₅ D : Nat}
    (f : (Fin C₁ → EReal) → (Fin C₂ → EReal) → (Fin C₃ → EReal) → (Fin C₄ → EReal) → (Fin C₅ → EReal) → Fin D → EReal)
    (X₁ : Mat A C₁) (X₂ : Mat A C₂) (X₃ : Mat A C₃) (X₄ : Mat A C₄) (X₅ : Mat A C₅) : Mat A D :=
  fun j => f (row X₁ ⟨(j 0).val, idx2_lt0 j⟩) (row X₂ ⟨(j 0).val, idx2_lt0 j⟩) (row X₃ ⟨(j 0).val, idx2_lt0 j⟩)
    (row X₄ ⟨(j 0).val, idx2_lt0 j⟩) (row X₅ ⟨(j 0).val, idx2_lt0 j⟩) ⟨(j 1).val, idx2_lt1 j⟩

/-- The matrix whose row `e` is row `σ e` of `X`. -/
def selRows {N R D : Nat} (σ : Fin R → Fin N) (X : Mat N D) : Mat R D :=
  fun j => X (ix2 (σ ⟨(j 0).val, idx2_lt0 j⟩) (⟨(j 1).val, idx2_lt1 j⟩ : Fin D))

theorem row_selRows {N R D : Nat} (σ : Fin R → Fin N) (X : Mat N D) (e : Fin R) : row (selRows σ X) e = row X (σ e) := rfl

/-! ## Cutting a row that was put together -/

theorem hi_cat2_left {a b n : Nat} (hab : 0 + a ≤ n) (x : Fin a → EReal) (y : Fin b → EReal) :
    hi 0 a hab (cat2 (n := n) x y) = x := by
  funext k
  unfold hi cat2
  have hk : (0 + k.val) < a := by have := k.isLt; omega
  simp only [dif_pos hk]
  exact congrArg x (Fin.ext (by simp))

theorem hi_cat2_right {a b n : Nat} (hab : a + b ≤ n) (x : Fin a → EReal) (y : Fin b → EReal) :
    hi a b hab (cat2 (n := n) x y) = y := by
  funext k
  unfold hi cat2
  have hk : ¬ (a + k.val) < a := by omega
  have hk2 : (a + k.val) - a < b := by have := k.isLt; omega
  simp only [dif_neg hk, dif_pos hk2]
  exact congrArg y (Fin.ext (by simp))

end Idealize.ShloMosaic.RowOps

end
-- ==== Proof.LibRowDense.lean ====
/-
  A LAYER OF A PERCEPTRON, as the kernel and as the host spell it, is row by row the affine map `dense W b` (with or
  without the positive part `relu`): the matrix product into the zero accumulator is the sum over the contracted axis, the
  bias reaches every row by a cast and a broadcast (kernel) or by two `broadcast_in_dim` (host), and the maximum with a
  broadcast zero is the positive part. Also: a layer whose input row ends in zeros only sees the first rows of its matrix.
-/
import proofs.«425260_j75557064671889_3_alg».proof.Proof.LibRowOps

noncomputable section

open scoped BigOperators

namespace Idealize.ShloMosaic.RowOps

open Idealize.ShloMosaic Idealize.ShloMosaic.ValueIdx

/-! ## The printed operations in row form -/

/-- A dimension record says "rows times columns": one contracted axis, the left operand's columns against the right
    operand's rows, no batch axes. At a literal record every part is `rfl`. -/
def IsRowsCols {A K B : Nat} (d : DotDims (⟨2, ![A, K]⟩ : Shape) (⟨2, ![K, B]⟩ : Shape) (⟨2, ![A, B]⟩ : Shape)) : Prop :=
  ∃ hr : d.contr.rank = 1, d.contr.size ⟨0, by omega⟩ = K ∧ d.lhsBatch = [] ∧ d.rhsBatch = [] ∧ d.lhsNonContracting = [0]
    ∧ d.rhsNonContracting = [1] ∧ d.lhsContracting = [1] ∧ d.rhsContracting = [0]

/-- THE KERNEL'S LAYER WITH ITS POSITIVE PART: a product into the zero accumulator, plus the bias cast to one row and
    broadcast over the rows, then the maximum with zero, is row by row `relu ∘ dense W b`. -/
theorem kdense_relu {A K B : Nat} (d : DotDims (⟨2, ![A, K]⟩ : Shape) (⟨2, ![K, B]⟩ : Shape) (⟨2, ![A, B]⟩ : Shape))
    (hd : IsRowsCols d) (X : Mat A K) (W : Mat K B) (b : Arr B)
    (hc : (⟨1, ![B]⟩ : Shape).ShapeCasts ⟨2, ![1, B]⟩) (hb : (⟨2, ![1, B]⟩ : Shape).Broadcasts ⟨2, ![A, B]⟩) :
    maximumf (addf (matmul d none X W (constant (F := Ideal) (⟨2, ![A, B]⟩ : Shape) .f32 0x00000000#32))
        (broadcastTo (⟨2, ![A, B]⟩ : Shape) (shapeCast (⟨2, ![1, B]⟩ : Shape) b hc) hb))
      (broadcast (⟨2, ![A, B]⟩ : Shape) (Scalar.ofBits (F := Ideal) .f32 0x00000000#32))
    = rows1 (fun x => relu (dense W b x)) X := by
  obtain ⟨hr, hs, hbl, hbr, hnl, hnr, hcl, hcr⟩ := hd
  refine mat_ext fun p h => ?_
  rw [maximumf_apply, addf_apply, broadcast_apply, broadcastTo_1b_ab_apply, shapeCast_a_1a_apply, rows1_apply]
  show max (FloatOps.matmul d none X W (constant (⟨2, ![A, B]⟩ : Shape) .f32 0x00000000#32) (ix2 p h) + b (ix1 h))
      (Ideal.ofBits .f32 0x00000000#32) = _
  rw [Contract.matmul_zero_rows_cols d none hr hs hbl hbr hnl hnr hcl hcr, Ideal.ofBits_zero_f32]
  rfl

/-- The kernel's layer without the positive part. -/
theorem kdense {A K B : Nat} (d : DotDims (⟨2, ![A, K]⟩ : Shape) (⟨2, ![K, B]⟩ : Shape) (⟨2, ![A, B]⟩ : Shape))
    (hd : IsRowsCols d) (X : Mat A K) (W : Mat K B) (b : Arr B)
    (hc : (⟨1, ![B]⟩ : Shape).ShapeCasts ⟨2, ![1, B]⟩) (hb : (⟨2, ![1, B]⟩ : Shape).Broadcasts ⟨2, ![A, B]⟩) :
    addf (matmul d none X W (constant (F := Ideal) (⟨2, ![A, B]⟩ : Shape) .f32 0x00000000#32))
        (broadcastTo (⟨2, ![A, B]⟩ : Shape) (shapeCast (⟨2, ![1, B]⟩ : Shape) b hc) hb)
    = rows1 (fun x => dense W b x) X := by
  obtain ⟨hr, hs, hbl, hbr, hnl, hnr, hcl, hcr⟩ := hd
  refine mat_ext fun p h => ?_
  rw [addf_apply, broadcastTo_1b_ab_apply, shapeCast_a_1a_apply, rows1_apply]
  show FloatOps.matmul d none X W (constant (⟨2, ![A, B]⟩ : Shape) .f32 0x00000000#32) (ix2 p h) + b (ix1 h) = _
  rw [Contract.matmul_zero_rows_cols d none hr hs hbl hbr hnl hnr hcl hcr]
  rfl

/-- THE HOST'S LAYER WITH ITS POSITIVE PART: `dot_general`, plus the bias broadcast in two steps, then the maximum with a
    broadcast zero, is row by row `relu ∘ dense W b`. -/
theorem hdense_relu {A K B : Nat} (d : DotDims (⟨2, ![A, K]⟩ : Shape) (⟨2, ![K, B]⟩ : Shape) (⟨2, ![A, B]⟩ : Shape))
    (hd : IsRowsCols d) (X : Mat A K) (W : Mat K B) (b : Arr B)
    (h1 : (⟨1, ![B]⟩ : Shape).BroadcastsInDim (⟨2, ![1, B]⟩ : Shape) ![1])
    (h2 : (⟨2, ![1, B]⟩ : Shape).BroadcastsInDim (⟨2, ![A, B]⟩ : Shape) ![0, 1])
    (h0 : (⟨0, ![]⟩ : Shape).BroadcastsInDim (⟨2, ![A, B]⟩ : Shape) ![]) :
    maximumf (addf (Host.dotGeneral d none X W)
        (broadcastInDim (⟨2, ![A, B]⟩ : Shape) ![0, 1] h2 (broadcastInDim (⟨2, ![1, B]⟩ : Shape) ![1] h1 b)))
      (broadcastInDim (⟨2, ![A, B]⟩ : Shape) ![] h0 (constant (F := Ideal) (⟨0, ![]⟩ : Shape) .f32 0x00000000#32))
    = rows1 (fun x => relu (dense W b x)) X := by
  obtain ⟨hr, hs, hbl, hbr, hnl, hnr, hcl, hcr⟩ := hd
  refine mat_ext fun p h => ?_
  have e2 : ∀ v : FVec Ideal (⟨2, ![1, B]⟩ : Shape) .f32,
      broadcastInDim (⟨2, ![A, B]⟩ : Shape) ![0, 1] h2 v (ix2 p h) = v (ix2 (0 : Fin 1) h) := fun v =>
    broadcastInDim_apply ![0, 1] h2 v (ix2 p h) (ix2 (0 : Fin 1) h) fun a => by
      match a with
      | ⟨0, _⟩ => rfl
      | ⟨1, _⟩ =>
        show h.val = if B = 1 then 0 else h.val
        split
        · have := h.isLt; omega
        · rfl
  have e1 : broadcastInDim (⟨2, ![1, B]⟩ : Shape) ![1] h1 b (ix2 (0 : Fin 1) h) = b (ix1 h) :=
    broadcastInDim_apply ![1] h1 b (ix2 (0 : Fin 1) h) (ix1 h) fun a => by
      match a with
      | ⟨0, _⟩ =>
        show h.val = if B = 1 then 0 else h.val
        split
        · have := h.isLt; omega
        · rfl
  have e0 : broadcastInDim (⟨2, ![A, B]⟩ : Shape) ![] h0 (constant (F := Ideal) (⟨0, ![]⟩ : Shape) .f32 0x00000000#32)
      (ix2 p h) = 0 := by
    rw [broadcastInDim_apply ![] h0 _ (ix2 p h) ix0 fun a => a.elim0, constant_apply, Ideal.ofBits_zero_f32]
  rw [maximumf_apply, addf_apply, e2, e1, e0, rows1_apply]
  show max (FloatOps.dotGeneral d none .single X W (ix2 p h) + b (ix1 h)) 0 = _
  rw [Contract.dotGeneral_rows_cols d none .single hr hs hbl hbr hnl hnr hcl hcr]
  rfl

/-- The host's layer without the positive part. -/
theorem hdense {A K B : Nat} (d : DotDims (⟨2, ![A, K]⟩ : Shape) (⟨2, ![K, B]⟩ : Shape) (⟨2, ![A, B]⟩ : Shape))
    (hd : IsRowsCols d) (X : Mat A K) (W : Mat K B) (b : Arr B)
    (h1 : (⟨1, ![B]⟩ : Shape).BroadcastsInDim (⟨2, ![1, B]⟩ : Shape) ![1])
    (h2 : (⟨2, ![1, B]⟩ : Shape).BroadcastsInDim (⟨2, ![A, B]⟩ : Shape) ![0, 1]) :
    addf (Host.dotGeneral d none X W)
        (broadcastInDim (⟨2, ![A, B]⟩ : Shape) ![0, 1] h2 (broadcastInDim (⟨2, ![1, B]⟩ : Shape) ![1] h1 b))
    = rows1 (fun x => dense W b x) X := by
  obtain ⟨hr, hs, hbl, hbr, hnl, hnr, hcl, hcr⟩ := hd
  refine mat_ext fun p h => ?_
  have e2 : ∀ v : FVec Ideal (⟨2, ![1, B]⟩ : Shape) .f32,
      broadcastInDim (⟨2, ![A, B]⟩ : Shape) ![0, 1] h2 v (ix2 p h) = v (ix2 (0 : Fin 1) h) := fun v =>
    broadcastInDim_apply ![0, 1] h2 v (ix2 p h) (ix2 (0 : Fin 1) h) fun a => by
      match a with
      | ⟨0, _⟩ => rfl
      | ⟨1, _⟩ =>
        show h.val = if B = 1 then 0 else h.val
        split
        · have := h.isLt; omega
        · rfl
  have e1 : broadcastInDim (⟨2, ![1, B]⟩ : Shape) ![1] h1 b (ix2 (0 : Fin 1) h) = b (ix1 h) :=
    broadcastInDim_apply ![1] h1 b (ix2 (0 : Fin 1) h) (ix1 h) fun a => by
      match a with
      | ⟨0, _⟩ =>
        show h.val = if B = 1 then 0 else h.val
        split
        · have := h.isLt; omega
        · rfl
  rw [addf_apply, e2, e1, rows1_apply]
  show FloatOps.dotGeneral d none .single X W (ix2 p h) + b (ix1 h) = _
  rw [Contract.dotGeneral_rows_cols d none .single hr hs hbl hbr hnl hnr hcl hcr]
  rfl

/-- A layer fed three rows side by side of which the last two are zero is the layer of the first row alone with the
    weight matrix cut to its first rows: the other terms of every sum are `0 · w = 0`, which holds for every extended
    real `w`. -/
theorem dense_cat3_zero {a b c n B : Nat} (hn : a + (b + c) = n) (W : Mat n B) (W₀ : Mat a B) (bias : Arr B)
    (hW : ∀ (k : Fin a) (q : Fin B), W₀ (ix2 k q) = W (ix2 (⟨k.val, by omega⟩ : Fin n) q)) (x : Fin a → EReal) :
    dense W bias (cat3 (n := n) x (fun _ : Fin b => (0 : EReal)) (fun _ : Fin c => (0 : EReal))) = dense W₀ bias x := by
  subst hn
  funext h
  unfold dense
  congr 1
  rw [Fin.sum_univ_add]
  have hz : ∑ i : Fin (b + c), cat3 (n := a + (b + c)) x (fun _ : Fin b => (0 : EReal)) (fun _ : Fin c => (0 : EReal))
      (Fin.natAdd a i) * W (ix2 (Fin.natAdd a i) h) = 0 := by
    refine Finset.sum_eq_zero fun i _ => ?_
    have hc : cat3 (n := a + (b + c)) x (fun _ : Fin b => (0 : EReal)) (fun _ : Fin c => (0 : EReal)) (Fin.natAdd a i)
        = 0 := by
      unfold cat3 cat2
      have hk : ¬ (Fin.natAdd a i).val < a := by simp
      rw [dif_neg hk]
      split
      · split
        · rfl
        · split <;> rfl
      · rfl
    rw [hc, zero_mul]
  rw [hz, add_zero]
  refine Finset.sum_congr rfl fun k _ => ?_
  have hc : cat3 (n := a + (b + c)) x (fun _ : Fin b => (0 : EReal)) (fun _ : Fin c => (0 : EReal)) (Fin.castAdd (b + c) k)
      = x k := by
    unfold cat3 cat2
    have hk : (Fin.castAdd (b + c) k).val < a := by simp
    rw [dif_pos hk]
    rfl
  rw [hc, hW]
  rfl

end Idealize.ShloMosaic.RowOps

end
-- ==== Proof.LibRowLayout.lean ====
/-
  CONCATENATIONS ALONG THE COLUMN AXIS, COLUMN SLICES AND ROW GATHERS, row by row: a concatenation of matrices with the
  same number of rows puts their rows side by side (`cat2`, `cat3`, `cat5`); a unit-stride slice of columns cuts every row
  (`hi`); a gather of whole rows selects rows (`selRows`).
-/
import proofs.«425260_j75557064671889_3_alg».proof.Proof.LibRowOps

noncomputable section

open scoped BigOperators

namespace Idealize.ShloMosaic.RowOps

open Idealize.ShloMosaic Idealize.ShloMosaic.ValueIdx

/-- Two matrices side by side. -/
theorem concat2_rows {A a b n : Nat} (X : Mat A a) (Y : Mat A b)
    (h : Shape.Concatenates [(⟨2, ![A, a]⟩ : Shape), (⟨2, ![A, b]⟩ : Shape)] (⟨2, ![A, n]⟩ : Shape) 1) :
    concatenate (⟨2, ![A, n]⟩ : Shape) 1 [⟨(⟨2, ![A, a]⟩ : Shape), X⟩, ⟨(⟨2, ![A, b]⟩ : Shape), Y⟩] h
      = rows2 (fun x y => cat2 x y) X Y := by
  -- the two widths add up to the result's
  have hn : a + b = n := by
    have hs := h.2.2
    simpa using hs
  refine mat_ext fun p k => ?_
  rw [rows2_apply]
  by_cases hk : k.val < a
  · -- a column of the first matrix
    rw [concatenate_pair_apply_left (1 : Fin 2) X Y h (ix2 p k) rfl (ix2 p ⟨k.val, hk⟩)
      (fun d => by match d with | ⟨0, _⟩ => rfl | ⟨1, _⟩ => rfl)]
    unfold cat2
    rw [dif_pos hk]
    rfl
  · -- a column of the second matrix, the first width less
    have hk2 : k.val - a < b := by have := k.isLt; omega
    rw [concatenate_pair_apply_right (1 : Fin 2) X Y h (ix2 p k) rfl rfl (ix2 p ⟨k.val - a, hk2⟩)
      (fun d hd => by match d, hd with | ⟨0, _⟩, _ => rfl | ⟨1, _⟩, hd => exact absurd rfl hd)
      (by show (k.val - a) + a = k.val; omega)]
    unfold cat2
    rw [dif_neg hk, dif_pos hk2]
    rfl

/-- Three matrices side by side. -/
theorem concat3_rows {A a b c n : Nat} (X : Mat A a) (Y : Mat A b) (Z : Mat A c)
    (h : Shape.Concatenates [(⟨2, ![A, a]⟩ : Shape), (⟨2, ![A, b]⟩ : Shape), (⟨2, ![A, c]⟩ : Shape)] (⟨2, ![A, n]⟩ : Shape) 1) :
    concatenate (⟨2, ![A, n]⟩ : Shape) 1
        [⟨(⟨2, ![A, a]⟩ : Shape), X⟩, ⟨(⟨2, ![A, b]⟩ : Shape), Y⟩, ⟨(⟨2, ![A, c]⟩ : Shape), Z⟩] h
      = rows3 (fun x y z => cat3 x y z) X Y Z := by
  -- the three widths add up to the result's
  have hn : a + (b + c) = n := by
    have hs := h.2.2
    simpa using hs
  refine mat_ext fun p k => ?_
  rw [rows3_apply]
  unfold cat3
  have hkn := k.isLt
  have HP := concatenate_apply_piece (t := (⟨2, ![A, n]⟩ : Shape)) (1 : Fin 2)
    [⟨(⟨2, ![A, a]⟩ : Shape), X⟩, ⟨(⟨2, ![A, b]⟩ : Shape), Y⟩, ⟨(⟨2, ![A, c]⟩ : Shape), Z⟩] h (ix2 p k)
  by_cases hk : k.val < a
  · -- a column of the first matrix
    refine (HP 0 (by simp) _ X rfl rfl 0 rfl (ix2 p ⟨k.val, hk⟩)
      (fun d hd => by match d, hd with | ⟨0, _⟩, _ => rfl | ⟨1, _⟩, hd => exact absurd rfl hd)
      (by show 0 + k.val = k.val; omega)).trans ?_
    unfold cat2
    rw [dif_pos hk]
    rfl
  · have hk2 : k.val - a < b + c := by omega
    by_cases hkb : k.val - a < b
    · -- a column of the second matrix
      refine (HP 1 (by simp) _ Y rfl rfl a rfl (ix2 p ⟨k.val - a, hkb⟩)
        (fun d hd => by match d, hd with | ⟨0, _⟩, _ => rfl | ⟨1, _⟩, hd => exact absurd rfl hd)
        (by show a + (k.val - a) = k.val; omega)).trans ?_
      unfold cat2
      rw [dif_neg hk, dif_pos hk2]
      simp only [dif_pos hkb]
      rfl
    · -- a column of the third matrix
      have hkc : k.val - a - b < c := by omega
      refine (HP 2 (by simp) _ Z rfl rfl (a + b) rfl (ix2 p ⟨k.val - a - b, hkc⟩)
        (fun d hd => by match d, hd with | ⟨0, _⟩, _ => rfl | ⟨1, _⟩, hd => exact absurd rfl hd)
        (by show a + b + (k.val - a - b) = k.val; omega)).trans ?_
      unfold cat2
      rw [dif_neg hk, dif_pos hk2]
      simp only [dif_neg hkb, dif_pos hkc]
      rfl

/-- Five matrices side by side. -/
theorem concat5_rows {A a b c d e n : Nat} (X₁ : Mat A a) (X₂ : Mat A b) (X₃ : Mat A c) (X₄ : Mat A d) (X₅ : Mat A e)
    (h : Shape.Concatenates [(⟨2, ![A, a]⟩ : Shape), (⟨2, ![A, b]⟩ : Shape), (⟨2, ![A, c]⟩ : Shape), (⟨2, ![A, d]⟩ : Shape),
      (⟨2, ![A, e]⟩ : Shape)] (⟨2, ![A, n]⟩ : Shape) 1) :
    concatenate (⟨2, ![A, n]⟩ : Shape) 1
        [⟨(⟨2, ![A, a]⟩ : Shape), X₁⟩, ⟨(⟨2, ![A, b]⟩ : Shape), X₂⟩, ⟨(⟨2, ![A, c]⟩ : Shape), X₃⟩,
          ⟨(⟨2, ![A, d]⟩ : Shape), X₄⟩, ⟨(⟨2, ![A, e]⟩ : Shape), X₅⟩] h
      = rows5 (fun x₁ x₂ x₃ x₄ x₅ => cat5 x₁ x₂ x₃ x₄ x₅) X₁ X₂ X₃ X₄ X₅ := by
  -- the five widths add up to the result's
  have hn : a + (b + (c + (d + e))) = n := by
    have hs := h.2.2
    simpa using hs
  refine mat_ext fun p k => ?_
  show _ = cat5 (row X₁ p) (row X₂ p) (row X₃ p) (row X₄ p) (row X₅ p) k
  unfold cat5
  have hkn := k.isLt
  have HP := concatenate_apply_piece (t := (⟨2, ![A, n]⟩ : Shape)) (1 : Fin 2)
    [⟨(⟨2, ![A, a]⟩ : Shape), X₁⟩, ⟨(⟨2, ![A, b]⟩ : Shape), X₂⟩, ⟨(⟨2, ![A, c]⟩ : Shape), X₃⟩,
      ⟨(⟨2, ![A, d]⟩ : Shape), X₄⟩, ⟨(⟨2, ![A, e]⟩ : Shape), X₅⟩] h (ix2 p k)
  by_cases hk : k.val < a
  · -- a column of the first matrix
    refine (HP 0 (by simp) _ X₁ rfl rfl 0 rfl (ix2 p ⟨k.val, hk⟩)
      (fun d hd => by match d, hd with | ⟨0, _⟩, _ => rfl | ⟨1, _⟩, hd => exact absurd rfl hd)
      (by show 0 + k.val = k.val; omega)).trans ?_
    unfold cat2
    rw [dif_pos hk]
    rfl
  · have hk2 : k.val - a < b + (c + (d + e)) := by omega
    by_cases hkb : k.val - a < b
    · -- a column of the second matrix
      refine (HP 1 (by simp) _ X₂ rfl rfl a rfl (ix2 p ⟨k.val - a, hkb⟩)
        (fun d hd => by match d, hd with | ⟨0, _⟩, _ => rfl | ⟨1, _⟩, hd => exact absurd rfl hd)
        (by show a + (k.val - a) = k.val; omega)).trans ?_
      unfold cat2
      rw [dif_neg hk, dif_pos hk2]
      simp only [dif_pos hkb]
      rfl
    · have hk3 : k.val - a - b < c + (d + e) := by omega
      by_cases hkc : k.val - a - b < c
      · -- a column of the third matrix
        refine (HP 2 (by simp) _ X₃ rfl rfl (a + b) rfl (ix2 p ⟨k.val - a - b, hkc⟩)
          (fun d hd => by match d, hd with | ⟨0, _⟩, _ => rfl | ⟨1, _⟩, hd => exact absurd rfl hd)
          (by show a + b + (k.val - a - b) = k.val; omega)).trans ?_
        unfold cat2
        rw [dif_neg hk, dif_pos hk2]
        simp only [dif_neg hkb, dif_pos hk3, dif_pos hkc]
        rfl
      · have hk4 : k.val - a - b - c < d + e := by omega
        by_cases hkd : k.val - a - b - c < d
        · -- a column of the fourth matrix
          refine (HP 3 (by simp) _ X₄ rfl rfl (a + (b + c)) rfl (ix2 p ⟨k.val - a - b - c, hkd⟩)
            (fun d hd => by match d, hd with | ⟨0, _⟩, _ => rfl | ⟨1, _⟩, hd => exact absurd rfl hd)
            (by show a + (b + c) + (k.val - a - b - c) = k.val; omega)).trans ?_
          unfold cat2
          rw [dif_neg hk, dif_pos hk2]
          simp only [dif_neg hkb, dif_pos hk3, dif_neg hkc, dif_pos hk4, dif_pos hkd]
          rfl
        · -- a column of the fifth matrix
          have hke : k.val - a - b - c - d < e := by omega
          refine (HP 4 (by simp) _ X₅ rfl rfl (a + (b + (c + d))) rfl (ix2 p ⟨k.val - a - b - c - d, hke⟩)
            (fun d hd => by match d, hd with | ⟨0, _⟩, _ => rfl | ⟨1, _⟩, hd => exact absurd rfl hd)
            (by show a + (b + (c + d)) + (k.val - a - b - c - d) = k.val; omega)).trans ?_
          unfold cat2
          rw [dif_neg hk, dif_pos hk2]
          simp only [dif_neg hkb, dif_pos hk3, dif_neg hkc, dif_pos hk4, dif_neg hkd, dif_pos hke]
          rfl

/-- A unit-stride slice of the columns `o … o + b − 1`. -/
theorem slice_cols {A n : Nat} (o b : Nat) (hob : o + b ≤ n) (X : Mat A n)
    (h : (⟨2, ![A, n]⟩ : Shape).Slices ![0, o] (⟨2, ![A, b]⟩ : Shape)) :
    extractStridedSlice (⟨2, ![A, b]⟩ : Shape) ![0, o] X h = rows1 (hi o b hob) X := by
  refine mat_ext fun p k => ?_
  rw [rows1_apply]
  have hk : o + k.val < n := by have := k.isLt; omega
  -- entry (p, k) of the slice is entry (p, o + k) of the matrix
  refine (extractStridedSlice_apply _ X h (ix2 p k) (ix2 p ⟨o + k.val, hk⟩) (fun d => ?_)).trans ?_
  · match d with
    | ⟨0, _⟩ => exact (Nat.zero_add p.val).symm
    | ⟨1, _⟩ => rfl
  · rfl

/-- A unit-stride slice of the first `a` ROWS, read at an entry. -/
theorem slice_top_apply {a n B : Nat} (han : a ≤ n) (W : Mat n B)
    (h : (⟨2, ![n, B]⟩ : Shape).Slices ![0, 0] (⟨2, ![a, B]⟩ : Shape)) (k : Fin a) (q : Fin B) :
    extractStridedSlice (⟨2, ![a, B]⟩ : Shape) ![0, 0] W h (ix2 k q) = W (ix2 (⟨k.val, by omega⟩ : Fin n) q) := by
  -- both offsets are zero: the entry keeps its coordinates
  refine extractStridedSlice_apply _ W h (ix2 k q) (ix2 (⟨k.val, by omega⟩ : Fin n) q) (fun d => ?_)
  match d with
  | ⟨0, _⟩ => exact (Nat.zero_add k.val).symm
  | ⟨1, _⟩ => exact (Nat.zero_add q.val).symm

/-- A gather of whole rows is a selection of rows: row `e` of the result is the table's row `GatherRow.sel idx e`. -/
theorem gather_selRows {N D R w : Nat} (hN : 0 < N)
    (wf : GatherDims.WF ⟨2, ![N, D]⟩ ⟨2, ![R, 1]⟩ ⟨2, ![R, D]⟩ [1] [0] [] [0] [] 1 ![1, D])
    (X : Mat N D) (idx : IVec ⟨2, ![R, 1]⟩ w) :
    Host.gather (GatherRow.dims N D R wf) X idx = selRows (GatherRow.sel hN idx) X :=
  funext fun y => GatherRow.gather_row_apply hN wf X idx y

end Idealize.ShloMosaic.RowOps

end
-- ==== Proof.Spec.lean ====
/-
  WHAT THE NETWORK COMPUTES, row by row, over the extended reals.

  An interaction network on N = 65536 particles and E = 524288 relations. A particle's features are its 9 attributes,
  6 zeros and its 6 state entries side by side (21 numbers). Every relation e has a receiver σR e and a sender σS e.
    particle encoder     P[n]  = relu(relu(x[n]·W₀ + b₀)·W₁ + b₁)                                        (64 numbers)
    relation encoder     R[e]  = three such layers of (x[σR e][0:15], x[σS e][0:15], x[σR e][15:21], x[σS e][15:21], ra[e])
    first propagation    F₀[e] = relu(R[e]·U₀ + c), U₀ the first 64 rows of the 192 × 64 propagator matrix U: the particle
                         effects start at zero, so the receiver's and the sender's parts of the layer's input are zero
    particle effect      Q[n]  = relu((P[n], A₀[n])·V + d), A₀ = the sum of F₀ over each particle's incoming relations
    second propagation   F₁[e] = relu((R[e], Q[σR e], Q[σS e])·U + c)
    prediction           Y[n]  = three layers (the last without relu) of relu((P[n], A₁[n])·V + d), A₁ the sums of F₁
  The sum over incoming relations (`scat`: a scatter-add into zeros), the receiver and sender maps and the block of six
  zeros are parameters here: both programs form them by the same operations on the same arguments, and nothing below
  looks inside them.
-/
import proofs.«425260_j75557064671889_3_alg».proof.Proof.LibRowOps
import proofs.«425260_j75557064671889_3_alg».proof.Proof.LibRowDense
import proofs.«425260_j75557064671889_3_alg».proof.Proof.LibRowLayout

noncomputable section

namespace Cert.Spec

open Idealize.ShloMosaic Idealize.ShloMosaic.RowOps Idealize.ShloMosaic.ValueIdx

/-- The argument arrays: inputs and weights. -/
structure Params where
  attr : Mat 65536 9
  state : Mat 65536 6
  ra : Mat 524288 1
  pe_w0 : Mat 21 64
  pe_b0 : Arr 64
  pe_w1 : Mat 64 64
  pe_b1 : Arr 64
  re_w0 : Mat 43 64
  re_b0 : Arr 64
  re_w1 : Mat 64 64
  re_b1 : Arr 64
  re_w2 : Mat 64 64
  re_b2 : Arr 64
  rp_w : Mat 192 64
  rp_b : Arr 64
  pp_w : Mat 128 64
  pp_b : Arr 64
  fp_w0 : Mat 64 64
  fp_b0 : Arr 64
  fp_w1 : Mat 64 64
  fp_b1 : Arr 64
  fp_w2 : Mat 64 3
  fp_b2 : Arr 3

/-! ## One row at a time -/

/-- The particle encoder on a particle's 21 features. -/
def encP (w0 : Mat 21 64) (b0 : Arr 64) (w1 : Mat 64 64) (b1 : Arr 64) (x : Fin 21 → EReal) : Fin 64 → EReal :=
  relu (dense w1 b1 (relu (dense w0 b0 x)))

/-- The 43 inputs of the relation encoder from the receiver's and the sender's 21 features and the relation's attribute. -/
def relIn (r s : Fin 21 → EReal) (a : Fin 1 → EReal) : Fin 43 → EReal :=
  cat5 (hi 0 15 (by omega) r) (hi 0 15 (by omega) s) (hi 15 6 (by omega) r) (hi 15 6 (by omega) s) a

/-- The relation encoder. -/
def encR (w0 : Mat 43 64) (b0 : Arr 64) (w1 : Mat 64 64) (b1 : Arr 64) (w2 : Mat 64 64) (b2 : Arr 64)
    (r s : Fin 21 → EReal) (a : Fin 1 → EReal) : Fin 64 → EReal :=
  relu (dense w2 b2 (relu (dense w1 b1 (relu (dense w0 b0 (relIn r s a))))))

/-- The first propagation of a relation: its encoding through the first 64 rows of the propagator. -/
def prop0 (w : Mat 64 64) (b : Arr 64) (x : Fin 64 → EReal) : Fin 64 → EReal := relu (dense w b x)

/-- A particle's effect from its encoding and the sum over its incoming relations. -/
def propP (w : Mat 128 64) (b : Arr 64) (p a : Fin 64 → EReal) : Fin 64 → EReal := relu (dense w b (cat2 p a))

/-- A relation's effect from its encoding and its receiver's and sender's effects. -/
def propR (w : Mat 192 64) (b : Arr 64) (x r s : Fin 64 → EReal) : Fin 64 → EReal := relu (dense w b (cat3 x r s))

/-- The last particle effect and the three-layer predictor on it. -/
def predP (pw : Mat 128 64) (pb : Arr 64) (f0 : Mat 64 64) (g0 : Arr 64) (f1 : Mat 64 64) (g1 : Arr 64) (f2 : Mat 64 3)
    (g2 : Arr 3) (p a : Fin 64 → EReal) : Fin 3 → EReal :=
  dense f2 g2 (relu (dense f1 g1 (relu (dense f0 g0 (propP pw pb p a)))))

/-- The first 64 rows of the propagator matrix. -/
def topRows (W : Mat 192 64) : Mat 64 64 :=
  fun j => W (ix2 (⟨(j 0).val, by have := idx2_lt0 j; omega⟩ : Fin 192) (⟨(j 1).val, idx2_lt1 j⟩ : Fin 64))

/-! ## The whole arrays -/

variable (P : Params) (z6 : Mat 65536 6) (σR σS : Fin 524288 → Fin 65536) (scat : Mat 524288 64 → Mat 65536 64)

/-- attributes and six zeros. -/
def attr2 : Mat 65536 15 := rows2 (fun x y => cat2 x y) P.attr z6

/-- attributes, six zeros, state. -/
def nodeFeats : Mat 65536 21 := rows2 (fun x y => cat2 x y) (attr2 P z6) P.state

def particleEnc : Mat 65536 64 := rows1 (encP P.pe_w0 P.pe_b0 P.pe_w1 P.pe_b1) (nodeFeats P z6)

def relationEnc : Mat 524288 64 :=
  rows3 (encR P.re_w0 P.re_b0 P.re_w1 P.re_b1 P.re_w2 P.re_b2) (selRows σR (nodeFeats P z6)) (selRows σS (nodeFeats P z6)) P.ra

def relEff0 : Mat 524288 64 := rows1 (prop0 (topRows P.rp_w) P.rp_b) (relationEnc P z6 σR σS)

def partEff : Mat 65536 64 := rows2 (propP P.pp_w P.pp_b) (particleEnc P z6) (scat (relEff0 P z6 σR σS))

def relEff1 : Mat 524288 64 :=
  rows3 (propR P.rp_w P.rp_b) (relationEnc P z6 σR σS) (selRows σR (partEff P z6 σR σS scat)) (selRows σS (partEff P z6 σR σS scat))

/-- The predicted velocities. -/
def result : Mat 65536 3 :=
  rows2 (predP P.pp_w P.pp_b P.fp_w0 P.fp_b0 P.fp_w1 P.fp_b1 P.fp_w2 P.fp_b2) (particleEnc P z6) (scat (relEff1 P z6 σR σS scat))

/-! ## What both programs build from the integer arguments and from zero -/

/-- An array of zeros: the zero constant broadcast. -/
def zeros (s : Shape) (h : (⟨0, ![]⟩ : Shape).BroadcastsInDim s ![]) : FVec Ideal s .f32 :=
  broadcastInDim s ![] h (constant (F := Ideal) (⟨0, ![]⟩ : Shape) .f32 0x00000000#32)

/-- jnp's reading of an index vector: a negative index counts from the end (`i + 65536`), and the vector becomes a column. -/
def idxCol (h0 : (⟨0, ![]⟩ : Shape).BroadcastsInDim (⟨1, ![524288]⟩ : Shape) ![])
    (h1 : (⟨1, ![524288]⟩ : Shape).BroadcastsInDim (⟨2, ![524288, 1]⟩ : Shape) ![0])
    (i : IVec (⟨1, ![524288]⟩ : Shape) 32) : IVec (⟨2, ![524288, 1]⟩ : Shape) 32 :=
  broadcastInDim (⟨2, ![524288, 1]⟩ : Shape) ![0] h1
    (select (cmpi .slt i (broadcastInDim (⟨1, ![524288]⟩ : Shape) ![] h0 (constantI (⟨0, ![]⟩ : Shape) 32 0#32)))
      (addi i (broadcastInDim (⟨1, ![524288]⟩ : Shape) ![] h0 (constantI (⟨0, ![]⟩ : Shape) 32 65536#32))) i)

/-- The receiver (or sender) of each relation: the row a gather of rows reads at the column `idxCol i`. -/
def rowOf (h0 : (⟨0, ![]⟩ : Shape).BroadcastsInDim (⟨1, ![524288]⟩ : Shape) ![])
    (h1 : (⟨1, ![524288]⟩ : Shape).BroadcastsInDim (⟨2, ![524288, 1]⟩ : Shape) ![0])
    (i : IVec (⟨1, ![524288]⟩ : Shape) 32) : Fin 524288 → Fin 65536 :=
  GatherRow.sel (N := 65536) (by decide) (idxCol h0 h1 i)

/-- The sum over each particle's incoming relations: a scatter-add of the relations' rows into zeros at the receivers. -/
def scatSum (d : ScatterDims (⟨2, ![65536, 64]⟩ : Shape) (⟨2, ![524288, 1]⟩ : Shape) (⟨2, ![524288, 64]⟩ : Shape))
    (hz : (⟨0, ![]⟩ : Shape).BroadcastsInDim (⟨2, ![65536, 64]⟩ : Shape) ![])
    (h1 : (⟨1, ![524288]⟩ : Shape).BroadcastsInDim (⟨2, ![524288, 1]⟩ : Shape) ![0])
    (i : IVec (⟨1, ![524288]⟩ : Shape) 32) (u : Mat 524288 64) : Mat 65536 64 :=
  Host.scatterAdd d (zeros (⟨2, ![65536, 64]⟩ : Shape) hz) (broadcastInDim (⟨2, ![524288, 1]⟩ : Shape) ![0] h1 i) u

end Cert.Spec

end
-- ==== Proof.Pay.lean ====
/-
  EACH KERNEL BODY, ROW BY ROW. The value a kernel stores is its multilayer perceptron applied to each row of its
  blocks: the matrix products into zero accumulators with their biases and positive parts are the layers, and the
  concatenations and column slices arrange the layer's input row.
-/
import proofs.«425260_j75557064671889_3_alg».proof.Proof.Gen.KernelIdeal.Skeleton
import proofs.«425260_j75557064671889_3_alg».proof.Proof.Spec

noncomputable section

namespace Cert.KernelIdeal.Pay

open Idealize.ShloMosaic Idealize.ShloMosaic.ValueIdx Idealize.ShloMosaic.RowOps Cert.KernelIdeal Cert.KernelIdeal.Gen Cert.Spec

/-- The particle encoder's block. -/
theorem pay0 (x : Vec Ideal S8192x21 .f32) (w0 : Vec Ideal S21x64 .f32) (b0 : Vec Ideal S64 .f32) (w1 : Vec Ideal S64x64 .f32)
    (b1 : Vec Ideal S64 .f32) : k0_pay1 (F := Ideal) x w0 b0 w1 b1 = rows1 (encP w0 b0 w1 b1) x := by
  unfold k0_pay1
  simp only []
  rw [shapeCast_self x, kdense_relu _ ⟨rfl, rfl, rfl, rfl, rfl, rfl, rfl, rfl⟩, kdense_relu _ ⟨rfl, rfl, rfl, rfl, rfl, rfl, rfl, rfl⟩]
  rfl

/-- The relation encoder's block. -/
theorem pay1 (r s : Vec Ideal S8192x21 .f32) (a : Vec Ideal S8192x1 .f32) (w0 : Vec Ideal S43x64 .f32) (b0 : Vec Ideal S64 .f32)
    (w1 : Vec Ideal S64x64 .f32) (b1 : Vec Ideal S64 .f32) (w2 : Vec Ideal S64x64 .f32) (b2 : Vec Ideal S64 .f32) :
    k1_pay1 (F := Ideal) r s a w0 b0 w1 b1 w2 b2 = rows3 (encR w0 b0 w1 b1 w2 b2) r s a := by
  unfold k1_pay1
  simp only []
  rw [shapeCast_self r, shapeCast_self s, slice_cols 0 15 (by omega) r, slice_cols 15 6 (by omega) r,
    slice_cols 0 15 (by omega) s, slice_cols 15 6 (by omega) s, concat5_rows,
    kdense_relu _ ⟨rfl, rfl, rfl, rfl, rfl, rfl, rfl, rfl⟩, kdense_relu _ ⟨rfl, rfl, rfl, rfl, rfl, rfl, rfl, rfl⟩, kdense_relu _ ⟨rfl, rfl, rfl, rfl, rfl, rfl, rfl, rfl⟩]
  rfl

/-- The first propagation's block. -/
theorem pay2 (x : Vec Ideal S8192x64 .f32) (w : Vec Ideal S64x64 .f32) (b : Vec Ideal S64 .f32) :
    k2_pay1 (F := Ideal) x w b = rows1 (prop0 w b) x := by
  unfold k2_pay1
  simp only []
  rw [shapeCast_self x, shapeCast_self w, kdense_relu _ ⟨rfl, rfl, rfl, rfl, rfl, rfl, rfl, rfl⟩]
  rfl

/-- The particle propagator's block. -/
theorem pay3 (p a : Vec Ideal S8192x64 .f32) (w : Vec Ideal S128x64 .f32) (b : Vec Ideal S64 .f32) :
    k3_pay1 (F := Ideal) p a w b = rows2 (propP w b) p a := by
  unfold k3_pay1
  simp only []
  rw [shapeCast_self p, shapeCast_self a, concat2_rows, kdense_relu _ ⟨rfl, rfl, rfl, rfl, rfl, rfl, rfl, rfl⟩]
  rfl

/-- The relation propagator's block. -/
theorem pay4 (x r s : Vec Ideal S8192x64 .f32) (w : Vec Ideal S192x64 .f32) (b : Vec Ideal S64 .f32) :
    k4_pay1 (F := Ideal) x r s w b = rows3 (propR w b) x r s := by
  unfold k4_pay1
  simp only []
  rw [shapeCast_self x, shapeCast_self r, shapeCast_self s, concat3_rows, kdense_relu _ ⟨rfl, rfl, rfl, rfl, rfl, rfl, rfl, rfl⟩]
  rfl

/-- The last propagation and the predictor, fused. -/
theorem pay5 (p a : Vec Ideal S8192x64 .f32) (pw : Vec Ideal S128x64 .f32) (pb : Vec Ideal S64 .f32) (f0 : Vec Ideal S64x64 .f32)
    (g0 : Vec Ideal S64 .f32) (f1 : Vec Ideal S64x64 .f32) (g1 : Vec Ideal S64 .f32) (f2 : Vec Ideal S64x3 .f32)
    (g2 : Vec Ideal S3 .f32) :
    k5_pay1 (F := Ideal) p a pw pb f0 g0 f1 g1 f2 g2 = rows2 (predP pw pb f0 g0 f1 g1 f2 g2) p a := by
  unfold k5_pay1
  simp only []
  rw [shapeCast_self p, shapeCast_self a, concat2_rows, kdense_relu _ ⟨rfl, rfl, rfl, rfl, rfl, rfl, rfl, rfl⟩, kdense_relu _ ⟨rfl, rfl, rfl, rfl, rfl, rfl, rfl, rfl⟩, kdense_relu _ ⟨rfl, rfl, rfl, rfl, rfl, rfl, rfl, rfl⟩,
    kdense _ ⟨rfl, rfl, rfl, rfl, rfl, rfl, rfl, rfl⟩]
  rfl

end Cert.KernelIdeal.Pay

end
-- ==== Proof.Region0.lean ====
/-
  ONE PALLAS CALL AS ONE FUNCTION OF WHOLE ARRAYS. The call's grid walks the rows of its row-tiled operands in blocks of
  8192 rows; the weights and biases are fetched whole at every point. Block t of the output is the kernel's row-wise
  function of blocks t of the row-tiled inputs, and a row-wise function of blocks is the block of the row-wise function of
  the whole arrays. The output's blocks tile its array, so after the call the array is that function of the arrays the
  call found.
-/
import proofs.«425260_j75557064671889_3_alg».proof.Proof.Gen.KernelIdeal.Frame
import proofs.«425260_j75557064671889_3_alg».proof.Proof.Pay

set_option maxRecDepth 16384

noncomputable section

namespace Cert.KernelIdeal.Region

open Idealize.ShloMosaic Idealize.ShloMosaic.TcCoe Idealize.ShloMosaic.ValueIdx Idealize.ShloMosaic.RowOps
open Idealize.SL.Sem
open Cert.KernelIdeal Cert.KernelIdeal.Gen Cert.Spec

variable (V : (c : Dev nD) → (b : Ref sig .tc) → Buf (Elt Ideal) ((c : Thread nD τ).loc b))

namespace R0

/-- A row-wise matrix at an index is the function of that index's row, at that index's column: two such entries agree
    when the rows and the columns do. -/
theorem rows1_eq_of {A A' C D : Nat} (f : (Fin C → EReal) → Fin D → EReal) (X : Mat A C) (X' : Mat A' C)
    (j : (⟨2, ![A, D]⟩ : Shape).Idx) (j' : (⟨2, ![A', D]⟩ : Shape).Idx)
    (hrow : ∀ k : Fin C, X (ix2 ⟨(j 0).val, idx2_lt0 j⟩ k) = X' (ix2 ⟨(j' 0).val, idx2_lt0 j'⟩ k))
    (hcol : (j 1).val = (j' 1).val) : rows1 f X j = rows1 f X' j' := by
  unfold rows1
  have h1 : row X ⟨(j 0).val, idx2_lt0 j⟩ = row X' ⟨(j' 0).val, idx2_lt0 j'⟩ := funext hrow
  have h2 : (⟨(j 1).val, idx2_lt1 j⟩ : Fin D) = ⟨(j' 1).val, idx2_lt1 j'⟩ := Fin.ext hcol
  rw [h1, h2]

theorem hzz : (![0, 0] : Fin 2 → Nat) = fun _ => 0 := funext fun a => by fin_cases a <;> rfl
theorem hz : (![0] : Fin 1 → Nat) = fun _ => 0 := funext fun a => by fin_cases a <;> rfl

/-- The printed index maps, decided over the grid: the particles' block moves with the output's down the rows, the
    weights' and biases' block indices are zero, and the output's row block index stays below the number of blocks. -/
theorem idx_facts : ∀ t : Fin cfg0.N,
    win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (1 : Fin 2) = 0
    ∧ win0_5.index t (0 : Fin 2) < 8 :=
  (by decide +kernel : ∀ t : Fin grid0.N, _)

/-- Every row block of the output is some point's. -/
theorem idx_onto : ∀ q : Fin 8, ∃ t : Fin cfg0.N, win0_5.index t = ![q.val, 0] :=
  (by decide +kernel : ∀ q : Fin 8, ∃ t : Fin grid0.N, win0_5.index t = ![q.val, 0])

/-- The first weight matrix is fetched whole: its block at every point is the array. -/
theorem blk_1 (X : Vec Ideal S21x64 .f32) (t : Fin cfg0.N) :
    ((cfg0.win 1).blk t).view.read (Elt Ideal) X = X := by
  obtain ⟨e0, e1, e2, e3, e4, e5, e6, e7, e8, e9⟩ := idx_facts t
  funext y
  show X (((cfg0.win 1).blk t).view.emb y) = X y
  refine congrArg X (funext fun a => Fin.ext ?_)
  match a with
  | ⟨0, _⟩ => show win0_1.index t (0 : Fin 2) * 21 + 1 * (y 0).val = (y 0).val; omega
  | ⟨1, _⟩ => show win0_1.index t (1 : Fin 2) * 64 + 1 * (y 1).val = (y 1).val; omega

/-- So is the first bias, -/
theorem blk_2 (X : Vec Ideal S64 .f32) (t : Fin cfg0.N) :
    ((cfg0.win 2).blk t).view.read (Elt Ideal) X = X := by
  obtain ⟨e0, e1, e2, e3, e4, e5, e6, e7, e8, e9⟩ := idx_facts t
  funext y
  show X (((cfg0.win 2).blk t).view.emb y) = X y
  refine congrArg X (funext fun a => Fin.ext ?_)
  match a with
  | ⟨0, _⟩ => show win0_2.index t (0 : Fin 1) * 64 + 1 * (y 0).val = (y 0).val; omega

/-- the second weight matrix, -/
theorem blk_3 (X : Vec Ideal S64x64 .f32) (t : Fin cfg0.N) :
    ((cfg0.win 3).blk t).view.read (Elt Ideal) X = X := by
  obtain ⟨e0, e1, e2, e3, e4, e5, e6, e7, e8, e9⟩ := idx_facts t
  funext y
  show X (((cfg0.win 3).blk t).view.emb y) = X y
  refine congrArg X (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- and the second bias. -/
theorem blk_4 (X : Vec Ideal S64 .f32) (t : Fin cfg0.N) :
    ((cfg0.win 4).blk t).view.read (Elt Ideal) X = X := by
  obtain ⟨e0, e1, e2, e3, e4, e5, e6, e7, e8, e9⟩ := idx_facts t
  funext y
  show X (((cfg0.win 4).blk t).view.emb y) = X y
  refine congrArg X (funext fun a => Fin.ext ?_)
  match a with
  | ⟨0, _⟩ => show win0_4.index t (0 : Fin 1) * 64 + 1 * (y 0).val = (y 0).val; omega

/-- The encoder of the particles' block at `t`, row by row, is block `t` of the encoder of all the particles: row `p` of
    the block is row `8192·t + p` of the array. -/
theorem core (X : Vec Ideal S65536x21 .f32) (W0 : Vec Ideal S21x64 .f32) (B0 : Vec Ideal S64 .f32)
    (W1 : Vec Ideal S64x64 .f32) (B1 : Vec Ideal S64 .f32) (t : Fin cfg0.N) :
    (cfg0.win 5).cut (grid0.coords t)
      (rows1 (encP (((cfg0.win 1).blk t).view.read (Elt Ideal) W0) (((cfg0.win 2).blk t).view.read (Elt Ideal) B0)
          (((cfg0.win 3).blk t).view.read (Elt Ideal) W1) (((cfg0.win 4).blk t).view.read (Elt Ideal) B1))
        (((cfg0.win 0).blk t).view.read (Elt Ideal) X))
    = ((cfg0.win 5).blk t).view.read (Elt Ideal) (rows1 (encP W0 B0 W1 B1) X) := by
  rw [blk_1, blk_2, blk_3, blk_4]
  obtain ⟨e0, e1, e2, e3, e4, e5, e6, e7, e8, e9⟩ := idx_facts t
  funext y
  refine rows1_eq_of (encP W0 B0 W1 B1) (((cfg0.win 0).blk t).view.read (Elt Ideal) X) X
    ((cfg0.win 5).xinj (grid0.coords t) y) (((cfg0.win 5).blk t).view.emb y) (fun k => ?_) ?_
  · show X (((cfg0.win 0).blk t).view.emb (ix2 (⟨(y 0).val, (y 0).isLt⟩ : Fin 8192) k)) = X (ix2 _ k)
    refine congrArg X (funext fun a => Fin.ext ?_)
    match a with
    | ⟨0, _⟩ => show win0_0.index t (0 : Fin 2) * 8192 + 1 * (y 0).val = win0_5.index t (0 : Fin 2) * 8192 + 1 * (y 0).val; omega
    | ⟨1, _⟩ => show win0_0.index t (1 : Fin 2) * 21 + 1 * k.val = k.val; omega
  · show (y 1).val = win0_5.index t (1 : Fin 2) * 64 + 1 * (y 1).val; omega

/-- What point `t` writes back is block `t` of the row-wise function of the whole arrays. -/
theorem flushed_eq (c : Dev nD) (t : Fin cfg0.N) :
    (dat0 (F := Ideal) V c).flushed 5 t = ((cfg0.win 5).blk t).view.read (Elt Ideal)
      (rows1 (encP (V c main_arg5) (V c main_arg6) (V c main_arg7) (V c main_arg8)) (V c main_v2)) := by
  show (cfg0.win 5).cut (grid0.coords t) ((dat0 (F := Ideal) V c).after 5 t) = _
  rw [after0_5]
  unfold out0_5
  rw [View.canon_unit_zero hzz]
  simp only [View.ld_unit_zero (S := S8192x21) hzz, View.ld_unit_zero (S := S21x64) hzz, View.ld_unit_zero (S := S64x64) hzz,
    View.ld_unit_zero (S := S64) hz]
  rw [Pay.pay0]
  exact core (V c main_v2) (V c main_arg5) (V c main_arg6) (V c main_arg7) (V c main_arg8) t

/-- An index of the array is in point `t`'s block iff each coordinate is in the block's range on its axis. -/
theorem mem_blk (t : Fin cfg0.N) (i : S65536x64.Idx) :
    i ∈ ((cfg0.win 5).blk t).view.set ↔ ∀ a : Fin 2, win0_5.index t a * S8192x64.size a ≤ (i a).val ∧ (i a).val < win0_5.index t a * S8192x64.size a + S8192x64.size a := by
  show i ∈ ((View.whole main_v3).slice (win0_5.rect t)).set ↔ _
  rw [View.set_slice_whole, Rect.mem_set_unit]
  exact Iff.rfl

/-- Every index of the array is in the block of the point whose block index is its row's quotient by the block's height. -/
theorem cover (i : S65536x64.Idx) :
    ∃ t : Fin cfg0.N, (cfg0.win 5).flush t = true ∧ i ∈ ((cfg0.win 5).blk t).view.set := by
  have hi0 : (i 0).val < 65536 := (i 0).isLt
  have hi1 : (i 1).val < 64 := (i 1).isLt
  obtain ⟨t, ht⟩ := idx_onto ⟨(i 0).val / 8192, by omega⟩
  have q0 : win0_5.index t (0 : Fin 2) = (i 0).val / 8192 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 8192 ≤ (i 0).val ∧ (i 0).val < win0_5.index t (0 : Fin 2) * 8192 + 8192; omega
  | ⟨1, _⟩ => show win0_5.index t (1 : Fin 2) * 64 ≤ (i 1).val ∧ (i 1).val < win0_5.index t (1 : Fin 2) * 64 + 64; omega

end R0

/-- The particle encoder's call. -/
theorem arr0 (c : Dev nD) :
    (dat0 (F := Ideal) V c).arrAt 5 cfg0.N
      = rows1 (encP (V c main_arg5) (V c main_arg6) (V c main_arg7) (V c main_arg8)) (V c main_v2) :=
  (dat0 (F := Ideal) V c).arrAt_eq_of_cover 5 _ (fun t _ => R0.flushed_eq V c t) R0.cover

end Cert.KernelIdeal.Region

end
-- ==== Proof.Region1.lean ====
/-
  ONE PALLAS CALL AS ONE FUNCTION OF WHOLE ARRAYS. The call's grid walks the rows of its row-tiled operands in blocks of
  8192 rows; the weights and biases are fetched whole at every point. Block t of the output is the kernel's row-wise
  function of blocks t of the row-tiled inputs, and a row-wise function of blocks is the block of the row-wise function of
  the whole arrays. The output's blocks tile its array, so after the call the array is that function of the arrays the
  call found.
-/
import proofs.«425260_j75557064671889_3_alg».proof.Proof.Gen.KernelIdeal.Frame
import proofs.«425260_j75557064671889_3_alg».proof.Proof.Pay

set_option maxRecDepth 16384

noncomputable section

namespace Cert.KernelIdeal.Region

open Idealize.ShloMosaic Idealize.ShloMosaic.TcCoe Idealize.ShloMosaic.ValueIdx Idealize.ShloMosaic.RowOps
open Idealize.SL.Sem
open Cert.KernelIdeal Cert.KernelIdeal.Gen Cert.Spec

variable (V : (c : Dev nD) → (b : Ref sig .tc) → Buf (Elt Ideal) ((c : Thread nD τ).loc b))

namespace R1

/-- The zero offsets of a rank-2 whole-shape rectangle, as a constant function. -/
theorem hz2 : (![0, 0] : Fin 2 → Nat) = fun _ => 0 :=
  funext fun a => match a with | ⟨0, _⟩ => rfl | ⟨1, _⟩ => rfl
/-- The zero offset of a rank-1 whole-shape rectangle, as a constant function. -/
theorem hz1 : (![0] : Fin 1 → Nat) = fun _ => 0 :=
  funext fun a => match a with | ⟨0, _⟩ => rfl

/-- The index maps over the grid: each row-tiled operand's block index is the output's on the row axis and 0 on the
    column axis; each weight's and each bias's is 0 on every axis; the output's row-block index is below 64. -/
theorem idx_facts1 : ∀ t : Fin cfg1.N,
    win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_2.index t (0 : Fin 2) = win1_9.index t (0 : Fin 2) ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (1 : Fin 2) = 0 ∧ win1_9.index t (0 : Fin 2) < 64 :=
  (by decide +kernel : ∀ t : Fin grid1.N, _)

/-- Every row block of the output is some point's. -/
theorem idx_onto1 : ∀ q : Fin 64, ∃ t : Fin cfg1.N, win1_9.index t = ![q.val, 0] :=
  (by decide +kernel : ∀ q : Fin 64, ∃ t : Fin grid1.N, win1_9.index t = ![q.val, 0])

/-- The first layer's weight is fetched whole: its block at any point is the whole matrix. -/
theorem wblk1_3 (X : Vec Ideal S43x64 .f32) (t : Fin cfg1.N) :
    ((cfg1.win 3).blk t).view.read (Elt Ideal) X = X := by
  obtain ⟨-, -, -, -, -, -, e0, e1, -⟩ := idx_facts1 t
  funext y
  have h : ((cfg1.win 3).blk t).view.emb y = y := by
    funext a; apply Fin.ext
    match a with
    | ⟨0, _⟩ => show win1_3.index t (0 : Fin 2) * 43 + 1 * (y 0).val = (y 0).val; omega
    | ⟨1, _⟩ => show win1_3.index t (1 : Fin 2) * 64 + 1 * (y 1).val = (y 1).val; omega
  show X (((cfg1.win 3).blk t).view.emb y) = X y
  rw [h]

/-- The first layer's bias is fetched whole. -/
theorem wblk1_4 (X : Vec Ideal S64 .f32) (t : Fin cfg1.N) :
    ((cfg1.win 4).blk t).view.read (Elt Ideal) X = X := by
  obtain ⟨-, -, -, -, -, -, -, -, e0, -⟩ := idx_facts1 t
  funext y
  have h : ((cfg1.win 4).blk t).view.emb y = y := by
    funext a; apply Fin.ext
    match a with
    | ⟨0, _⟩ => show win1_4.index t (0 : Fin 1) * 64 + 1 * (y 0).val = (y 0).val; omega
  show X (((cfg1.win 4).blk t).view.emb y) = X y
  rw [h]

/-- The second layer's weight is fetched whole. -/
theorem wblk1_5 (X : Vec Ideal S64x64 .f32) (t : Fin cfg1.N) :
    ((cfg1.win 5).blk t).view.read (Elt Ideal) X = X := by
  obtain ⟨-, -, -, -, -, -, -, -, -, e0, e1, -⟩ := idx_facts1 t
  funext y
  have h : ((cfg1.win 5).blk t).view.emb y = y := by
    funext a; apply Fin.ext
    match a with
    | ⟨0, _⟩ => show win1_5.index t (0 : Fin 2) * 64 + 1 * (y 0).val = (y 0).val; omega
    | ⟨1, _⟩ => show win1_5.index t (1 : Fin 2) * 64 + 1 * (y 1).val = (y 1).val; omega
  show X (((cfg1.win 5).blk t).view.emb y) = X y
  rw [h]

/-- The second layer's bias is fetched whole. -/
theorem wblk1_6 (X : Vec Ideal S64 .f32) (t : Fin cfg1.N) :
    ((cfg1.win 6).blk t).view.read (Elt Ideal) X = X := by
  obtain ⟨-, -, -, -, -, -, -, -, -, -, -, e0, -⟩ := idx_facts1 t
  funext y
  have h : ((cfg1.win 6).blk t).view.emb y = y := by
    funext a; apply Fin.ext
    match a with
    | ⟨0, _⟩ => show win1_6.index t (0 : Fin 1) * 64 + 1 * (y 0).val = (y 0).val; omega
  show X (((cfg1.win 6).blk t).view.emb y) = X y
  rw [h]

/-- The third layer's weight is fetched whole. -/
theorem wblk1_7 (X : Vec Ideal S64x64 .f32) (t : Fin cfg1.N) :
    ((cfg1.win 7).blk t).view.read (Elt Ideal) X = X := by
  obtain ⟨-, -, -, -, -, -, -, -, -, -, -, -, e0, e1, -⟩ := idx_facts1 t
  funext y
  have h : ((cfg1.win 7).blk t).view.emb y = y := by
    funext a; apply Fin.ext
    match a with
    | ⟨0, _⟩ => show win1_7.index t (0 : Fin 2) * 64 + 1 * (y 0).val = (y 0).val; omega
    | ⟨1, _⟩ => show win1_7.index t (1 : Fin 2) * 64 + 1 * (y 1).val = (y 1).val; omega
  show X (((cfg1.win 7).blk t).view.emb y) = X y
  rw [h]

/-- The third layer's bias is fetched whole. -/
theorem wblk1_8 (X : Vec Ideal S64 .f32) (t : Fin cfg1.N) :
    ((cfg1.win 8).blk t).view.read (Elt Ideal) X = X := by
  obtain ⟨-, -, -, -, -, -, -, -, -, -, -, -, -, -, e0, -⟩ := idx_facts1 t
  funext y
  have h : ((cfg1.win 8).blk t).view.emb y = y := by
    funext a; apply Fin.ext
    match a with
    | ⟨0, _⟩ => show win1_8.index t (0 : Fin 1) * 64 + 1 * (y 0).val = (y 0).val; omega
  show X (((cfg1.win 8).blk t).view.emb y) = X y
  rw [h]

/-- A row-wise function of the blocks at point `t` of the receivers', the senders' and the attributes' arrays is the
    block at point `t` of the row-wise function of the arrays: row `p` of block `t` is row `t·8192 + p` of the array,
    column by column. -/
theorem blkrows1 (f : (Fin 21 → EReal) → (Fin 21 → EReal) → (Fin 1 → EReal) → Fin 64 → EReal)
    (X Y : Vec Ideal S524288x21 .f32) (Z : Vec Ideal S524288x1 .f32) (t : Fin cfg1.N) :
    (cfg1.win 9).cut (grid1.coords t)
        (rows3 f (((cfg1.win 0).blk t).view.read (Elt Ideal) X) (((cfg1.win 1).blk t).view.read (Elt Ideal) Y)
          (((cfg1.win 2).blk t).view.read (Elt Ideal) Z))
      = ((cfg1.win 9).blk t).view.read (Elt Ideal) (rows3 f X Y Z) := by
  obtain ⟨e00, e01, e10, e11, e20, e21, -, -, -, -, -, -, -, -, -, e91, e9lt⟩ := idx_facts1 t
  funext y
  have hy0 : (y 0).val < 8192 := (y 0).isLt
  have hy1 : (y 1).val < 64 := (y 1).isLt
  have hP : win1_9.index t (0 : Fin 2) * 8192 + 1 * (y 0).val < 524288 := by omega
  have hemb : ((cfg1.win 9).blk t).view.emb y
      = ix2 (⟨win1_9.index t (0 : Fin 2) * 8192 + 1 * (y 0).val, hP⟩ : Fin 524288) (⟨(y 1).val, hy1⟩ : Fin 64) := by
    funext a; apply Fin.ext
    match a with
    | ⟨0, _⟩ => rfl
    | ⟨1, _⟩ => show win1_9.index t (1 : Fin 2) * 64 + 1 * (y 1).val = (y 1).val; omega
  have r0 : row (((cfg1.win 0).blk t).view.read (Elt Ideal) X) (⟨(y 0).val, hy0⟩ : Fin 8192)
      = row X ⟨win1_9.index t (0 : Fin 2) * 8192 + 1 * (y 0).val, hP⟩ := by
    funext k
    have h : ((cfg1.win 0).blk t).view.emb (ix2 (⟨(y 0).val, hy0⟩ : Fin 8192) k)
        = ix2 (⟨win1_9.index t (0 : Fin 2) * 8192 + 1 * (y 0).val, hP⟩ : Fin 524288) k := by
      funext a; apply Fin.ext
      match a with
      | ⟨0, _⟩ =>
        show win1_0.index t (0 : Fin 2) * 8192 + 1 * (y 0).val = win1_9.index t (0 : Fin 2) * 8192 + 1 * (y 0).val
        omega
      | ⟨1, _⟩ => show win1_0.index t (1 : Fin 2) * 21 + 1 * k.val = k.val; omega
    show X (((cfg1.win 0).blk t).view.emb (ix2 (⟨(y 0).val, hy0⟩ : Fin 8192) k)) = X (ix2 _ k)
    rw [h]
  have r1 : row (((cfg1.win 1).blk t).view.read (Elt Ideal) Y) (⟨(y 0).val, hy0⟩ : Fin 8192)
      = row Y ⟨win1_9.index t (0 : Fin 2) * 8192 + 1 * (y 0).val, hP⟩ := by
    funext k
    have h : ((cfg1.win 1).blk t).view.emb (ix2 (⟨(y 0).val, hy0⟩ : Fin 8192) k)
        = ix2 (⟨win1_9.index t (0 : Fin 2) * 8192 + 1 * (y 0).val, hP⟩ : Fin 524288) k := by
      funext a; apply Fin.ext
      match a with
      | ⟨0, _⟩ =>
        show win1_1.index t (0 : Fin 2) * 8192 + 1 * (y 0).val = win1_9.index t (0 : Fin 2) * 8192 + 1 * (y 0).val
        omega
      | ⟨1, _⟩ => show win1_1.index t (1 : Fin 2) * 21 + 1 * k.val = k.val; omega
    show Y (((cfg1.win 1).blk t).view.emb (ix2 (⟨(y 0).val, hy0⟩ : Fin 8192) k)) = Y (ix2 _ k)
    rw [h]
  have r2 : row (((cfg1.win 2).blk t).view.read (Elt Ideal) Z) (⟨(y 0).val, hy0⟩ : Fin 8192)
      = row Z ⟨win1_9.index t (0 : Fin 2) * 8192 + 1 * (y 0).val, hP⟩ := by
    funext k
    have h : ((cfg1.win 2).blk t).view.emb (ix2 (⟨(y 0).val, hy0⟩ : Fin 8192) k)
        = ix2 (⟨win1_9.index t (0 : Fin 2) * 8192 + 1 * (y 0).val, hP⟩ : Fin 524288) k := by
      funext a; apply Fin.ext
      match a with
      | ⟨0, _⟩ =>
        show win1_2.index t (0 : Fin 2) * 8192 + 1 * (y 0).val = win1_9.index t (0 : Fin 2) * 8192 + 1 * (y 0).val
        omega
      | ⟨1, _⟩ => show win1_2.index t (1 : Fin 2) * 1 + 1 * k.val = k.val; omega
    show Z (((cfg1.win 2).blk t).view.emb (ix2 (⟨(y 0).val, hy0⟩ : Fin 8192) k)) = Z (ix2 _ k)
    rw [h]
  show rows3 f _ _ _ (ix2 (⟨(y 0).val, hy0⟩ : Fin 8192) (⟨(y 1).val, hy1⟩ : Fin 64))
    = rows3 f X Y Z (((cfg1.win 9).blk t).view.emb y)
  rw [hemb, rows3_apply, rows3_apply, r0, r1, r2]

/-- What point `t` writes back is block `t` of the row-wise function of the whole arrays. -/
theorem flushed1_eq (c : Dev nD) (t : Fin cfg1.N) :
    (dat1 (F := Ideal) V c).flushed 9 t = ((cfg1.win 9).blk t).view.read (Elt Ideal)
      (rows3 (encR (V c main_arg9) (V c main_arg10) (V c main_arg11) (V c main_arg12) (V c main_arg13) (V c main_arg14))
        (V c main_v10) (V c main_v17) (V c main_arg2)) := by
  show (cfg1.win 9).cut (grid1.coords t) ((dat1 V c).after 9 t) = _
  rw [after1_9]
  unfold out1_9
  rw [View.canon_unit_zero hz2]
  simp only [View.ld_unit_zero (S := S8192x21) hz2, View.ld_unit_zero (S := S8192x1) hz2,
    View.ld_unit_zero (S := S43x64) hz2, View.ld_unit_zero (S := S64x64) hz2, View.ld_unit_zero (S := S64) hz1]
  rw [Pay.pay1]
  have w3 : iblk1 V c 3 t = V c main_arg9 := wblk1_3 (V c main_arg9) t
  have w4 : iblk1 V c 4 t = V c main_arg10 := wblk1_4 (V c main_arg10) t
  have w5 : iblk1 V c 5 t = V c main_arg11 := wblk1_5 (V c main_arg11) t
  have w6 : iblk1 V c 6 t = V c main_arg12 := wblk1_6 (V c main_arg12) t
  have w7 : iblk1 V c 7 t = V c main_arg13 := wblk1_7 (V c main_arg13) t
  have w8 : iblk1 V c 8 t = V c main_arg14 := wblk1_8 (V c main_arg14) t
  rw [w3, w4, w5, w6, w7, w8]
  exact blkrows1 _ (V c main_v10) (V c main_v17) (V c main_arg2) t

/-- An index of the output array is in point `t`'s block iff each coordinate is in the block's range on its axis. -/
theorem mem_blk1 (t : Fin cfg1.N) (i : S524288x64.Idx) :
    i ∈ ((cfg1.win 9).blk t).view.set ↔ ∀ a : Fin 2, win1_9.index t a * S8192x64.size a ≤ (i a).val
      ∧ (i a).val < win1_9.index t a * S8192x64.size a + S8192x64.size a := by
  show i ∈ ((View.whole main_v18).slice (win1_9.rect t)).set ↔ _
  rw [View.set_slice_whole, Rect.mem_set_unit]
  exact Iff.rfl

/-- Every index of the output array is in the block of the point whose block index is its row over 8192. -/
theorem cover1 (i : S524288x64.Idx) :
    ∃ t : Fin cfg1.N, (cfg1.win 9).flush t = true ∧ i ∈ ((cfg1.win 9).blk t).view.set := by
  have hi0 : (i 0).val < 524288 := (i 0).isLt
  have hi1 : (i 1).val < 64 := (i 1).isLt
  obtain ⟨t, ht⟩ := idx_onto1 ⟨(i 0).val / 8192, by omega⟩
  have q0 : win1_9.index t (0 : Fin 2) = (i 0).val / 8192 := congrFun ht 0
  have q1 : win1_9.index t (1 : Fin 2) = 0 := congrFun ht 1
  refine ⟨t, flush1_9 t, ?_⟩
  rw [mem_blk1]
  intro a
  match a with
  | ⟨0, _⟩ =>
    show win1_9.index t (0 : Fin 2) * 8192 ≤ (i 0).val ∧ (i 0).val < win1_9.index t (0 : Fin 2) * 8192 + 8192
    omega
  | ⟨1, _⟩ =>
    show win1_9.index t (1 : Fin 2) * 64 ≤ (i 1).val ∧ (i 1).val < win1_9.index t (1 : Fin 2) * 64 + 64
    omega

end R1

/-- The relation encoder's call. -/
theorem arr1 (c : Dev nD) :
    (dat1 (F := Ideal) V c).arrAt 9 cfg1.N
      = rows3 (encR (V c main_arg9) (V c main_arg10) (V c main_arg11) (V c main_arg12) (V c main_arg13) (V c main_arg14))
          (V c main_v10) (V c main_v17) (V c main_arg2) :=
  (dat1 (F := Ideal) V c).arrAt_eq_of_cover 9 _ (fun t _ => R1.flushed1_eq V c t) R1.cover1

end Cert.KernelIdeal.Region

end
-- ==== Proof.Region2.lean ====
/-
  ONE PALLAS CALL AS ONE FUNCTION OF WHOLE ARRAYS. The call's grid walks the rows of its row-tiled operands in blocks of
  8192 rows; the weights and biases are fetched whole at every point. Block t of the output is the kernel's row-wise
  function of blocks t of the row-tiled inputs, and a row-wise function of blocks is the block of the row-wise function of
  the whole arrays. The output's blocks tile its array, so after the call the array is that function of the arrays the
  call found.
-/
import proofs.«425260_j75557064671889_3_alg».proof.Proof.Gen.KernelIdeal.Frame
import proofs.«425260_j75557064671889_3_alg».proof.Proof.Pay

set_option maxRecDepth 16384

noncomputable section

namespace Cert.KernelIdeal.Region

open Idealize.ShloMosaic Idealize.ShloMosaic.TcCoe Idealize.ShloMosaic.ValueIdx Idealize.ShloMosaic.RowOps
open Idealize.SL.Sem
open Cert.KernelIdeal Cert.KernelIdeal.Gen Cert.Spec

variable (V : (c : Dev nD) → (b : Ref sig .tc) → Buf (Elt Ideal) ((c : Thread nD τ).loc b))

namespace R2

/-- A row-wise matrix at an index is the function of that index's row, at that index's column: two such entries agree
    when the rows and the columns do. -/
theorem rows1_eq_of {A A' C D : Nat} (f : (Fin C → EReal) → Fin D → EReal) (X : Mat A C) (X' : Mat A' C)
    (j : (⟨2, ![A, D]⟩ : Shape).Idx) (j' : (⟨2, ![A', D]⟩ : Shape).Idx)
    (hrow : ∀ k : Fin C, X (ix2 ⟨(j 0).val, idx2_lt0 j⟩ k) = X' (ix2 ⟨(j' 0).val, idx2_lt0 j'⟩ k))
    (hcol : (j 1).val = (j' 1).val) : rows1 f X j = rows1 f X' j' := by
  unfold rows1
  have h1 : row X ⟨(j 0).val, idx2_lt0 j⟩ = row X' ⟨(j' 0).val, idx2_lt0 j'⟩ := funext hrow
  have h2 : (⟨(j 1).val, idx2_lt1 j⟩ : Fin D) = ⟨(j' 1).val, idx2_lt1 j'⟩ := Fin.ext hcol
  rw [h1, h2]

theorem hzz : (![0, 0] : Fin 2 → Nat) = fun _ => 0 := funext fun a => by fin_cases a <;> rfl
theorem hz : (![0] : Fin 1 → Nat) = fun _ => 0 := funext fun a => by fin_cases a <;> rfl

theorem idx_facts : ∀ t : Fin cfg2.N,
    win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 1) = 0
    ∧ win2_3.index t (1 : Fin 2) = 0
    ∧ win2_3.index t (0 : Fin 2) < 64 :=
  (by decide +kernel : ∀ t : Fin grid2.N, _)

theorem idx_onto : ∀ q : Fin 64, ∃ t : Fin cfg2.N, win2_3.index t = ![q.val, 0] :=
  (by decide +kernel : ∀ q : Fin 64, ∃ t : Fin grid2.N, win2_3.index t = ![q.val, 0])

/-- The weight matrix is fetched whole: its block at every point is the array. -/
theorem blk_1 (X : Vec Ideal S64x64 .f32) (t : Fin cfg2.N) :
    ((cfg2.win 1).blk t).view.read (Elt Ideal) X = X := by
  obtain ⟨e0, e1, e2, e3, e4, e5, e6⟩ := idx_facts t
  funext y
  show X (((cfg2.win 1).blk t).view.emb y) = X y
  refine congrArg X (funext fun a => Fin.ext ?_)
  match a with
  | ⟨0, _⟩ => show win2_1.index t (0 : Fin 2) * 64 + 1 * (y 0).val = (y 0).val; omega
  | ⟨1, _⟩ => show win2_1.index t (1 : Fin 2) * 64 + 1 * (y 1).val = (y 1).val; omega

/-- So is the bias. -/
theorem blk_2 (X : Vec Ideal S64 .f32) (t : Fin cfg2.N) :
    ((cfg2.win 2).blk t).view.read (Elt Ideal) X = X := by
  obtain ⟨e0, e1, e2, e3, e4, e5, e6⟩ := idx_facts t
  funext y
  show X (((cfg2.win 2).blk t).view.emb y) = X y
  refine congrArg X (funext fun a => Fin.ext ?_)
  match a with
  | ⟨0, _⟩ => show win2_2.index t (0 : Fin 1) * 64 + 1 * (y 0).val = (y 0).val; omega

theorem core (X : Vec Ideal S524288x64 .f32) (W : Vec Ideal S64x64 .f32) (B : Vec Ideal S64 .f32) (t : Fin cfg2.N) :
    (cfg2.win 3).cut (grid2.coords t)
      (rows1 (prop0 (((cfg2.win 1).blk t).view.read (Elt Ideal) W) (((cfg2.win 2).blk t).view.read (Elt Ideal) B))
        (((cfg2.win 0).blk t).view.read (Elt Ideal) X))
    = ((cfg2.win 3).blk t).view.read (Elt Ideal) (rows1 (prop0 W B) X) := by
  rw [blk_1, blk_2]
  obtain ⟨e0, e1, e2, e3, e4, e5, e6⟩ := idx_facts t
  funext y
  refine rows1_eq_of (prop0 W B) (((cfg2.win 0).blk t).view.read (Elt Ideal) X) X
    ((cfg2.win 3).xinj (grid2.coords t) y) (((cfg2.win 3).blk t).view.emb y) (fun k => ?_) ?_
  · show X (((cfg2.win 0).blk t).view.emb (ix2 (⟨(y 0).val, (y 0).isLt⟩ : Fin 8192) k)) = X (ix2 _ k)
    refine congrArg X (funext fun a => Fin.ext ?_)
    match a with
    | ⟨0, _⟩ => show win2_0.index t (0 : Fin 2) * 8192 + 1 * (y 0).val = win2_3.index t (0 : Fin 2) * 8192 + 1 * (y 0).val; omega
    | ⟨1, _⟩ => show win2_0.index t (1 : Fin 2) * 64 + 1 * k.val = k.val; omega
  · show (y 1).val = win2_3.index t (1 : Fin 2) * 64 + 1 * (y 1).val; omega

/-- What point `t` writes back is block `t` of the row-wise function of the whole arrays. -/
theorem flushed_eq (c : Dev nD) (t : Fin cfg2.N) :
    (dat2 (F := Ideal) V c).flushed 3 t = ((cfg2.win 3).blk t).view.read (Elt Ideal)
      (rows1 (prop0 (V c main_v19) (V c main_arg16)) (V c main_v18)) := by
  show (cfg2.win 3).cut (grid2.coords t) ((dat2 (F := Ideal) V c).after 3 t) = _
  rw [after2_3]
  unfold out2_3
  rw [View.canon_unit_zero hzz]
  simp only [View.ld_unit_zero (S := S8192x64) hzz, View.ld_unit_zero (S := S64x64) hzz, View.ld_unit_zero (S := S64) hz]
  rw [Pay.pay2]
  exact core (V c main_v18) (V c main_v19) (V c main_arg16) t

/-- An index of the array is in point `t`'s block iff each coordinate is in the block's range on its axis. -/
theorem mem_blk (t : Fin cfg2.N) (i : S524288x64.Idx) :
    i ∈ ((cfg2.win 3).blk t).view.set ↔ ∀ a : Fin 2, win2_3.index t a * S8192x64.size a ≤ (i a).val ∧ (i a).val < win2_3.index t a * S8192x64.size a + S8192x64.size a := by
  show i ∈ ((View.whole main_v20).slice (win2_3.rect t)).set ↔ _
  rw [View.set_slice_whole, Rect.mem_set_unit]
  exact Iff.rfl

/-- Every index of the array is in the block of the point whose block index is its row's quotient by the block's height. -/
theorem cover (i : S524288x64.Idx) :
    ∃ t : Fin cfg2.N, (cfg2.win 3).flush t = true ∧ i ∈ ((cfg2.win 3).blk t).view.set := by
  have hi0 : (i 0).val < 524288 := (i 0).isLt
  have hi1 : (i 1).val < 64 := (i 1).isLt
  obtain ⟨t, ht⟩ := idx_onto ⟨(i 0).val / 8192, by omega⟩
  have q0 : win2_3.index t (0 : Fin 2) = (i 0).val / 8192 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 8192 ≤ (i 0).val ∧ (i 0).val < win2_3.index t (0 : Fin 2) * 8192 + 8192; omega
  | ⟨1, _⟩ => show win2_3.index t (1 : Fin 2) * 64 ≤ (i 1).val ∧ (i 1).val < win2_3.index t (1 : Fin 2) * 64 + 64; omega

end R2

/-- The first propagation's call. -/
theorem arr2 (c : Dev nD) :
    (dat2 (F := Ideal) V c).arrAt 3 cfg2.N = rows1 (prop0 (V c main_v19) (V c main_arg16)) (V c main_v18) :=
  (dat2 (F := Ideal) V c).arrAt_eq_of_cover 3 _ (fun t _ => R2.flushed_eq V c t) R2.cover

end Cert.KernelIdeal.Region

end
-- ==== Proof.Region3.lean ====
/-
  ONE PALLAS CALL AS ONE FUNCTION OF WHOLE ARRAYS. The call's grid walks the rows of its row-tiled operands in blocks of
  8192 rows; the weights and biases are fetched whole at every point. Block t of the output is the kernel's row-wise
  function of blocks t of the row-tiled inputs, and a row-wise function of blocks is the block of the row-wise function of
  the whole arrays. The output's blocks tile its array, so after the call the array is that function of the arrays the
  call found.
-/
import proofs.«425260_j75557064671889_3_alg».proof.Proof.Gen.KernelIdeal.Frame
import proofs.«425260_j75557064671889_3_alg».proof.Proof.Pay

set_option maxRecDepth 16384

noncomputable section

namespace Cert.KernelIdeal.Region

open Idealize.ShloMosaic Idealize.ShloMosaic.TcCoe Idealize.ShloMosaic.ValueIdx Idealize.ShloMosaic.RowOps
open Idealize.SL.Sem
open Cert.KernelIdeal Cert.KernelIdeal.Gen Cert.Spec

variable (V : (c : Dev nD) → (b : Ref sig .tc) → Buf (Elt Ideal) ((c : Thread nD τ).loc b))

namespace R3

/-- A row-wise matrix of two matrices at an index is the function of that index's rows, at that index's column: two such
    entries agree when the rows and the columns do. -/
theorem rows2_eq_of {A A' C₁ C₂ D : Nat} (f : (Fin C₁ → EReal) → (Fin C₂ → EReal) → Fin D → EReal)
    (X : Mat A C₁) (Y : Mat A C₂) (X' : Mat A' C₁) (Y' : Mat A' C₂)
    (j : (⟨2, ![A, D]⟩ : Shape).Idx) (j' : (⟨2, ![A', D]⟩ : Shape).Idx)
    (hX : ∀ k : Fin C₁, X (ix2 ⟨(j 0).val, idx2_lt0 j⟩ k) = X' (ix2 ⟨(j' 0).val, idx2_lt0 j'⟩ k))
    (hY : ∀ k : Fin C₂, Y (ix2 ⟨(j 0).val, idx2_lt0 j⟩ k) = Y' (ix2 ⟨(j' 0).val, idx2_lt0 j'⟩ k))
    (hcol : (j 1).val = (j' 1).val) : rows2 f X Y j = rows2 f X' Y' j' := by
  unfold rows2
  have h1 : row X ⟨(j 0).val, idx2_lt0 j⟩ = row X' ⟨(j' 0).val, idx2_lt0 j'⟩ := funext hX
  have h2 : row Y ⟨(j 0).val, idx2_lt0 j⟩ = row Y' ⟨(j' 0).val, idx2_lt0 j'⟩ := funext hY
  have h3 : (⟨(j 1).val, idx2_lt1 j⟩ : Fin D) = ⟨(j' 1).val, idx2_lt1 j'⟩ := Fin.ext hcol
  rw [h1, h2, h3]

theorem hzz : (![0, 0] : Fin 2 → Nat) = fun _ => 0 := funext fun a => by fin_cases a <;> rfl
theorem hz : (![0] : Fin 1 → Nat) = fun _ => 0 := funext fun a => by fin_cases a <;> rfl

/-- The printed index maps, decided over the grid: the two row-tiled operands' blocks move with the output's down the
    rows, the weight's and the bias's block indices are zero, and the output's row block index stays below the number
    of blocks. -/
theorem idx_facts : ∀ t : Fin cfg3.N,
    win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = 0 ∧ win3_2.index t (1 : Fin 2) = 0
    ∧ win3_3.index t (0 : Fin 1) = 0
    ∧ win3_4.index t (1 : Fin 2) = 0
    ∧ win3_4.index t (0 : Fin 2) < 8 :=
  (by decide +kernel : ∀ t : Fin grid3.N, _)

/-- Every row block of the output is some point's. -/
theorem idx_onto : ∀ q : Fin 8, ∃ t : Fin cfg3.N, win3_4.index t = ![q.val, 0] :=
  (by decide +kernel : ∀ q : Fin 8, ∃ t : Fin grid3.N, win3_4.index t = ![q.val, 0])

/-- The weight matrix is fetched whole: its block at every point is the array. -/
theorem blk_2 (X : Vec Ideal S128x64 .f32) (t : Fin cfg3.N) :
    ((cfg3.win 2).blk t).view.read (Elt Ideal) X = X := by
  obtain ⟨e0, e1, e2, e3, e4, e5, e6, e7, e8⟩ := idx_facts t
  funext y
  show X (((cfg3.win 2).blk t).view.emb y) = X y
  refine congrArg X (funext fun a => Fin.ext ?_)
  match a with
  | ⟨0, _⟩ => show win3_2.index t (0 : Fin 2) * 128 + 1 * (y 0).val = (y 0).val; omega
  | ⟨1, _⟩ => show win3_2.index t (1 : Fin 2) * 64 + 1 * (y 1).val = (y 1).val; omega

/-- So is the bias. -/
theorem blk_3 (X : Vec Ideal S64 .f32) (t : Fin cfg3.N) :
    ((cfg3.win 3).blk t).view.read (Elt Ideal) X = X := by
  obtain ⟨e0, e1, e2, e3, e4, e5, e6, e7, e8⟩ := idx_facts t
  funext y
  show X (((cfg3.win 3).blk t).view.emb y) = X y
  refine congrArg X (funext fun a => Fin.ext ?_)
  match a with
  | ⟨0, _⟩ => show win3_3.index t (0 : Fin 1) * 64 + 1 * (y 0).val = (y 0).val; omega

/-- The propagator of the two operands' blocks at `t`, row by row, is block `t` of the propagator of the whole arrays:
    row `p` of either block is row `8192·t + p` of its array. -/
theorem core (P A : Vec Ideal S65536x64 .f32) (W : Vec Ideal S128x64 .f32) (B : Vec Ideal S64 .f32) (t : Fin cfg3.N) :
    (cfg3.win 4).cut (grid3.coords t)
      (rows2 (propP (((cfg3.win 2).blk t).view.read (Elt Ideal) W) (((cfg3.win 3).blk t).view.read (Elt Ideal) B))
        (((cfg3.win 0).blk t).view.read (Elt Ideal) P) (((cfg3.win 1).blk t).view.read (Elt Ideal) A))
    = ((cfg3.win 4).blk t).view.read (Elt Ideal) (rows2 (propP W B) P A) := by
  rw [blk_2, blk_3]
  obtain ⟨e0, e1, e2, e3, e4, e5, e6, e7, e8⟩ := idx_facts t
  funext y
  refine rows2_eq_of (propP W B) (((cfg3.win 0).blk t).view.read (Elt Ideal) P)
    (((cfg3.win 1).blk t).view.read (Elt Ideal) A) P A
    ((cfg3.win 4).xinj (grid3.coords t) y) (((cfg3.win 4).blk t).view.emb y) (fun k => ?_) (fun k => ?_) ?_
  · show P (((cfg3.win 0).blk t).view.emb (ix2 (⟨(y 0).val, (y 0).isLt⟩ : Fin 8192) k)) = P (ix2 _ k)
    refine congrArg P (funext fun a => Fin.ext ?_)
    match a with
    | ⟨0, _⟩ => show win3_0.index t (0 : Fin 2) * 8192 + 1 * (y 0).val = win3_4.index t (0 : Fin 2) * 8192 + 1 * (y 0).val; omega
    | ⟨1, _⟩ => show win3_0.index t (1 : Fin 2) * 64 + 1 * k.val = k.val; omega
  · show A (((cfg3.win 1).blk t).view.emb (ix2 (⟨(y 0).val, (y 0).isLt⟩ : Fin 8192) k)) = A (ix2 _ k)
    refine congrArg A (funext fun a => Fin.ext ?_)
    match a with
    | ⟨0, _⟩ => show win3_1.index t (0 : Fin 2) * 8192 + 1 * (y 0).val = win3_4.index t (0 : Fin 2) * 8192 + 1 * (y 0).val; omega
    | ⟨1, _⟩ => show win3_1.index t (1 : Fin 2) * 64 + 1 * k.val = k.val; omega
  · show (y 1).val = win3_4.index t (1 : Fin 2) * 64 + 1 * (y 1).val; omega

/-- What point `t` writes back is block `t` of the row-wise function of the whole arrays. -/
theorem flushed_eq (c : Dev nD) (t : Fin cfg3.N) :
    (dat3 (F := Ideal) V c).flushed 4 t = ((cfg3.win 4).blk t).view.read (Elt Ideal)
      (rows2 (propP (V c main_arg17) (V c main_arg18)) (V c main_v3) (V c main_v23)) := by
  show (cfg3.win 4).cut (grid3.coords t) ((dat3 (F := Ideal) V c).after 4 t) = _
  rw [after3_4]
  unfold out3_4
  rw [View.canon_unit_zero hzz]
  simp only [View.ld_unit_zero (S := S8192x64) hzz, View.ld_unit_zero (S := S128x64) hzz, View.ld_unit_zero (S := S64) hz]
  rw [Pay.pay3]
  exact core (V c main_v3) (V c main_v23) (V c main_arg17) (V c main_arg18) t

/-- An index of the array is in point `t`'s block iff each coordinate is in the block's range on its axis. -/
theorem mem_blk (t : Fin cfg3.N) (i : S65536x64.Idx) :
    i ∈ ((cfg3.win 4).blk t).view.set ↔ ∀ a : Fin 2, win3_4.index t a * S8192x64.size a ≤ (i a).val ∧ (i a).val < win3_4.index t a * S8192x64.size a + S8192x64.size a := by
  show i ∈ ((View.whole main_v24).slice (win3_4.rect t)).set ↔ _
  rw [View.set_slice_whole, Rect.mem_set_unit]
  exact Iff.rfl

/-- Every index of the array is in the block of the point whose block index is its row's quotient by the block's height. -/
theorem cover (i : S65536x64.Idx) :
    ∃ t : Fin cfg3.N, (cfg3.win 4).flush t = true ∧ i ∈ ((cfg3.win 4).blk t).view.set := by
  have hi0 : (i 0).val < 65536 := (i 0).isLt
  have hi1 : (i 1).val < 64 := (i 1).isLt
  obtain ⟨t, ht⟩ := idx_onto ⟨(i 0).val / 8192, by omega⟩
  have q0 : win3_4.index t (0 : Fin 2) = (i 0).val / 8192 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 8192 ≤ (i 0).val ∧ (i 0).val < win3_4.index t (0 : Fin 2) * 8192 + 8192; omega
  | ⟨1, _⟩ => show win3_4.index t (1 : Fin 2) * 64 ≤ (i 1).val ∧ (i 1).val < win3_4.index t (1 : Fin 2) * 64 + 64; omega

end R3

/-- The particle propagator's call. -/
theorem arr3 (c : Dev nD) :
    (dat3 (F := Ideal) V c).arrAt 4 cfg3.N
      = rows2 (propP (V c main_arg17) (V c main_arg18)) (V c main_v3) (V c main_v23) :=
  (dat3 (F := Ideal) V c).arrAt_eq_of_cover 4 _ (fun t _ => R3.flushed_eq V c t) R3.cover

end Cert.KernelIdeal.Region

end
-- ==== Proof.Region4.lean ====
/-
  ONE PALLAS CALL AS ONE FUNCTION OF WHOLE ARRAYS. The call's grid walks the rows of its row-tiled operands in blocks of
  8192 rows; the weights and biases are fetched whole at every point. Block t of the output is the kernel's row-wise
  function of blocks t of the row-tiled inputs, and a row-wise function of blocks is the block of the row-wise function of
  the whole arrays. The output's blocks tile its array, so after the call the array is that function of the arrays the
  call found.
-/
import proofs.«425260_j75557064671889_3_alg».proof.Proof.Gen.KernelIdeal.Frame
import proofs.«425260_j75557064671889_3_alg».proof.Proof.Pay

set_option maxRecDepth 16384

noncomputable section

namespace Cert.KernelIdeal.Region

open Idealize.ShloMosaic Idealize.ShloMosaic.TcCoe Idealize.ShloMosaic.ValueIdx Idealize.ShloMosaic.RowOps
open Idealize.SL.Sem
open Cert.KernelIdeal Cert.KernelIdeal.Gen Cert.Spec

variable (V : (c : Dev nD) → (b : Ref sig .tc) → Buf (Elt Ideal) ((c : Thread nD τ).loc b))

namespace R4

/-- The zero offsets of a rank-2 whole-shape rectangle, as a constant function. -/
theorem hz2 : (![0, 0] : Fin 2 → Nat) = fun _ => 0 :=
  funext fun a => match a with | ⟨0, _⟩ => rfl | ⟨1, _⟩ => rfl
/-- The zero offset of a rank-1 whole-shape rectangle, as a constant function. -/
theorem hz1 : (![0] : Fin 1 → Nat) = fun _ => 0 :=
  funext fun a => match a with | ⟨0, _⟩ => rfl

/-- The index maps over the grid: each row-tiled operand's block index is the output's on the row axis and 0 on the
    column axis; the weight's and the bias's are 0 on every axis; the output's row-block index is below 64. -/
theorem idx_facts4 : ∀ t : Fin cfg4.N,
    win4_0.index t (0 : Fin 2) = win4_5.index t (0 : Fin 2) ∧ win4_0.index t (1 : Fin 2) = 0
    ∧ win4_1.index t (0 : Fin 2) = win4_5.index t (0 : Fin 2) ∧ win4_1.index t (1 : Fin 2) = 0
    ∧ win4_2.index t (0 : Fin 2) = win4_5.index t (0 : Fin 2) ∧ win4_2.index t (1 : Fin 2) = 0
    ∧ win4_3.index t (0 : Fin 2) = 0 ∧ win4_3.index t (1 : Fin 2) = 0
    ∧ win4_4.index t (0 : Fin 1) = 0
    ∧ win4_5.index t (1 : Fin 2) = 0 ∧ win4_5.index t (0 : Fin 2) < 64 :=
  (by decide +kernel : ∀ t : Fin grid4.N, _)

/-- Every row block of the output is some point's. -/
theorem idx_onto4 : ∀ q : Fin 64, ∃ t : Fin cfg4.N, win4_5.index t = ![q.val, 0] :=
  (by decide +kernel : ∀ q : Fin 64, ∃ t : Fin grid4.N, win4_5.index t = ![q.val, 0])

/-- The weight's block at any point is the whole weight matrix. -/
theorem wblk4_3 (X : Vec Ideal S192x64 .f32) (t : Fin cfg4.N) :
    ((cfg4.win 3).blk t).view.read (Elt Ideal) X = X := by
  obtain ⟨-, -, -, -, -, -, e0, e1, -⟩ := idx_facts4 t
  funext y
  have h : ((cfg4.win 3).blk t).view.emb y = y := by
    funext a; apply Fin.ext
    match a with
    | ⟨0, _⟩ => show win4_3.index t (0 : Fin 2) * 192 + 1 * (y 0).val = (y 0).val; omega
    | ⟨1, _⟩ => show win4_3.index t (1 : Fin 2) * 64 + 1 * (y 1).val = (y 1).val; omega
  show X (((cfg4.win 3).blk t).view.emb y) = X y
  rw [h]

/-- The bias's block at any point is the whole bias. -/
theorem wblk4_4 (X : Vec Ideal S64 .f32) (t : Fin cfg4.N) :
    ((cfg4.win 4).blk t).view.read (Elt Ideal) X = X := by
  obtain ⟨-, -, -, -, -, -, -, -, e0, -⟩ := idx_facts4 t
  funext y
  have h : ((cfg4.win 4).blk t).view.emb y = y := by
    funext a; apply Fin.ext
    match a with
    | ⟨0, _⟩ => show win4_4.index t (0 : Fin 1) * 64 + 1 * (y 0).val = (y 0).val; omega
  show X (((cfg4.win 4).blk t).view.emb y) = X y
  rw [h]

/-- A row-wise function of the blocks at point `t` of three row-tiled arrays is the block at point `t` of the row-wise
    function of the arrays: row `p` of block `t` is row `t·8192 + p` of the array, column by column. -/
theorem blkrows4 (f : (Fin 64 → EReal) → (Fin 64 → EReal) → (Fin 64 → EReal) → Fin 64 → EReal)
    (X Y Z : Vec Ideal S524288x64 .f32) (t : Fin cfg4.N) :
    (cfg4.win 5).cut (grid4.coords t)
        (rows3 f (((cfg4.win 0).blk t).view.read (Elt Ideal) X) (((cfg4.win 1).blk t).view.read (Elt Ideal) Y)
          (((cfg4.win 2).blk t).view.read (Elt Ideal) Z))
      = ((cfg4.win 5).blk t).view.read (Elt Ideal) (rows3 f X Y Z) := by
  obtain ⟨e00, e01, e10, e11, e20, e21, -, -, -, e51, e5lt⟩ := idx_facts4 t
  funext y
  have hy0 : (y 0).val < 8192 := (y 0).isLt
  have hy1 : (y 1).val < 64 := (y 1).isLt
  have hP : win4_5.index t (0 : Fin 2) * 8192 + 1 * (y 0).val < 524288 := by omega
  have hemb : ((cfg4.win 5).blk t).view.emb y
      = ix2 (⟨win4_5.index t (0 : Fin 2) * 8192 + 1 * (y 0).val, hP⟩ : Fin 524288) (⟨(y 1).val, hy1⟩ : Fin 64) := by
    funext a; apply Fin.ext
    match a with
    | ⟨0, _⟩ => rfl
    | ⟨1, _⟩ => show win4_5.index t (1 : Fin 2) * 64 + 1 * (y 1).val = (y 1).val; omega
  have r0 : row (((cfg4.win 0).blk t).view.read (Elt Ideal) X) (⟨(y 0).val, hy0⟩ : Fin 8192)
      = row X ⟨win4_5.index t (0 : Fin 2) * 8192 + 1 * (y 0).val, hP⟩ := by
    funext k
    have h : ((cfg4.win 0).blk t).view.emb (ix2 (⟨(y 0).val, hy0⟩ : Fin 8192) k)
        = ix2 (⟨win4_5.index t (0 : Fin 2) * 8192 + 1 * (y 0).val, hP⟩ : Fin 524288) k := by
      funext a; apply Fin.ext
      match a with
      | ⟨0, _⟩ => show win4_0.index t (0 : Fin 2) * 8192 + 1 * (y 0).val = win4_5.index t (0 : Fin 2) * 8192 + 1 * (y 0).val; omega
      | ⟨1, _⟩ => show win4_0.index t (1 : Fin 2) * 64 + 1 * k.val = k.val; omega
    show X (((cfg4.win 0).blk t).view.emb (ix2 (⟨(y 0).val, hy0⟩ : Fin 8192) k)) = X (ix2 _ k)
    rw [h]
  have r1 : row (((cfg4.win 1).blk t).view.read (Elt Ideal) Y) (⟨(y 0).val, hy0⟩ : Fin 8192)
      = row Y ⟨win4_5.index t (0 : Fin 2) * 8192 + 1 * (y 0).val, hP⟩ := by
    funext k
    have h : ((cfg4.win 1).blk t).view.emb (ix2 (⟨(y 0).val, hy0⟩ : Fin 8192) k)
        = ix2 (⟨win4_5.index t (0 : Fin 2) * 8192 + 1 * (y 0).val, hP⟩ : Fin 524288) k := by
      funext a; apply Fin.ext
      match a with
      | ⟨0, _⟩ => show win4_1.index t (0 : Fin 2) * 8192 + 1 * (y 0).val = win4_5.index t (0 : Fin 2) * 8192 + 1 * (y 0).val; omega
      | ⟨1, _⟩ => show win4_1.index t (1 : Fin 2) * 64 + 1 * k.val = k.val; omega
    show Y (((cfg4.win 1).blk t).view.emb (ix2 (⟨(y 0).val, hy0⟩ : Fin 8192) k)) = Y (ix2 _ k)
    rw [h]
  have r2 : row (((cfg4.win 2).blk t).view.read (Elt Ideal) Z) (⟨(y 0).val, hy0⟩ : Fin 8192)
      = row Z ⟨win4_5.index t (0 : Fin 2) * 8192 + 1 * (y 0).val, hP⟩ := by
    funext k
    have h : ((cfg4.win 2).blk t).view.emb (ix2 (⟨(y 0).val, hy0⟩ : Fin 8192) k)
        = ix2 (⟨win4_5.index t (0 : Fin 2) * 8192 + 1 * (y 0).val, hP⟩ : Fin 524288) k := by
      funext a; apply Fin.ext
      match a with
      | ⟨0, _⟩ => show win4_2.index t (0 : Fin 2) * 8192 + 1 * (y 0).val = win4_5.index t (0 : Fin 2) * 8192 + 1 * (y 0).val; omega
      | ⟨1, _⟩ => show win4_2.index t (1 : Fin 2) * 64 + 1 * k.val = k.val; omega
    show Z (((cfg4.win 2).blk t).view.emb (ix2 (⟨(y 0).val, hy0⟩ : Fin 8192) k)) = Z (ix2 _ k)
    rw [h]
  show rows3 f _ _ _ (ix2 (⟨(y 0).val, hy0⟩ : Fin 8192) (⟨(y 1).val, hy1⟩ : Fin 64))
    = rows3 f X Y Z (((cfg4.win 5).blk t).view.emb y)
  rw [hemb, rows3_apply, rows3_apply, r0, r1, r2]

/-- What point `t` writes back is block `t` of the row-wise function of the whole arrays. -/
theorem flushed4_eq (c : Dev nD) (t : Fin cfg4.N) :
    (dat4 (F := Ideal) V c).flushed 5 t = ((cfg4.win 5).blk t).view.read (Elt Ideal)
      (rows3 (propR (V c main_arg15) (V c main_arg16)) (V c main_v18) (V c main_v31) (V c main_v38)) := by
  show (cfg4.win 5).cut (grid4.coords t) ((dat4 V c).after 5 t) = _
  rw [after4_5]
  unfold out4_5
  rw [View.canon_unit_zero hz2]
  simp only [View.ld_unit_zero (S := S8192x64) hz2, View.ld_unit_zero (S := S192x64) hz2,
    View.ld_unit_zero (S := S64) hz1]
  rw [Pay.pay4]
  have w3 : iblk4 V c 3 t = V c main_arg15 := wblk4_3 (V c main_arg15) t
  have w4 : iblk4 V c 4 t = V c main_arg16 := wblk4_4 (V c main_arg16) t
  rw [w3, w4]
  exact blkrows4 _ (V c main_v18) (V c main_v31) (V c main_v38) t

/-- An index of the output array is in point `t`'s block iff each coordinate is in the block's range on its axis. -/
theorem mem_blk4 (t : Fin cfg4.N) (i : S524288x64.Idx) :
    i ∈ ((cfg4.win 5).blk t).view.set ↔ ∀ a : Fin 2, win4_5.index t a * S8192x64.size a ≤ (i a).val
      ∧ (i a).val < win4_5.index t a * S8192x64.size a + S8192x64.size a := by
  show i ∈ ((View.whole main_v39).slice (win4_5.rect t)).set ↔ _
  rw [View.set_slice_whole, Rect.mem_set_unit]
  exact Iff.rfl

/-- Every index of the output array is in the block of the point whose block index is its row over 8192. -/
theorem cover4 (i : S524288x64.Idx) :
    ∃ t : Fin cfg4.N, (cfg4.win 5).flush t = true ∧ i ∈ ((cfg4.win 5).blk t).view.set := by
  have hi0 : (i 0).val < 524288 := (i 0).isLt
  have hi1 : (i 1).val < 64 := (i 1).isLt
  obtain ⟨t, ht⟩ := idx_onto4 ⟨(i 0).val / 8192, by omega⟩
  have q0 : win4_5.index t (0 : Fin 2) = (i 0).val / 8192 := congrFun ht 0
  have q1 : win4_5.index t (1 : Fin 2) = 0 := congrFun ht 1
  refine ⟨t, flush4_5 t, ?_⟩
  rw [mem_blk4]
  intro a
  match a with
  | ⟨0, _⟩ =>
    show win4_5.index t (0 : Fin 2) * 8192 ≤ (i 0).val ∧ (i 0).val < win4_5.index t (0 : Fin 2) * 8192 + 8192
    omega
  | ⟨1, _⟩ =>
    show win4_5.index t (1 : Fin 2) * 64 ≤ (i 1).val ∧ (i 1).val < win4_5.index t (1 : Fin 2) * 64 + 64
    omega

end R4

/-- The relation propagator's call. -/
theorem arr4 (c : Dev nD) :
    (dat4 (F := Ideal) V c).arrAt 5 cfg4.N
      = rows3 (propR (V c main_arg15) (V c main_arg16)) (V c main_v18) (V c main_v31) (V c main_v38) :=
  (dat4 (F := Ideal) V c).arrAt_eq_of_cover 5 _ (fun t _ => R4.flushed4_eq V c t) R4.cover4

end Cert.KernelIdeal.Region

end
-- ==== Proof.Region5.lean ====
/-
  ONE PALLAS CALL AS ONE FUNCTION OF WHOLE ARRAYS. The call's grid walks the rows of its row-tiled operands in blocks of
  8192 rows; the weights and biases are fetched whole at every point. Block t of the output is the kernel's row-wise
  function of blocks t of the row-tiled inputs, and a row-wise function of blocks is the block of the row-wise function of
  the whole arrays. The output's blocks tile its array, so after the call the array is that function of the arrays the
  call found.
-/
import proofs.«425260_j75557064671889_3_alg».proof.Proof.Gen.KernelIdeal.Frame
import proofs.«425260_j75557064671889_3_alg».proof.Proof.Pay

set_option maxRecDepth 16384

noncomputable section

namespace Cert.KernelIdeal.Region

open Idealize.ShloMosaic Idealize.ShloMosaic.TcCoe Idealize.ShloMosaic.ValueIdx Idealize.ShloMosaic.RowOps
open Idealize.SL.Sem
open Cert.KernelIdeal Cert.KernelIdeal.Gen Cert.Spec

variable (V : (c : Dev nD) → (b : Ref sig .tc) → Buf (Elt Ideal) ((c : Thread nD τ).loc b))

namespace R5

/-- The zero offsets of a rank-2 whole-shape rectangle, as a constant function. -/
theorem hz2 : (![0, 0] : Fin 2 → Nat) = fun _ => 0 :=
  funext fun a => match a with | ⟨0, _⟩ => rfl | ⟨1, _⟩ => rfl
/-- The zero offset of a rank-1 whole-shape rectangle, as a constant function. -/
theorem hz1 : (![0] : Fin 1 → Nat) = fun _ => 0 :=
  funext fun a => match a with | ⟨0, _⟩ => rfl

/-- The index maps over the grid: each row-tiled operand's block index is the output's on the row axis and 0 on the
    column axis; each weight's and each bias's is 0 on every axis; the output's row-block index is below 8. -/
theorem idx_facts5 : ∀ t : Fin cfg5.N,
    win5_0.index t (0 : Fin 2) = win5_10.index t (0 : Fin 2) ∧ win5_0.index t (1 : Fin 2) = 0
    ∧ win5_1.index t (0 : Fin 2) = win5_10.index t (0 : Fin 2) ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = 0 ∧ win5_4.index t (1 : Fin 2) = 0
    ∧ win5_5.index t (0 : Fin 1) = 0
    ∧ win5_6.index t (0 : Fin 2) = 0 ∧ win5_6.index t (1 : Fin 2) = 0
    ∧ win5_7.index t (0 : Fin 1) = 0
    ∧ win5_8.index t (0 : Fin 2) = 0 ∧ win5_8.index t (1 : Fin 2) = 0
    ∧ win5_9.index t (0 : Fin 1) = 0
    ∧ win5_10.index t (1 : Fin 2) = 0 ∧ win5_10.index t (0 : Fin 2) < 8 :=
  (by decide +kernel : ∀ t : Fin grid5.N, _)

/-- Every row block of the output is some point's. -/
theorem idx_onto5 : ∀ q : Fin 8, ∃ t : Fin cfg5.N, win5_10.index t = ![q.val, 0] :=
  (by decide +kernel : ∀ q : Fin 8, ∃ t : Fin grid5.N, win5_10.index t = ![q.val, 0])

/-- The propagator's weight is fetched whole: its block at any point is the whole matrix. -/
theorem wblk5_2 (X : Vec Ideal S128x64 .f32) (t : Fin cfg5.N) :
    ((cfg5.win 2).blk t).view.read (Elt Ideal) X = X := by
  obtain ⟨-, -, -, -, e0, e1, -⟩ := idx_facts5 t
  funext y
  have h : ((cfg5.win 2).blk t).view.emb y = y := by
    funext a; apply Fin.ext
    match a with
    | ⟨0, _⟩ => show win5_2.index t (0 : Fin 2) * 128 + 1 * (y 0).val = (y 0).val; omega
    | ⟨1, _⟩ => show win5_2.index t (1 : Fin 2) * 64 + 1 * (y 1).val = (y 1).val; omega
  show X (((cfg5.win 2).blk t).view.emb y) = X y
  rw [h]

/-- The propagator's bias is fetched whole. -/
theorem wblk5_3 (X : Vec Ideal S64 .f32) (t : Fin cfg5.N) :
    ((cfg5.win 3).blk t).view.read (Elt Ideal) X = X := by
  obtain ⟨-, -, -, -, -, -, e0, -⟩ := idx_facts5 t
  funext y
  have h : ((cfg5.win 3).blk t).view.emb y = y := by
    funext a; apply Fin.ext
    match a with
    | ⟨0, _⟩ => show win5_3.index t (0 : Fin 1) * 64 + 1 * (y 0).val = (y 0).val; omega
  show X (((cfg5.win 3).blk t).view.emb y) = X y
  rw [h]

/-- The predictor's first weight is fetched whole. -/
theorem wblk5_4 (X : Vec Ideal S64x64 .f32) (t : Fin cfg5.N) :
    ((cfg5.win 4).blk t).view.read (Elt Ideal) X = X := by
  obtain ⟨-, -, -, -, -, -, -, e0, e1, -⟩ := idx_facts5 t
  funext y
  have h : ((cfg5.win 4).blk t).view.emb y = y := by
    funext a; apply Fin.ext
    match a with
    | ⟨0, _⟩ => show win5_4.index t (0 : Fin 2) * 64 + 1 * (y 0).val = (y 0).val; omega
    | ⟨1, _⟩ => show win5_4.index t (1 : Fin 2) * 64 + 1 * (y 1).val = (y 1).val; omega
  show X (((cfg5.win 4).blk t).view.emb y) = X y
  rw [h]

/-- The predictor's first bias is fetched whole. -/
theorem wblk5_5 (X : Vec Ideal S64 .f32) (t : Fin cfg5.N) :
    ((cfg5.win 5).blk t).view.read (Elt Ideal) X = X := by
  obtain ⟨-, -, -, -, -, -, -, -, -, e0, -⟩ := idx_facts5 t
  funext y
  have h : ((cfg5.win 5).blk t).view.emb y = y := by
    funext a; apply Fin.ext
    match a with
    | ⟨0, _⟩ => show win5_5.index t (0 : Fin 1) * 64 + 1 * (y 0).val = (y 0).val; omega
  show X (((cfg5.win 5).blk t).view.emb y) = X y
  rw [h]

/-- The predictor's second weight is fetched whole. -/
theorem wblk5_6 (X : Vec Ideal S64x64 .f32) (t : Fin cfg5.N) :
    ((cfg5.win 6).blk t).view.read (Elt Ideal) X = X := by
  obtain ⟨-, -, -, -, -, -, -, -, -, -, e0, e1, -⟩ := idx_facts5 t
  funext y
  have h : ((cfg5.win 6).blk t).view.emb y = y := by
    funext a; apply Fin.ext
    match a with
    | ⟨0, _⟩ => show win5_6.index t (0 : Fin 2) * 64 + 1 * (y 0).val = (y 0).val; omega
    | ⟨1, _⟩ => show win5_6.index t (1 : Fin 2) * 64 + 1 * (y 1).val = (y 1).val; omega
  show X (((cfg5.win 6).blk t).view.emb y) = X y
  rw [h]

/-- The predictor's second bias is fetched whole. -/
theorem wblk5_7 (X : Vec Ideal S64 .f32) (t : Fin cfg5.N) :
    ((cfg5.win 7).blk t).view.read (Elt Ideal) X = X := by
  obtain ⟨-, -, -, -, -, -, -, -, -, -, -, -, e0, -⟩ := idx_facts5 t
  funext y
  have h : ((cfg5.win 7).blk t).view.emb y = y := by
    funext a; apply Fin.ext
    match a with
    | ⟨0, _⟩ => show win5_7.index t (0 : Fin 1) * 64 + 1 * (y 0).val = (y 0).val; omega
  show X (((cfg5.win 7).blk t).view.emb y) = X y
  rw [h]

/-- The predictor's last weight is fetched whole. -/
theorem wblk5_8 (X : Vec Ideal S64x3 .f32) (t : Fin cfg5.N) :
    ((cfg5.win 8).blk t).view.read (Elt Ideal) X = X := by
  obtain ⟨-, -, -, -, -, -, -, -, -, -, -, -, -, e0, e1, -⟩ := idx_facts5 t
  funext y
  have h : ((cfg5.win 8).blk t).view.emb y = y := by
    funext a; apply Fin.ext
    match a with
    | ⟨0, _⟩ => show win5_8.index t (0 : Fin 2) * 64 + 1 * (y 0).val = (y 0).val; omega
    | ⟨1, _⟩ => show win5_8.index t (1 : Fin 2) * 3 + 1 * (y 1).val = (y 1).val; omega
  show X (((cfg5.win 8).blk t).view.emb y) = X y
  rw [h]

/-- The predictor's last bias is fetched whole. -/
theorem wblk5_9 (X : Vec Ideal S3 .f32) (t : Fin cfg5.N) :
    ((cfg5.win 9).blk t).view.read (Elt Ideal) X = X := by
  obtain ⟨-, -, -, -, -, -, -, -, -, -, -, -, -, -, -, e0, -⟩ := idx_facts5 t
  funext y
  have h : ((cfg5.win 9).blk t).view.emb y = y := by
    funext a; apply Fin.ext
    match a with
    | ⟨0, _⟩ => show win5_9.index t (0 : Fin 1) * 3 + 1 * (y 0).val = (y 0).val; omega
  show X (((cfg5.win 9).blk t).view.emb y) = X y
  rw [h]

/-- A row-wise function of the blocks at point `t` of the particles' and the aggregates' arrays is the block at point `t`
    of the row-wise function of the arrays: row `p` of block `t` is row `t·8192 + p` of the array, column by column. -/
theorem blkrows5 (f : (Fin 64 → EReal) → (Fin 64 → EReal) → Fin 3 → EReal)
    (X Y : Vec Ideal S65536x64 .f32) (t : Fin cfg5.N) :
    (cfg5.win 10).cut (grid5.coords t)
        (rows2 f (((cfg5.win 0).blk t).view.read (Elt Ideal) X) (((cfg5.win 1).blk t).view.read (Elt Ideal) Y))
      = ((cfg5.win 10).blk t).view.read (Elt Ideal) (rows2 f X Y) := by
  obtain ⟨e00, e01, e10, e11, -, -, -, -, -, -, -, -, -, -, -, -, eo1, eolt⟩ := idx_facts5 t
  funext y
  have hy0 : (y 0).val < 8192 := (y 0).isLt
  have hy1 : (y 1).val < 3 := (y 1).isLt
  have hP : win5_10.index t (0 : Fin 2) * 8192 + 1 * (y 0).val < 65536 := by omega
  have hemb : ((cfg5.win 10).blk t).view.emb y
      = ix2 (⟨win5_10.index t (0 : Fin 2) * 8192 + 1 * (y 0).val, hP⟩ : Fin 65536) (⟨(y 1).val, hy1⟩ : Fin 3) := by
    funext a; apply Fin.ext
    match a with
    | ⟨0, _⟩ => rfl
    | ⟨1, _⟩ => show win5_10.index t (1 : Fin 2) * 3 + 1 * (y 1).val = (y 1).val; omega
  have r0 : row (((cfg5.win 0).blk t).view.read (Elt Ideal) X) (⟨(y 0).val, hy0⟩ : Fin 8192)
      = row X ⟨win5_10.index t (0 : Fin 2) * 8192 + 1 * (y 0).val, hP⟩ := by
    funext k
    have h : ((cfg5.win 0).blk t).view.emb (ix2 (⟨(y 0).val, hy0⟩ : Fin 8192) k)
        = ix2 (⟨win5_10.index t (0 : Fin 2) * 8192 + 1 * (y 0).val, hP⟩ : Fin 65536) k := by
      funext a; apply Fin.ext
      match a with
      | ⟨0, _⟩ =>
        show win5_0.index t (0 : Fin 2) * 8192 + 1 * (y 0).val = win5_10.index t (0 : Fin 2) * 8192 + 1 * (y 0).val
        omega
      | ⟨1, _⟩ => show win5_0.index t (1 : Fin 2) * 64 + 1 * k.val = k.val; omega
    show X (((cfg5.win 0).blk t).view.emb (ix2 (⟨(y 0).val, hy0⟩ : Fin 8192) k)) = X (ix2 _ k)
    rw [h]
  have r1 : row (((cfg5.win 1).blk t).view.read (Elt Ideal) Y) (⟨(y 0).val, hy0⟩ : Fin 8192)
      = row Y ⟨win5_10.index t (0 : Fin 2) * 8192 + 1 * (y 0).val, hP⟩ := by
    funext k
    have h : ((cfg5.win 1).blk t).view.emb (ix2 (⟨(y 0).val, hy0⟩ : Fin 8192) k)
        = ix2 (⟨win5_10.index t (0 : Fin 2) * 8192 + 1 * (y 0).val, hP⟩ : Fin 65536) k := by
      funext a; apply Fin.ext
      match a with
      | ⟨0, _⟩ =>
        show win5_1.index t (0 : Fin 2) * 8192 + 1 * (y 0).val = win5_10.index t (0 : Fin 2) * 8192 + 1 * (y 0).val
        omega
      | ⟨1, _⟩ => show win5_1.index t (1 : Fin 2) * 64 + 1 * k.val = k.val; omega
    show Y (((cfg5.win 1).blk t).view.emb (ix2 (⟨(y 0).val, hy0⟩ : Fin 8192) k)) = Y (ix2 _ k)
    rw [h]
  show rows2 f _ _ (ix2 (⟨(y 0).val, hy0⟩ : Fin 8192) (⟨(y 1).val, hy1⟩ : Fin 3))
    = rows2 f X Y (((cfg5.win 10).blk t).view.emb y)
  rw [hemb, rows2_apply, rows2_apply, r0, r1]

/-- What point `t` writes back is block `t` of the row-wise function of the whole arrays. -/
theorem flushed5_eq (c : Dev nD) (t : Fin cfg5.N) :
    (dat5 (F := Ideal) V c).flushed 10 t = ((cfg5.win 10).blk t).view.read (Elt Ideal)
      (rows2 (predP (V c main_arg17) (V c main_arg18) (V c main_arg19) (V c main_arg20) (V c main_arg21) (V c main_arg22)
          (V c main_arg23) (V c main_arg24)) (V c main_v3) (V c main_v42)) := by
  show (cfg5.win 10).cut (grid5.coords t) ((dat5 V c).after 10 t) = _
  rw [after5_10]
  unfold out5_10
  rw [View.canon_unit_zero hz2]
  simp only [View.ld_unit_zero (S := S8192x64) hz2, View.ld_unit_zero (S := S128x64) hz2,
    View.ld_unit_zero (S := S64x64) hz2, View.ld_unit_zero (S := S64x3) hz2, View.ld_unit_zero (S := S64) hz1,
    View.ld_unit_zero (S := S3) hz1]
  rw [Pay.pay5]
  have w2 : iblk5 V c 2 t = V c main_arg17 := wblk5_2 (V c main_arg17) t
  have w3 : iblk5 V c 3 t = V c main_arg18 := wblk5_3 (V c main_arg18) t
  have w4 : iblk5 V c 4 t = V c main_arg19 := wblk5_4 (V c main_arg19) t
  have w5 : iblk5 V c 5 t = V c main_arg20 := wblk5_5 (V c main_arg20) t
  have w6 : iblk5 V c 6 t = V c main_arg21 := wblk5_6 (V c main_arg21) t
  have w7 : iblk5 V c 7 t = V c main_arg22 := wblk5_7 (V c main_arg22) t
  have w8 : iblk5 V c 8 t = V c main_arg23 := wblk5_8 (V c main_arg23) t
  have w9 : iblk5 V c 9 t = V c main_arg24 := wblk5_9 (V c main_arg24) t
  rw [w2, w3, w4, w5, w6, w7, w8, w9]
  exact blkrows5 _ (V c main_v3) (V c main_v42) t

/-- An index of the output array is in point `t`'s block iff each coordinate is in the block's range on its axis. -/
theorem mem_blk5 (t : Fin cfg5.N) (i : S65536x3.Idx) :
    i ∈ ((cfg5.win 10).blk t).view.set ↔ ∀ a : Fin 2, win5_10.index t a * S8192x3.size a ≤ (i a).val
      ∧ (i a).val < win5_10.index t a * S8192x3.size a + S8192x3.size a := by
  show i ∈ ((View.whole main_v43).slice (win5_10.rect t)).set ↔ _
  rw [View.set_slice_whole, Rect.mem_set_unit]
  exact Iff.rfl

/-- Every index of the output array is in the block of the point whose block index is its row over 8192. -/
theorem cover5 (i : S65536x3.Idx) :
    ∃ t : Fin cfg5.N, (cfg5.win 10).flush t = true ∧ i ∈ ((cfg5.win 10).blk t).view.set := by
  have hi0 : (i 0).val < 65536 := (i 0).isLt
  have hi1 : (i 1).val < 3 := (i 1).isLt
  obtain ⟨t, ht⟩ := idx_onto5 ⟨(i 0).val / 8192, by omega⟩
  have q0 : win5_10.index t (0 : Fin 2) = (i 0).val / 8192 := congrFun ht 0
  have q1 : win5_10.index t (1 : Fin 2) = 0 := congrFun ht 1
  refine ⟨t, flush5_10 t, ?_⟩
  rw [mem_blk5]
  intro a
  match a with
  | ⟨0, _⟩ =>
    show win5_10.index t (0 : Fin 2) * 8192 ≤ (i 0).val ∧ (i 0).val < win5_10.index t (0 : Fin 2) * 8192 + 8192
    omega
  | ⟨1, _⟩ =>
    show win5_10.index t (1 : Fin 2) * 3 ≤ (i 1).val ∧ (i 1).val < win5_10.index t (1 : Fin 2) * 3 + 3
    omega

end R5

/-- The fused last propagation and predictor's call. -/
theorem arr5 (c : Dev nD) :
    (dat5 (F := Ideal) V c).arrAt 10 cfg5.N
      = rows2 (predP (V c main_arg17) (V c main_arg18) (V c main_arg19) (V c main_arg20) (V c main_arg21) (V c main_arg22)
          (V c main_arg23) (V c main_arg24)) (V c main_v3) (V c main_v42) :=
  (dat5 (F := Ideal) V c).arrAt_eq_of_cover 10 _ (fun t _ => R5.flushed5_eq V c t) R5.cover5

end Cert.KernelIdeal.Region

end
-- ==== Proof.Region.lean ====
/-
  The six pallas calls, each as one function of the whole arrays it finds.
-/
import proofs.«425260_j75557064671889_3_alg».proof.Proof.Region0
import proofs.«425260_j75557064671889_3_alg».proof.Proof.Region1
import proofs.«425260_j75557064671889_3_alg».proof.Proof.Region2
import proofs.«425260_j75557064671889_3_alg».proof.Proof.Region3
import proofs.«425260_j75557064671889_3_alg».proof.Proof.Region4
import proofs.«425260_j75557064671889_3_alg».proof.Proof.Region5
-- ==== Proof.ThreadDefs.lean ====
/-
  The kernel program's parameters of the network, read off a launch memory: the argument arrays, the block of six zeros,
  each relation's receiver and sender row, and the sum over incoming relations.
-/
import proofs.«425260_j75557064671889_3_alg».proof.Proof.Gen.KernelIdeal.Frame
import proofs.«425260_j75557064671889_3_alg».proof.Proof.Spec

set_option maxRecDepth 16384

noncomputable section

namespace Cert.KernelIdeal.Thread

open Idealize.ShloMosaic Idealize.ShloMosaic.TcCoe Idealize.ShloMosaic.ValueIdx Idealize.ShloMosaic.RowOps
open Idealize.SL.Sem
open Cert.KernelIdeal Cert.KernelIdeal.Gen Cert.Spec

/-- The argument arrays of a launch memory, as the network's parameters. -/
def params (m : (ℓ : Loc nD τ sig) → Buf (Elt Ideal) ℓ) (c : Dev nD) : Cert.Spec.Params where
  attr := m ((c.tc : Thread nD τ).loc main_arg0)
  state := m ((c.tc : Thread nD τ).loc main_arg1)
  ra := m ((c.tc : Thread nD τ).loc main_arg2)
  pe_w0 := m ((c.tc : Thread nD τ).loc main_arg5)
  pe_b0 := m ((c.tc : Thread nD τ).loc main_arg6)
  pe_w1 := m ((c.tc : Thread nD τ).loc main_arg7)
  pe_b1 := m ((c.tc : Thread nD τ).loc main_arg8)
  re_w0 := m ((c.tc : Thread nD τ).loc main_arg9)
  re_b0 := m ((c.tc : Thread nD τ).loc main_arg10)
  re_w1 := m ((c.tc : Thread nD τ).loc main_arg11)
  re_b1 := m ((c.tc : Thread nD τ).loc main_arg12)
  re_w2 := m ((c.tc : Thread nD τ).loc main_arg13)
  re_b2 := m ((c.tc : Thread nD τ).loc main_arg14)
  rp_w := m ((c.tc : Thread nD τ).loc main_arg15)
  rp_b := m ((c.tc : Thread nD τ).loc main_arg16)
  pp_w := m ((c.tc : Thread nD τ).loc main_arg17)
  pp_b := m ((c.tc : Thread nD τ).loc main_arg18)
  fp_w0 := m ((c.tc : Thread nD τ).loc main_arg19)
  fp_b0 := m ((c.tc : Thread nD τ).loc main_arg20)
  fp_w1 := m ((c.tc : Thread nD τ).loc main_arg21)
  fp_b1 := m ((c.tc : Thread nD τ).loc main_arg22)
  fp_w2 := m ((c.tc : Thread nD τ).loc main_arg23)
  fp_b2 := m ((c.tc : Thread nD τ).loc main_arg24)

variable (m : (ℓ : Loc nD τ sig) → Buf (Elt Ideal) ℓ)

/-- The block of six zeros the features are padded with. -/
def z6 : Mat 65536 6 := zeros S65536x6 bcast_S_S65536x6
/-- Each relation's receiver row. -/
def σR (c : Dev nD) : Fin 524288 → Fin 65536 := rowOf bcast_S_S524288 bcast_S524288_S524288x1_0 (m ((c.tc : Thread nD τ).loc main_arg3))
/-- Each relation's sender row. -/
def σS (c : Dev nD) : Fin 524288 → Fin 65536 := rowOf bcast_S_S524288 bcast_S524288_S524288x1_0 (m ((c.tc : Thread nD τ).loc main_arg4))
/-- The sum over each particle's incoming relations. -/
def sc (c : Dev nD) : Mat 524288 64 → Mat 65536 64 :=
  scatSum scatter_S65536x64_S524288x1_S524288x64_1_0_0_1 bcast_S_S65536x64 bcast_S524288_S524288x1_0 (m ((c.tc : Thread nD τ).loc main_arg3))

end Cert.KernelIdeal.Thread

end
-- ==== Proof.Thread1.lean ====
/-
  THE FIRST HALF OF THE KERNEL PROGRAM, read backwards from the boundary after its third pallas call: the particle
  encoding, the relation encoding and the first propagation are the network's functions of the argument arrays, and the
  arguments the second half reads are still what was launched. A buffer a segment does not write keeps its contents; a
  call's output array is the call's row-wise function of the arrays it found; a host stretch's results are its operations
  applied to what it found.
-/
import proofs.«425260_j75557064671889_3_alg».proof.Proof.Gen.KernelIdeal.Frame
import proofs.«425260_j75557064671889_3_alg».proof.Proof.Region
import proofs.«425260_j75557064671889_3_alg».proof.Proof.ThreadDefs

set_option maxRecDepth 16384

noncomputable section

namespace Cert.KernelIdeal.Thread

open Idealize.ShloMosaic Idealize.ShloMosaic.TcCoe Idealize.ShloMosaic.ValueIdx Idealize.ShloMosaic.RowOps
open Idealize.SL.Sem
open Cert.KernelIdeal Cert.KernelIdeal.Gen Cert.Spec

variable (m : (ℓ : Loc nD τ sig) → Buf (Elt Ideal) ℓ) (ρ : Dev nD → PrngReg)

/-! ## What a segment leaves alone

A host stretch writes its operations' result buffers and nothing else; a pallas call writes its output array and
leaves every buffer that is none of its windows' arrays. -/

/-- A buffer the first host stretch does not write keeps its contents. -/
theorem w1_keep (c : Dev nD) (b : Ref sig .tc) (hb : ∀ y ∈ [main_cst, main_v0, main_v1, main_v2], b ≠ y) :
    W1 (F := Ideal) m ρ c (Proc.devRef .tc b) = W0 (F := Ideal) m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- A buffer the second host stretch does not write keeps its contents. -/
theorem w3_keep (c : Dev nD) (b : Ref sig .tc)
    (hb : ∀ y ∈ [main_c, main_v4, main_v5, main_c_0, main_v6, main_v7, main_v8, main_v9, main_v10, main_c_1, main_v11,
      main_v12, main_c_2, main_v13, main_v14, main_v15, main_v16, main_v17], b ≠ y) :
    W3 (F := Ideal) m ρ c (Proc.devRef .tc b) = W2 (F := Ideal) m ρ c (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- A buffer the third host stretch does not write keeps its contents. -/
theorem w5_keep (c : Dev nD) (b : Ref sig .tc) (hb : ∀ y ∈ [main_v19], b ≠ y) :
    W5 (F := Ideal) m ρ c (Proc.devRef .tc b) = W4 (F := Ideal) m ρ c (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by decide))))

/-- A buffer neither the first host stretch nor the particle encoder's call touches is as launched after both. -/
theorem w2_free (c : Dev nD) (b : Ref sig .tc) (hb : ∀ y ∈ [main_cst, main_v0, main_v1, main_v2], b ≠ y)
    (hr : ∀ w, Pipeline.arrRef spec0 w ≠ b) :
    W2 (F := Ideal) m ρ c (Proc.devRef .tc b) = m ((c.tc : Thread nD τ).loc b) :=
  (W2_of_ne m ρ c b hr).trans ((w1_keep m ρ c b hb).trans rfl)

/-- A buffer neither the second host stretch nor the relation encoder's call touches passes both. -/
theorem w4_free (c : Dev nD) (b : Ref sig .tc)
    (hb : ∀ y ∈ [main_c, main_v4, main_v5, main_c_0, main_v6, main_v7, main_v8, main_v9, main_v10, main_c_1, main_v11,
      main_v12, main_c_2, main_v13, main_v14, main_v15, main_v16, main_v17], b ≠ y)
    (hr : ∀ w, Pipeline.arrRef spec1 w ≠ b) :
    W4 (F := Ideal) m ρ c (Proc.devRef .tc b) = W2 (F := Ideal) m ρ c (Proc.devRef .tc b) :=
  (W4_of_ne m ρ c b hr).trans (w3_keep m ρ c b hb)

/-- A buffer neither the third host stretch nor the first propagation's call touches passes both. -/
theorem w6_free (c : Dev nD) (b : Ref sig .tc) (hb : ∀ y ∈ [main_v19], b ≠ y)
    (hr : ∀ w, Pipeline.arrRef spec2 w ≠ b) :
    W6 (F := Ideal) m ρ c (Proc.devRef .tc b) = W4 (F := Ideal) m ρ c (Proc.devRef .tc b) :=
  (W6_of_ne m ρ c b hr).trans (w5_keep m ρ c b hb)

/-- A buffer none of the first three segments' host stretches or calls touches is as launched at the boundary. -/
theorem w6_launch (c : Dev nD) (b : Ref sig .tc) (h0 : ∀ y ∈ [main_cst, main_v0, main_v1, main_v2], b ≠ y)
    (r0 : ∀ w, Pipeline.arrRef spec0 w ≠ b)
    (h1 : ∀ y ∈ [main_c, main_v4, main_v5, main_c_0, main_v6, main_v7, main_v8, main_v9, main_v10, main_c_1, main_v11,
      main_v12, main_c_2, main_v13, main_v14, main_v15, main_v16, main_v17], b ≠ y)
    (r1 : ∀ w, Pipeline.arrRef spec1 w ≠ b) (h2 : ∀ y ∈ [main_v19], b ≠ y) (r2 : ∀ w, Pipeline.arrRef spec2 w ≠ b) :
    W6 (F := Ideal) m ρ c (Proc.devRef .tc b) = m ((c.tc : Thread nD τ).loc b) :=
  (w6_free m ρ c b h2 r2).trans ((w4_free m ρ c b h1 r1).trans (w2_free m ρ c b h0 r0))

/-! ## The arguments the calls of this half read, where they read them -/

theorem w1_arg5 (c : Dev nD) : W1 (F := Ideal) m ρ c (Proc.devRef .tc main_arg5) = m ((c.tc : Thread nD τ).loc main_arg5) :=
  (w1_keep m ρ c main_arg5 (by decide)).trans rfl
theorem w1_arg6 (c : Dev nD) : W1 (F := Ideal) m ρ c (Proc.devRef .tc main_arg6) = m ((c.tc : Thread nD τ).loc main_arg6) :=
  (w1_keep m ρ c main_arg6 (by decide)).trans rfl
theorem w1_arg7 (c : Dev nD) : W1 (F := Ideal) m ρ c (Proc.devRef .tc main_arg7) = m ((c.tc : Thread nD τ).loc main_arg7) :=
  (w1_keep m ρ c main_arg7 (by decide)).trans rfl
theorem w1_arg8 (c : Dev nD) : W1 (F := Ideal) m ρ c (Proc.devRef .tc main_arg8) = m ((c.tc : Thread nD τ).loc main_arg8) :=
  (w1_keep m ρ c main_arg8 (by decide)).trans rfl

theorem w2_arg3 (c : Dev nD) : W2 (F := Ideal) m ρ c (Proc.devRef .tc main_arg3) = m ((c.tc : Thread nD τ).loc main_arg3) :=
  w2_free m ρ c main_arg3 (by decide) (by decide)
theorem w2_arg4 (c : Dev nD) : W2 (F := Ideal) m ρ c (Proc.devRef .tc main_arg4) = m ((c.tc : Thread nD τ).loc main_arg4) :=
  w2_free m ρ c main_arg4 (by decide) (by decide)
theorem w3_arg2 (c : Dev nD) : W3 (F := Ideal) m ρ c (Proc.devRef .tc main_arg2) = m ((c.tc : Thread nD τ).loc main_arg2) :=
  (w3_keep m ρ c main_arg2 (by decide)).trans (w2_free m ρ c main_arg2 (by decide) (by decide))
theorem w3_arg9 (c : Dev nD) : W3 (F := Ideal) m ρ c (Proc.devRef .tc main_arg9) = m ((c.tc : Thread nD τ).loc main_arg9) :=
  (w3_keep m ρ c main_arg9 (by decide)).trans (w2_free m ρ c main_arg9 (by decide) (by decide))
theorem w3_arg10 (c : Dev nD) : W3 (F := Ideal) m ρ c (Proc.devRef .tc main_arg10) = m ((c.tc : Thread nD τ).loc main_arg10) :=
  (w3_keep m ρ c main_arg10 (by decide)).trans (w2_free m ρ c main_arg10 (by decide) (by decide))
theorem w3_arg11 (c : Dev nD) : W3 (F := Ideal) m ρ c (Proc.devRef .tc main_arg11) = m ((c.tc : Thread nD τ).loc main_arg11) :=
  (w3_keep m ρ c main_arg11 (by decide)).trans (w2_free m ρ c main_arg11 (by decide) (by decide))
theorem w3_arg12 (c : Dev nD) : W3 (F := Ideal) m ρ c (Proc.devRef .tc main_arg12) = m ((c.tc : Thread nD τ).loc main_arg12) :=
  (w3_keep m ρ c main_arg12 (by decide)).trans (w2_free m ρ c main_arg12 (by decide) (by decide))
theorem w3_arg13 (c : Dev nD) : W3 (F := Ideal) m ρ c (Proc.devRef .tc main_arg13) = m ((c.tc : Thread nD τ).loc main_arg13) :=
  (w3_keep m ρ c main_arg13 (by decide)).trans (w2_free m ρ c main_arg13 (by decide) (by decide))
theorem w3_arg14 (c : Dev nD) : W3 (F := Ideal) m ρ c (Proc.devRef .tc main_arg14) = m ((c.tc : Thread nD τ).loc main_arg14) :=
  (w3_keep m ρ c main_arg14 (by decide)).trans (w2_free m ρ c main_arg14 (by decide) (by decide))

theorem w4_arg15 (c : Dev nD) : W4 (F := Ideal) m ρ c (Proc.devRef .tc main_arg15) = m ((c.tc : Thread nD τ).loc main_arg15) :=
  (w4_free m ρ c main_arg15 (by decide) (by decide)).trans (w2_free m ρ c main_arg15 (by decide) (by decide))
theorem w5_arg16 (c : Dev nD) : W5 (F := Ideal) m ρ c (Proc.devRef .tc main_arg16) = m ((c.tc : Thread nD τ).loc main_arg16) :=
  (w5_keep m ρ c main_arg16 (by decide)).trans
    ((w4_free m ρ c main_arg16 (by decide) (by decide)).trans (w2_free m ρ c main_arg16 (by decide) (by decide)))

/-! ## The particles' features: attributes, six zeros, state -/

/-- The first host stretch puts the attributes, the six zeros and the state side by side. -/
theorem w1_v2 (c : Dev nD) : W1 (F := Ideal) m ρ c (Proc.devRef .tc main_v2) = nodeFeats (params m c) z6 := by
  show StableHlo.after hostOps0 (W0 (F := Ideal) m ρ c) (Proc.devRef .tc main_v2) = _
  after_results
  -- each concatenation along the column axis puts rows side by side
  refine (concat2_rows _ _ _).trans ?_
  rw [concat2_rows]
  rfl

/-- The particle encoder's call reads the features through an input window and leaves them. -/
theorem w2_v2 (c : Dev nD) : W2 (F := Ideal) m ρ c (Proc.devRef .tc main_v2) = nodeFeats (params m c) z6 :=
  (W2_arr m ρ c 0).trans
    (((dat0 (V1 m ρ) c).arrAt_in 0 rfl _).trans ((A_eq0 (V1 m ρ) c 0).trans (w1_v2 m ρ c)))

/-! ## The particle encoding -/

/-- The particle encoder's call leaves the encoder's function of the features and of its weights. -/
theorem w2_v3 (c : Dev nD) : W2 (F := Ideal) m ρ c (Proc.devRef .tc main_v3) = particleEnc (params m c) z6 := by
  refine (W2_arr m ρ c 5).trans ((Region.arr0 (V1 m ρ) c).trans ?_)
  show rows1 (encP (W1 (F := Ideal) m ρ c (Proc.devRef .tc main_arg5)) (W1 (F := Ideal) m ρ c (Proc.devRef .tc main_arg6))
      (W1 (F := Ideal) m ρ c (Proc.devRef .tc main_arg7)) (W1 (F := Ideal) m ρ c (Proc.devRef .tc main_arg8)))
      (W1 (F := Ideal) m ρ c (Proc.devRef .tc main_v2)) = _
  rw [w1_arg5, w1_arg6, w1_arg7, w1_arg8, w1_v2]
  rfl

/-- After the first propagation's call the particle encoding is in its buffer: nothing after the encoder's call up to
    that boundary writes it. -/
theorem w6_v3 (c : Dev nD) : W6 (F := Ideal) m ρ c (Proc.devRef .tc main_v3) = particleEnc (params m c) (z6) :=
  (w6_free m ρ c main_v3 (by decide) (by decide)).trans
    ((w4_free m ρ c main_v3 (by decide) (by decide)).trans (w2_v3 m ρ c))

/-! ## The features' rows at each relation's receiver and sender -/

/-- The second host stretch gathers the features' rows at the receivers: a negative index counted from the end, the
    vector made a column, and the gather of whole rows at that column. -/
theorem w3_v10 (c : Dev nD) :
    W3 (F := Ideal) m ρ c (Proc.devRef .tc main_v10) = selRows (σR m c) (nodeFeats (params m c) z6) := by
  show StableHlo.after hostOps1 (W2 (F := Ideal) m ρ c) (Proc.devRef .tc main_v10) = _
  after_results
  rw [w2_arg3, w2_v2]
  exact gather_selRows (by decide) gather_S65536x21_S524288x1_S524288x21_1_0_n_n_0_1_121_wf _ _

/-- The second host stretch gathers the features' rows at the senders: a negative index counted from the end, the
    vector made a column, and the gather of whole rows at that column. -/
theorem w3_v17 (c : Dev nD) :
    W3 (F := Ideal) m ρ c (Proc.devRef .tc main_v17) = selRows (σS m c) (nodeFeats (params m c) z6) := by
  show StableHlo.after hostOps1 (W2 (F := Ideal) m ρ c) (Proc.devRef .tc main_v17) = _
  after_results
  rw [w2_arg4, w2_v2]
  exact gather_selRows (by decide) gather_S65536x21_S524288x1_S524288x21_1_0_n_n_0_1_121_wf _ _

/-! ## The relation encoding -/

/-- The relation encoder's call leaves the encoder's function of the gathered features, the relations' attribute and its
    weights. -/
theorem w4_v18 (c : Dev nD) :
    W4 (F := Ideal) m ρ c (Proc.devRef .tc main_v18) = relationEnc (params m c) z6 (σR m c) (σS m c) := by
  refine (W4_arr m ρ c 9).trans ((Region.arr1 (V3 m ρ) c).trans ?_)
  show rows3 (encR (W3 (F := Ideal) m ρ c (Proc.devRef .tc main_arg9)) (W3 (F := Ideal) m ρ c (Proc.devRef .tc main_arg10))
      (W3 (F := Ideal) m ρ c (Proc.devRef .tc main_arg11)) (W3 (F := Ideal) m ρ c (Proc.devRef .tc main_arg12))
      (W3 (F := Ideal) m ρ c (Proc.devRef .tc main_arg13)) (W3 (F := Ideal) m ρ c (Proc.devRef .tc main_arg14)))
      (W3 (F := Ideal) m ρ c (Proc.devRef .tc main_v10)) (W3 (F := Ideal) m ρ c (Proc.devRef .tc main_v17))
      (W3 (F := Ideal) m ρ c (Proc.devRef .tc main_arg2)) = _
  rw [w3_arg9, w3_arg10, w3_arg11, w3_arg12, w3_arg13, w3_arg14, w3_v10, w3_v17, w3_arg2]
  rfl

/-- The third host stretch does not write it. -/
theorem w5_v18 (c : Dev nD) :
    W5 (F := Ideal) m ρ c (Proc.devRef .tc main_v18) = relationEnc (params m c) z6 (σR m c) (σS m c) :=
  (w5_keep m ρ c main_v18 (by decide)).trans (w4_v18 m ρ c)

/-- … the relation encoding in its buffer: the first propagation's call reads it through an input window and leaves it. -/
theorem w6_v18 (c : Dev nD) :
    W6 (F := Ideal) m ρ c (Proc.devRef .tc main_v18) = relationEnc (params m c) z6 (σR m c) (σS m c) :=
  (W6_arr m ρ c 0).trans
    (((dat2 (V5 m ρ) c).arrAt_in 0 rfl _).trans ((A_eq2 (V5 m ρ) c 0).trans (w5_v18 m ρ c)))

/-! ## The first propagation -/

/-- The third host stretch cuts the first 64 rows out of the propagator matrix. -/
theorem w5_v19 (c : Dev nD) : W5 (F := Ideal) m ρ c (Proc.devRef .tc main_v19) = topRows (params m c).rp_w := by
  show StableHlo.after hostOps2 (W4 (F := Ideal) m ρ c) (Proc.devRef .tc main_v19) = _
  after_results
  rw [w4_arg15]
  -- a slice at offset zero keeps every entry's coordinates
  exact mat_ext fun p q => slice_top_apply (by decide) _ _ p q

/-- … and the first propagation's effects in theirs: the call leaves its layer's function of the relation encoding. -/
theorem w6_v20 (c : Dev nD) :
    W6 (F := Ideal) m ρ c (Proc.devRef .tc main_v20) = relEff0 (params m c) z6 (σR m c) (σS m c) := by
  refine (W6_arr m ρ c 3).trans ((Region.arr2 (V5 m ρ) c).trans ?_)
  show rows1 (prop0 (W5 (F := Ideal) m ρ c (Proc.devRef .tc main_v19)) (W5 (F := Ideal) m ρ c (Proc.devRef .tc main_arg16)))
      (W5 (F := Ideal) m ρ c (Proc.devRef .tc main_v18)) = _
  rw [w5_v19, w5_arg16, w5_v18]
  rfl

/-! The arguments the later segments read are as launched. -/
theorem w6_arg3 (c : Dev nD) : W6 (F := Ideal) m ρ c (Proc.devRef .tc main_arg3) = m ((c.tc : Thread nD τ).loc main_arg3) :=
  w6_launch m ρ c main_arg3 (by decide) (by decide) (by decide) (by decide) (by decide) (by decide)
theorem w6_arg4 (c : Dev nD) : W6 (F := Ideal) m ρ c (Proc.devRef .tc main_arg4) = m ((c.tc : Thread nD τ).loc main_arg4) :=
  w6_launch m ρ c main_arg4 (by decide) (by decide) (by decide) (by decide) (by decide) (by decide)
theorem w6_arg15 (c : Dev nD) : W6 (F := Ideal) m ρ c (Proc.devRef .tc main_arg15) = m ((c.tc : Thread nD τ).loc main_arg15) :=
  w6_launch m ρ c main_arg15 (by decide) (by decide) (by decide) (by decide) (by decide) (by decide)
theorem w6_arg16 (c : Dev nD) : W6 (F := Ideal) m ρ c (Proc.devRef .tc main_arg16) = m ((c.tc : Thread nD τ).loc main_arg16) :=
  (W6_arr m ρ c 2).trans
    (((dat2 (V5 m ρ) c).arrAt_in 2 rfl _).trans ((A_eq2 (V5 m ρ) c 2).trans (w5_arg16 m ρ c)))
theorem w6_arg17 (c : Dev nD) : W6 (F := Ideal) m ρ c (Proc.devRef .tc main_arg17) = m ((c.tc : Thread nD τ).loc main_arg17) :=
  w6_launch m ρ c main_arg17 (by decide) (by decide) (by decide) (by decide) (by decide) (by decide)
theorem w6_arg18 (c : Dev nD) : W6 (F := Ideal) m ρ c (Proc.devRef .tc main_arg18) = m ((c.tc : Thread nD τ).loc main_arg18) :=
  w6_launch m ρ c main_arg18 (by decide) (by decide) (by decide) (by decide) (by decide) (by decide)
theorem w6_arg19 (c : Dev nD) : W6 (F := Ideal) m ρ c (Proc.devRef .tc main_arg19) = m ((c.tc : Thread nD τ).loc main_arg19) :=
  w6_launch m ρ c main_arg19 (by decide) (by decide) (by decide) (by decide) (by decide) (by decide)
theorem w6_arg20 (c : Dev nD) : W6 (F := Ideal) m ρ c (Proc.devRef .tc main_arg20) = m ((c.tc : Thread nD τ).loc main_arg20) :=
  w6_launch m ρ c main_arg20 (by decide) (by decide) (by decide) (by decide) (by decide) (by decide)
theorem w6_arg21 (c : Dev nD) : W6 (F := Ideal) m ρ c (Proc.devRef .tc main_arg21) = m ((c.tc : Thread nD τ).loc main_arg21) :=
  w6_launch m ρ c main_arg21 (by decide) (by decide) (by decide) (by decide) (by decide) (by decide)
theorem w6_arg22 (c : Dev nD) : W6 (F := Ideal) m ρ c (Proc.devRef .tc main_arg22) = m ((c.tc : Thread nD τ).loc main_arg22) :=
  w6_launch m ρ c main_arg22 (by decide) (by decide) (by decide) (by decide) (by decide) (by decide)
theorem w6_arg23 (c : Dev nD) : W6 (F := Ideal) m ρ c (Proc.devRef .tc main_arg23) = m ((c.tc : Thread nD τ).loc main_arg23) :=
  w6_launch m ρ c main_arg23 (by decide) (by decide) (by decide) (by decide) (by decide) (by decide)
theorem w6_arg24 (c : Dev nD) : W6 (F := Ideal) m ρ c (Proc.devRef .tc main_arg24) = m ((c.tc : Thread nD τ).loc main_arg24) :=
  w6_launch m ρ c main_arg24 (by decide) (by decide) (by decide) (by decide) (by decide) (by decide)

end Cert.KernelIdeal.Thread

end
-- ==== Proof.Thread2.lean ====
/-
  THE SECOND HALF OF THE KERNEL PROGRAM, from the boundary after its third pallas call to the result: the sum of the first
  effects over incoming relations, the particle effects, their rows gathered at receivers and senders, the second
  propagation, its sum, and the fused last propagation and predictor.
-/
import proofs.«425260_j75557064671889_3_alg».proof.Proof.Gen.KernelIdeal.Frame
import proofs.«425260_j75557064671889_3_alg».proof.Proof.Region
import proofs.«425260_j75557064671889_3_alg».proof.Proof.ThreadDefs
import proofs.«425260_j75557064671889_3_alg».proof.Proof.Thread1

set_option maxRecDepth 16384

noncomputable section

namespace Cert.KernelIdeal.Thread

open Idealize.ShloMosaic Idealize.ShloMosaic.TcCoe Idealize.ShloMosaic.ValueIdx Idealize.ShloMosaic.RowOps
open Idealize.SL.Sem
open Cert.KernelIdeal Cert.KernelIdeal.Gen Cert.Spec

variable (m : (ℓ : Loc nD τ sig) → Buf (Elt Ideal) ℓ) (ρ : Dev nD → PrngReg)

/-- A host stretch keeps every buffer none of its operations writes. -/
macro "host_keep " h:ident : tactic =>
  `(tactic| exact StableHlo.after_of_forall_not_mem _ _ (List.forall_iff_forall_mem.mp (by
      simp only [$h:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What the later segments read is still what the first half left -/

/-- The receivers' index vector is as launched at each boundary where a host stretch reads it. -/
theorem w7_arg3 (c : Dev nD) : W7 (F := Ideal) m ρ c (Proc.devRef .tc main_arg3) = m ((c.tc : Thread nD τ).loc main_arg3) :=
  calc W7 (F := Ideal) m ρ c (Proc.devRef .tc main_arg3)
    _ = W6 (F := Ideal) m ρ c (Proc.devRef .tc main_arg3) := by host_keep hostOps3
    _ = m ((c.tc : Thread nD τ).loc main_arg3) := w6_arg3 m ρ c

theorem w8_arg3 (c : Dev nD) : W8 (F := Ideal) m ρ c (Proc.devRef .tc main_arg3) = m ((c.tc : Thread nD τ).loc main_arg3) :=
  calc W8 (F := Ideal) m ρ c (Proc.devRef .tc main_arg3)
    _ = W7 (F := Ideal) m ρ c (Proc.devRef .tc main_arg3) := W8_of_ne m ρ c main_arg3 (by decide)
    _ = m ((c.tc : Thread nD τ).loc main_arg3) := w7_arg3 m ρ c

theorem w10_arg3 (c : Dev nD) : W10 (F := Ideal) m ρ c (Proc.devRef .tc main_arg3) = m ((c.tc : Thread nD τ).loc main_arg3) :=
  calc W10 (F := Ideal) m ρ c (Proc.devRef .tc main_arg3)
    _ = W9 (F := Ideal) m ρ c (Proc.devRef .tc main_arg3) := W10_of_ne m ρ c main_arg3 (by decide)
    _ = W8 (F := Ideal) m ρ c (Proc.devRef .tc main_arg3) := by host_keep hostOps4
    _ = m ((c.tc : Thread nD τ).loc main_arg3) := w8_arg3 m ρ c

/-- The senders' index vector. -/
theorem w8_arg4 (c : Dev nD) : W8 (F := Ideal) m ρ c (Proc.devRef .tc main_arg4) = m ((c.tc : Thread nD τ).loc main_arg4) :=
  calc W8 (F := Ideal) m ρ c (Proc.devRef .tc main_arg4)
    _ = W7 (F := Ideal) m ρ c (Proc.devRef .tc main_arg4) := W8_of_ne m ρ c main_arg4 (by decide)
    _ = W6 (F := Ideal) m ρ c (Proc.devRef .tc main_arg4) := by host_keep hostOps3
    _ = m ((c.tc : Thread nD τ).loc main_arg4) := w6_arg4 m ρ c

/-- The relation propagator's weights and bias at its second call. -/
theorem w9_arg15 (c : Dev nD) : W9 (F := Ideal) m ρ c (Proc.devRef .tc main_arg15) = m ((c.tc : Thread nD τ).loc main_arg15) :=
  calc W9 (F := Ideal) m ρ c (Proc.devRef .tc main_arg15)
    _ = W8 (F := Ideal) m ρ c (Proc.devRef .tc main_arg15) := by host_keep hostOps4
    _ = W7 (F := Ideal) m ρ c (Proc.devRef .tc main_arg15) := W8_of_ne m ρ c main_arg15 (by decide)
    _ = W6 (F := Ideal) m ρ c (Proc.devRef .tc main_arg15) := by host_keep hostOps3
    _ = m ((c.tc : Thread nD τ).loc main_arg15) := w6_arg15 m ρ c

theorem w9_arg16 (c : Dev nD) : W9 (F := Ideal) m ρ c (Proc.devRef .tc main_arg16) = m ((c.tc : Thread nD τ).loc main_arg16) :=
  calc W9 (F := Ideal) m ρ c (Proc.devRef .tc main_arg16)
    _ = W8 (F := Ideal) m ρ c (Proc.devRef .tc main_arg16) := by host_keep hostOps4
    _ = W7 (F := Ideal) m ρ c (Proc.devRef .tc main_arg16) := W8_of_ne m ρ c main_arg16 (by decide)
    _ = W6 (F := Ideal) m ρ c (Proc.devRef .tc main_arg16) := by host_keep hostOps3
    _ = m ((c.tc : Thread nD τ).loc main_arg16) := w6_arg16 m ρ c

/-- The particle propagator's weights and bias at its two calls. -/
theorem w7_arg17 (c : Dev nD) : W7 (F := Ideal) m ρ c (Proc.devRef .tc main_arg17) = m ((c.tc : Thread nD τ).loc main_arg17) :=
  calc W7 (F := Ideal) m ρ c (Proc.devRef .tc main_arg17)
    _ = W6 (F := Ideal) m ρ c (Proc.devRef .tc main_arg17) := by host_keep hostOps3
    _ = m ((c.tc : Thread nD τ).loc main_arg17) := w6_arg17 m ρ c

theorem w7_arg18 (c : Dev nD) : W7 (F := Ideal) m ρ c (Proc.devRef .tc main_arg18) = m ((c.tc : Thread nD τ).loc main_arg18) :=
  calc W7 (F := Ideal) m ρ c (Proc.devRef .tc main_arg18)
    _ = W6 (F := Ideal) m ρ c (Proc.devRef .tc main_arg18) := by host_keep hostOps3
    _ = m ((c.tc : Thread nD τ).loc main_arg18) := w6_arg18 m ρ c

theorem w11_arg17 (c : Dev nD) : W11 (F := Ideal) m ρ c (Proc.devRef .tc main_arg17) = m ((c.tc : Thread nD τ).loc main_arg17) :=
  calc W11 (F := Ideal) m ρ c (Proc.devRef .tc main_arg17)
    _ = W10 (F := Ideal) m ρ c (Proc.devRef .tc main_arg17) := by host_keep hostOps5
    _ = W9 (F := Ideal) m ρ c (Proc.devRef .tc main_arg17) := W10_of_ne m ρ c main_arg17 (by decide)
    _ = W8 (F := Ideal) m ρ c (Proc.devRef .tc main_arg17) := by host_keep hostOps4
    _ = W7 (F := Ideal) m ρ c (Proc.devRef .tc main_arg17) := (W8_arr m ρ c 2).trans (((dat3 (V7 m ρ) c).arrAt_in 2 rfl _).trans (A_eq3 (V7 m ρ) c 2))
    _ = m ((c.tc : Thread nD τ).loc main_arg17) := w7_arg17 m ρ c

theorem w11_arg18 (c : Dev nD) : W11 (F := Ideal) m ρ c (Proc.devRef .tc main_arg18) = m ((c.tc : Thread nD τ).loc main_arg18) :=
  calc W11 (F := Ideal) m ρ c (Proc.devRef .tc main_arg18)
    _ = W10 (F := Ideal) m ρ c (Proc.devRef .tc main_arg18) := by host_keep hostOps5
    _ = W9 (F := Ideal) m ρ c (Proc.devRef .tc main_arg18) := W10_of_ne m ρ c main_arg18 (by decide)
    _ = W8 (F := Ideal) m ρ c (Proc.devRef .tc main_arg18) := by host_keep hostOps4
    _ = W7 (F := Ideal) m ρ c (Proc.devRef .tc main_arg18) := (W8_arr m ρ c 3).trans (((dat3 (V7 m ρ) c).arrAt_in 3 rfl _).trans (A_eq3 (V7 m ρ) c 3))
    _ = m ((c.tc : Thread nD τ).loc main_arg18) := w7_arg18 m ρ c

/-- The predictor's weights and biases at the last call. -/
theorem w11_arg19 (c : Dev nD) : W11 (F := Ideal) m ρ c (Proc.devRef .tc main_arg19) = m ((c.tc : Thread nD τ).loc main_arg19) :=
  calc W11 (F := Ideal) m ρ c (Proc.devRef .tc main_arg19)
    _ = W10 (F := Ideal) m ρ c (Proc.devRef .tc main_arg19) := by host_keep hostOps5
    _ = W9 (F := Ideal) m ρ c (Proc.devRef .tc main_arg19) := W10_of_ne m ρ c main_arg19 (by decide)
    _ = W8 (F := Ideal) m ρ c (Proc.devRef .tc main_arg19) := by host_keep hostOps4
    _ = W7 (F := Ideal) m ρ c (Proc.devRef .tc main_arg19) := W8_of_ne m ρ c main_arg19 (by decide)
    _ = W6 (F := Ideal) m ρ c (Proc.devRef .tc main_arg19) := by host_keep hostOps3
    _ = m ((c.tc : Thread nD τ).loc main_arg19) := w6_arg19 m ρ c

theorem w11_arg20 (c : Dev nD) : W11 (F := Ideal) m ρ c (Proc.devRef .tc main_arg20) = m ((c.tc : Thread nD τ).loc main_arg20) :=
  calc W11 (F := Ideal) m ρ c (Proc.devRef .tc main_arg20)
    _ = W10 (F := Ideal) m ρ c (Proc.devRef .tc main_arg20) := by host_keep hostOps5
    _ = W9 (F := Ideal) m ρ c (Proc.devRef .tc main_arg20) := W10_of_ne m ρ c main_arg20 (by decide)
    _ = W8 (F := Ideal) m ρ c (Proc.devRef .tc main_arg20) := by host_keep hostOps4
    _ = W7 (F := Ideal) m ρ c (Proc.devRef .tc main_arg20) := W8_of_ne m ρ c main_arg20 (by decide)
    _ = W6 (F := Ideal) m ρ c (Proc.devRef .tc main_arg20) := by host_keep hostOps3
    _ = m ((c.tc : Thread nD τ).loc main_arg20) := w6_arg20 m ρ c

theorem w11_arg21 (c : Dev nD) : W11 (F := Ideal) m ρ c (Proc.devRef .tc main_arg21) = m ((c.tc : Thread nD τ).loc main_arg21) :=
  calc W11 (F := Ideal) m ρ c (Proc.devRef .tc main_arg21)
    _ = W10 (F := Ideal) m ρ c (Proc.devRef .tc main_arg21) := by host_keep hostOps5
    _ = W9 (F := Ideal) m ρ c (Proc.devRef .tc main_arg21) := W10_of_ne m ρ c main_arg21 (by decide)
    _ = W8 (F := Ideal) m ρ c (Proc.devRef .tc main_arg21) := by host_keep hostOps4
    _ = W7 (F := Ideal) m ρ c (Proc.devRef .tc main_arg21) := W8_of_ne m ρ c main_arg21 (by decide)
    _ = W6 (F := Ideal) m ρ c (Proc.devRef .tc main_arg21) := by host_keep hostOps3
    _ = m ((c.tc : Thread nD τ).loc main_arg21) := w6_arg21 m ρ c

theorem w11_arg22 (c : Dev nD) : W11 (F := Ideal) m ρ c (Proc.devRef .tc main_arg22) = m ((c.tc : Thread nD τ).loc main_arg22) :=
  calc W11 (F := Ideal) m ρ c (Proc.devRef .tc main_arg22)
    _ = W10 (F := Ideal) m ρ c (Proc.devRef .tc main_arg22) := by host_keep hostOps5
    _ = W9 (F := Ideal) m ρ c (Proc.devRef .tc main_arg22) := W10_of_ne m ρ c main_arg22 (by decide)
    _ = W8 (F := Ideal) m ρ c (Proc.devRef .tc main_arg22) := by host_keep hostOps4
    _ = W7 (F := Ideal) m ρ c (Proc.devRef .tc main_arg22) := W8_of_ne m ρ c main_arg22 (by decide)
    _ = W6 (F := Ideal) m ρ c (Proc.devRef .tc main_arg22) := by host_keep hostOps3
    _ = m ((c.tc : Thread nD τ).loc main_arg22) := w6_arg22 m ρ c

theorem w11_arg23 (c : Dev nD) : W11 (F := Ideal) m ρ c (Proc.devRef .tc main_arg23) = m ((c.tc : Thread nD τ).loc main_arg23) :=
  calc W11 (F := Ideal) m ρ c (Proc.devRef .tc main_arg23)
    _ = W10 (F := Ideal) m ρ c (Proc.devRef .tc main_arg23) := by host_keep hostOps5
    _ = W9 (F := Ideal) m ρ c (Proc.devRef .tc main_arg23) := W10_of_ne m ρ c main_arg23 (by decide)
    _ = W8 (F := Ideal) m ρ c (Proc.devRef .tc main_arg23) := by host_keep hostOps4
    _ = W7 (F := Ideal) m ρ c (Proc.devRef .tc main_arg23) := W8_of_ne m ρ c main_arg23 (by decide)
    _ = W6 (F := Ideal) m ρ c (Proc.devRef .tc main_arg23) := by host_keep hostOps3
    _ = m ((c.tc : Thread nD τ).loc main_arg23) := w6_arg23 m ρ c

theorem w11_arg24 (c : Dev nD) : W11 (F := Ideal) m ρ c (Proc.devRef .tc main_arg24) = m ((c.tc : Thread nD τ).loc main_arg24) :=
  calc W11 (F := Ideal) m ρ c (Proc.devRef .tc main_arg24)
    _ = W10 (F := Ideal) m ρ c (Proc.devRef .tc main_arg24) := by host_keep hostOps5
    _ = W9 (F := Ideal) m ρ c (Proc.devRef .tc main_arg24) := W10_of_ne m ρ c main_arg24 (by decide)
    _ = W8 (F := Ideal) m ρ c (Proc.devRef .tc main_arg24) := by host_keep hostOps4
    _ = W7 (F := Ideal) m ρ c (Proc.devRef .tc main_arg24) := W8_of_ne m ρ c main_arg24 (by decide)
    _ = W6 (F := Ideal) m ρ c (Proc.devRef .tc main_arg24) := by host_keep hostOps3
    _ = m ((c.tc : Thread nD τ).loc main_arg24) := w6_arg24 m ρ c

/-- The particle encoding at the two calls that read it. -/
theorem w7_v3 (c : Dev nD) : W7 (F := Ideal) m ρ c (Proc.devRef .tc main_v3) = particleEnc (params m c) z6 :=
  calc W7 (F := Ideal) m ρ c (Proc.devRef .tc main_v3)
    _ = W6 (F := Ideal) m ρ c (Proc.devRef .tc main_v3) := by host_keep hostOps3
    _ = particleEnc (params m c) z6 := w6_v3 m ρ c

theorem w11_v3 (c : Dev nD) : W11 (F := Ideal) m ρ c (Proc.devRef .tc main_v3) = particleEnc (params m c) z6 :=
  calc W11 (F := Ideal) m ρ c (Proc.devRef .tc main_v3)
    _ = W10 (F := Ideal) m ρ c (Proc.devRef .tc main_v3) := by host_keep hostOps5
    _ = W9 (F := Ideal) m ρ c (Proc.devRef .tc main_v3) := W10_of_ne m ρ c main_v3 (by decide)
    _ = W8 (F := Ideal) m ρ c (Proc.devRef .tc main_v3) := by host_keep hostOps4
    _ = W7 (F := Ideal) m ρ c (Proc.devRef .tc main_v3) := (W8_arr m ρ c 0).trans (((dat3 (V7 m ρ) c).arrAt_in 0 rfl _).trans (A_eq3 (V7 m ρ) c 0))
    _ = particleEnc (params m c) z6 := w7_v3 m ρ c

/-- The relation encoding at the second propagation. -/
theorem w9_v18 (c : Dev nD) : W9 (F := Ideal) m ρ c (Proc.devRef .tc main_v18) = relationEnc (params m c) z6 (σR m c) (σS m c) :=
  calc W9 (F := Ideal) m ρ c (Proc.devRef .tc main_v18)
    _ = W8 (F := Ideal) m ρ c (Proc.devRef .tc main_v18) := by host_keep hostOps4
    _ = W7 (F := Ideal) m ρ c (Proc.devRef .tc main_v18) := W8_of_ne m ρ c main_v18 (by decide)
    _ = W6 (F := Ideal) m ρ c (Proc.devRef .tc main_v18) := by host_keep hostOps3
    _ = relationEnc (params m c) z6 (σR m c) (σS m c) := w6_v18 m ρ c

/-! ## The second half, boundary by boundary -/

/-- The host's scatter-add after the first propagation: the sum of its effects over each particle's incoming relations. -/
theorem w7_v23 (c : Dev nD) :
    W7 (F := Ideal) m ρ c (Proc.devRef .tc main_v23) = sc m c (relEff0 (params m c) z6 (σR m c) (σS m c)) := by
  show StableHlo.after hostOps3 (W6 (F := Ideal) m ρ c) (Proc.devRef .tc main_v23) = _
  after_results
  -- the stretch's operands are the first effects and the launched receivers: the sum is literally `sc` of them
  rw [w6_v20, w6_arg3]
  rfl

/-- The particle propagator's call leaves the particle effects. -/
theorem w8_v24 (c : Dev nD) :
    W8 (F := Ideal) m ρ c (Proc.devRef .tc main_v24) = partEff (params m c) z6 (σR m c) (σS m c) (sc m c) := by
  refine ((W8_arr m ρ c 4).trans (Region.arr3 (V7 m ρ) c)).trans ?_
  show rows2 (propP (W7 (F := Ideal) m ρ c (Proc.devRef .tc main_arg17)) (W7 (F := Ideal) m ρ c (Proc.devRef .tc main_arg18)))
      (W7 (F := Ideal) m ρ c (Proc.devRef .tc main_v3)) (W7 (F := Ideal) m ρ c (Proc.devRef .tc main_v23)) = _
  -- the call's row-wise function of what it found, which is the network's definition of the particle effects
  rw [w7_arg17, w7_arg18, w7_v3, w7_v23]
  rfl

/-- The host's gather of the particle effects at the receivers. -/
theorem w9_v31 (c : Dev nD) :
    W9 (F := Ideal) m ρ c (Proc.devRef .tc main_v31) = selRows (σR m c) (partEff (params m c) z6 (σR m c) (σS m c) (sc m c)) := by
  show StableHlo.after hostOps4 (W8 (F := Ideal) m ρ c) (Proc.devRef .tc main_v31) = _
  after_results
  -- a gather of whole rows at the receivers' index column selects row `σR e` for relation `e`
  rw [w8_v24, w8_arg3]
  exact gather_selRows (N := 65536) (D := 64) (R := 524288) (by decide)
    gather_S65536x64_S524288x1_S524288x64_1_0_n_n_0_1_164_wf _ _

/-- … and at the senders. -/
theorem w9_v38 (c : Dev nD) :
    W9 (F := Ideal) m ρ c (Proc.devRef .tc main_v38) = selRows (σS m c) (partEff (params m c) z6 (σR m c) (σS m c) (sc m c)) := by
  show StableHlo.after hostOps4 (W8 (F := Ideal) m ρ c) (Proc.devRef .tc main_v38) = _
  after_results_simp
  -- the same gather at the senders' index column selects row `σS e`
  rw [w8_v24, w8_arg4]
  exact gather_selRows (N := 65536) (D := 64) (R := 524288) (by decide)
    gather_S65536x64_S524288x1_S524288x64_1_0_n_n_0_1_164_wf _ _

/-- The relation propagator's second call leaves the second effects. -/
theorem w10_v39 (c : Dev nD) :
    W10 (F := Ideal) m ρ c (Proc.devRef .tc main_v39) = relEff1 (params m c) z6 (σR m c) (σS m c) (sc m c) := by
  refine ((W10_arr m ρ c 5).trans (Region.arr4 (V9 m ρ) c)).trans ?_
  show rows3 (propR (W9 (F := Ideal) m ρ c (Proc.devRef .tc main_arg15)) (W9 (F := Ideal) m ρ c (Proc.devRef .tc main_arg16)))
      (W9 (F := Ideal) m ρ c (Proc.devRef .tc main_v18)) (W9 (F := Ideal) m ρ c (Proc.devRef .tc main_v31))
      (W9 (F := Ideal) m ρ c (Proc.devRef .tc main_v38)) = _
  -- the call's row-wise function of the encoding and the two gathered effects: the second propagation's definition
  rw [w9_arg15, w9_arg16, w9_v18, w9_v31, w9_v38]
  rfl

/-- The host's second scatter-add: the sum of the second effects over each particle's incoming relations. -/
theorem w11_v42 (c : Dev nD) :
    W11 (F := Ideal) m ρ c (Proc.devRef .tc main_v42) = sc m c (relEff1 (params m c) z6 (σR m c) (σS m c) (sc m c)) := by
  show StableHlo.after hostOps5 (W10 (F := Ideal) m ρ c) (Proc.devRef .tc main_v42) = _
  after_results
  -- the same sum as after the first propagation, now of the second effects
  rw [w10_v39, w10_arg3]
  rfl

/-- The result array at the last segment boundary is the network's function of the argument arrays. -/
theorem result_eq (c : Dev nD) :
    W12 (F := Ideal) m ρ c (Proc.devRef .tc main_v43) = Cert.Spec.result (params m c) z6 (σR m c) (σS m c) (sc m c) := by
  refine ((W12_arr m ρ c 10).trans (Region.arr5 (V11 m ρ) c)).trans ?_
  show rows2 (predP (W11 (F := Ideal) m ρ c (Proc.devRef .tc main_arg17)) (W11 (F := Ideal) m ρ c (Proc.devRef .tc main_arg18))
        (W11 (F := Ideal) m ρ c (Proc.devRef .tc main_arg19)) (W11 (F := Ideal) m ρ c (Proc.devRef .tc main_arg20))
        (W11 (F := Ideal) m ρ c (Proc.devRef .tc main_arg21)) (W11 (F := Ideal) m ρ c (Proc.devRef .tc main_arg22))
        (W11 (F := Ideal) m ρ c (Proc.devRef .tc main_arg23)) (W11 (F := Ideal) m ρ c (Proc.devRef .tc main_arg24)))
      (W11 (F := Ideal) m ρ c (Proc.devRef .tc main_v3)) (W11 (F := Ideal) m ρ c (Proc.devRef .tc main_v42)) = _
  -- the last call's row-wise function of the particle encoding and the second sums, with the launched weights
  rw [w11_arg17, w11_arg18, w11_arg19, w11_arg20, w11_arg21, w11_arg22, w11_arg23, w11_arg24, w11_v3, w11_v42]
  rfl

end Cert.KernelIdeal.Thread

end
-- ==== Proof.RefValue.lean ====
/-
  THE REFERENCE'S RESULT AS THE SAME FUNCTION OF ITS ARGUMENTS. Its host operations are the network's layers on whole
  arrays: each `dot_general` with its broadcast bias (and the maximum with a broadcast zero) is a layer row by row, the
  concatenations put rows side by side and the gathers select rows. Two places differ from the kernel program's
  arrangement and are bridged here: the reference gathers the attribute block and the state block separately where the
  kernel gathers the 21 features and cuts them (a row cut after a concatenation is the part it came from), and in the
  first propagation it feeds the layer the gathered rows of an all-zero effect array where the kernel uses the first 64
  rows of the matrix (every other term of the layer's sums is `0 · w = 0`).
-/
import proofs.«425260_j75557064671889_3_alg».proof.Proof.RefRun
import proofs.«425260_j75557064671889_3_alg».proof.Proof.Spec

set_option maxRecDepth 16384

noncomputable section

namespace Cert.ReferenceIdeal.RefValue

open Idealize.ShloMosaic Idealize.ShloMosaic.TcCoe Idealize.ShloMosaic.ValueIdx Idealize.ShloMosaic.RowOps
open Idealize.SL.Sem
open Cert.ReferenceIdeal Cert.ReferenceIdeal.Gen Cert.Spec
/-- The argument arrays of a launch memory, as the network's parameters. -/
def params (m : (ℓ : Loc nD τ sig) → Buf (Elt Ideal) ℓ) (c : Dev nD) : Cert.Spec.Params where
  attr := m ((c.tc : Thread nD τ).loc main_arg0)
  state := m ((c.tc : Thread nD τ).loc main_arg1)
  ra := m ((c.tc : Thread nD τ).loc main_arg2)
  pe_w0 := m ((c.tc : Thread nD τ).loc main_arg5)
  pe_b0 := m ((c.tc : Thread nD τ).loc main_arg6)
  pe_w1 := m ((c.tc : Thread nD τ).loc main_arg7)
  pe_b1 := m ((c.tc : Thread nD τ).loc main_arg8)
  re_w0 := m ((c.tc : Thread nD τ).loc main_arg9)
  re_b0 := m ((c.tc : Thread nD τ).loc main_arg10)
  re_w1 := m ((c.tc : Thread nD τ).loc main_arg11)
  re_b1 := m ((c.tc : Thread nD τ).loc main_arg12)
  re_w2 := m ((c.tc : Thread nD τ).loc main_arg13)
  re_b2 := m ((c.tc : Thread nD τ).loc main_arg14)
  rp_w := m ((c.tc : Thread nD τ).loc main_arg15)
  rp_b := m ((c.tc : Thread nD τ).loc main_arg16)
  pp_w := m ((c.tc : Thread nD τ).loc main_arg17)
  pp_b := m ((c.tc : Thread nD τ).loc main_arg18)
  fp_w0 := m ((c.tc : Thread nD τ).loc main_arg19)
  fp_b0 := m ((c.tc : Thread nD τ).loc main_arg20)
  fp_w1 := m ((c.tc : Thread nD τ).loc main_arg21)
  fp_b1 := m ((c.tc : Thread nD τ).loc main_arg22)
  fp_w2 := m ((c.tc : Thread nD τ).loc main_arg23)
  fp_b2 := m ((c.tc : Thread nD τ).loc main_arg24)

/-! ## The reference's dimension records -/

/-- Each matrix product of the reference contracts the left operand's columns against the right operand's rows and has no
    batch axes: rows times columns. One statement per record. -/
theorem d_re0_rc : IsRowsCols dot_S524288x43_S43x64_S524288x64_1_0_0_1_n_n := ⟨rfl, rfl, rfl, rfl, rfl, rfl, rfl, rfl⟩
theorem d_e64_rc : IsRowsCols dot_S524288x64_S64x64_S524288x64_1_0_0_1_n_n := ⟨rfl, rfl, rfl, rfl, rfl, rfl, rfl, rfl⟩
theorem d_pe0_rc : IsRowsCols dot_S65536x21_S21x64_S65536x64_1_0_0_1_n_n := ⟨rfl, rfl, rfl, rfl, rfl, rfl, rfl, rfl⟩
theorem d_n64_rc : IsRowsCols dot_S65536x64_S64x64_S65536x64_1_0_0_1_n_n := ⟨rfl, rfl, rfl, rfl, rfl, rfl, rfl, rfl⟩
theorem d_rp_rc : IsRowsCols dot_S524288x192_S192x64_S524288x64_1_0_0_1_n_n := ⟨rfl, rfl, rfl, rfl, rfl, rfl, rfl, rfl⟩
theorem d_pp_rc : IsRowsCols dot_S65536x128_S128x64_S65536x64_1_0_0_1_n_n := ⟨rfl, rfl, rfl, rfl, rfl, rfl, rfl, rfl⟩
theorem d_out_rc : IsRowsCols dot_S65536x64_S64x3_S65536x3_1_0_0_1_n_n := ⟨rfl, rfl, rfl, rfl, rfl, rfl, rfl, rfl⟩

/-- Each gather of the reference reads whole rows of its table (of width 15, 6 or 64) at a column of 524288 start
    indices: row e of the result is the table's row at the clamped start index of e. -/
theorem gather15 (X : Mat 65536 15) (idx : IVec S524288x1 32) :
    Host.gather gather_S65536x15_S524288x1_S524288x15_1_0_n_n_0_1_115 X idx
      = selRows (GatherRow.sel (N := 65536) (by decide) idx) X :=
  gather_selRows (by decide) gather_S65536x15_S524288x1_S524288x15_1_0_n_n_0_1_115_wf X idx
theorem gather6 (X : Mat 65536 6) (idx : IVec S524288x1 32) :
    Host.gather gather_S65536x6_S524288x1_S524288x6_1_0_n_n_0_1_16 X idx
      = selRows (GatherRow.sel (N := 65536) (by decide) idx) X :=
  gather_selRows (by decide) gather_S65536x6_S524288x1_S524288x6_1_0_n_n_0_1_16_wf X idx
theorem gather64 (X : Mat 65536 64) (idx : IVec S524288x1 32) :
    Host.gather gather_S65536x64_S524288x1_S524288x64_1_0_n_n_0_1_164 X idx
      = selRows (GatherRow.sel (N := 65536) (by decide) idx) X :=
  gather_selRows (by decide) gather_S65536x64_S524288x1_S524288x64_1_0_n_n_0_1_164_wf X idx

/-! ## The two places where the reference's arrangement differs from the network's -/

/-- The relation encoder's input. The reference gathers the 15 attribute entries and the 6 state entries of the receiver
    and of the sender separately; the network gathers the 21 features of each and cuts them. Cutting a row that was put
    together from two parts gives the parts back, so both feed the first layer the same 43 numbers. -/
theorem relIn_rows {D : Nat} (g : (Fin 43 → EReal) → Fin D → EReal) (A2 : Mat 65536 15) (S : Mat 65536 6)
    (RA : Mat 524288 1) (σR σS : Fin 524288 → Fin 65536) :
    rows1 g (rows5 (fun x₁ x₂ x₃ x₄ x₅ => cat5 x₁ x₂ x₃ x₄ x₅) (selRows σR A2) (selRows σS A2) (selRows σR S)
        (selRows σS S) RA)
      = rows3 (fun r s a => g (relIn r s a)) (selRows σR (rows2 (fun x y => cat2 x y) A2 S))
          (selRows σS (rows2 (fun x y => cat2 x y) A2 S)) RA := by
  refine mat_ext fun e h => ?_
  rw [rows1_apply, rows3_apply]
  -- row e of the gathered features is the receiver's (sender's) attribute row beside its state row
  have hR : row (selRows σR (rows2 (fun x y => cat2 x y) A2 S)) e
      = cat2 (n := 21) (row A2 (σR e)) (row S (σR e)) := rfl
  have hS : row (selRows σS (rows2 (fun x y => cat2 x y) A2 S)) e
      = cat2 (n := 21) (row A2 (σS e)) (row S (σS e)) := rfl
  rw [hR, hS]
  unfold relIn
  rw [hi_cat2_left, hi_cat2_left, hi_cat2_right, hi_cat2_right]
  rfl

/-- An entry of the zero constant broadcast to a matrix is zero. -/
theorem zeros_apply {A B : Nat} (h : (⟨0, ![]⟩ : Shape).BroadcastsInDim (⟨2, ![A, B]⟩ : Shape) ![]) (p : Fin A)
    (k : Fin B) : zeros (⟨2, ![A, B]⟩ : Shape) h (ix2 p k) = 0 := by
  unfold zeros
  rw [broadcastInDim_apply ![] h _ (ix2 p k) ix0 fun a => a.elim0, constant_apply, Ideal.ofBits_zero_f32]

/-- The first propagation. The particle effects start at zero, so the reference's layer reads each relation's encoding
    beside two gathered rows of zeros; every term of the layer's sums that meets one of those zeros is 0 · w = 0, and
    what is left is the layer of the encoding alone through the first 64 rows of the matrix. -/
theorem prop0_rows (W : Mat 192 64) (b : Arr 64) (R : Mat 524288 64)
    (h : (⟨0, ![]⟩ : Shape).BroadcastsInDim (⟨2, ![65536, 64]⟩ : Shape) ![]) (σR σS : Fin 524288 → Fin 65536) :
    rows1 (fun x => relu (dense W b x))
        (rows3 (fun x y z => cat3 x y z) R (selRows σR (zeros (⟨2, ![65536, 64]⟩ : Shape) h))
          (selRows σS (zeros (⟨2, ![65536, 64]⟩ : Shape) h)))
      = rows1 (prop0 (topRows W) b) R := by
  refine mat_ext fun e q => ?_
  rw [rows1_apply, rows1_apply]
  -- a gathered row of the zero array is a row of zeros
  have hz : ∀ σ : Fin 524288 → Fin 65536,
      row (selRows σ (zeros (⟨2, ![65536, 64]⟩ : Shape) h)) e = fun _ : Fin 64 => (0 : EReal) := fun σ =>
    funext fun k => zeros_apply h (σ e) k
  have hrow : row (rows3 (fun x y z => cat3 x y z) R (selRows σR (zeros (⟨2, ![65536, 64]⟩ : Shape) h))
        (selRows σS (zeros (⟨2, ![65536, 64]⟩ : Shape) h))) e
      = cat3 (n := 192) (row R e) (fun _ : Fin 64 => (0 : EReal)) (fun _ : Fin 64 => (0 : EReal)) := by
    rw [row_rows3, hz σR, hz σS]
  rw [hrow]
  unfold prop0
  rw [dense_cat3_zero (by norm_num) W (topRows W) b (fun _ _ => rfl) (row R e)]

/-- The zero constant broadcast to a matrix is the array of zeros. -/
theorem zeros_fold {A B : Nat} (h : (⟨0, ![]⟩ : Shape).BroadcastsInDim (⟨2, ![A, B]⟩ : Shape) ![]) :
    broadcastInDim (⟨2, ![A, B]⟩ : Shape) ![] h (constant (F := Ideal) (⟨0, ![]⟩ : Shape) .f32 0x00000000#32)
      = zeros (⟨2, ![A, B]⟩ : Shape) h := rfl
variable (m : (ℓ : Loc nD τ sig) → Buf (Elt Ideal) ℓ)

/-- The reference run's result term is the network's function of the argument arrays. -/
theorem result_eq (c : Dev nD) :
    Cert.ReferenceIdeal.ValueW.res_main_v129 (F := Ideal) m c
      = Cert.Spec.result (params m c) (zeros S65536x6 bcast_S_S65536x6)
          (rowOf bcast_S_S524288 bcast_S524288_S524288x1_0 (m ((c.tc : Thread nD τ).loc main_arg3)))
          (rowOf bcast_S_S524288 bcast_S524288_S524288x1_0 (m ((c.tc : Thread nD τ).loc main_arg4)))
          (scatSum scatter_S65536x64_S524288x1_S524288x64_1_0_0_1 bcast_S_S65536x64 bcast_S524288_S524288x1_0
            (m ((c.tc : Thread nD τ).loc main_arg3))) := by
  unfold Cert.ReferenceIdeal.ValueW.res_main_v129
  -- every operation in row form: gathers select rows, concatenations put rows side by side, each product with its
  -- broadcast bias (and the maximum with a broadcast zero) is a layer row by row
  simp only [gather15, gather6, gather64, concat2_rows, concat3_rows, concat5_rows,
    hdense_relu _ d_re0_rc, hdense_relu _ d_e64_rc, hdense_relu _ d_pe0_rc, hdense_relu _ d_n64_rc, hdense_relu _ d_rp_rc,
    hdense_relu _ d_pp_rc, hdense _ d_out_rc]
  -- the relation encoder's input cut from the gathered features, and the first propagation through the first 64 rows
  simp only [zeros_fold bcast_S_S65536x6, zeros_fold bcast_S_S65536x64, relIn_rows, prop0_rows]
  -- what is left is the network's definition: row-wise functions composed, the index columns, the zero arrays and the
  -- scatter-add spelt by the same operations on the same arguments
  rfl

end Cert.ReferenceIdeal.RefValue

end
-- ==== Proof.lean ====
/-
  The certificate of an interaction-network kernel (six pallas calls: particle encoder, relation encoder, first
  propagation, particle propagator, relation propagator, fused last propagation and predictor; gathers of rows and
  scatter-adds on the host between them) against its jnp reference, over the extended reals.

  Both programs compute, row by row, the same multilayer perceptrons of the same gathered rows (Proof/Spec.lean): the
  kernel program's result is that function of its arguments by walking its segments backwards (Proof/Thread1.lean,
  Proof/Thread2.lean over Proof/Region0…5.lean and Proof/Pay.lean), the reference's by reading its host operations as
  layers (Proof/RefValue.lean, over the reference's run read window by window, Proof/RefRun.lean). Two arrangements differ and are bridged there: a row cut after a concatenation is the
  part it came from, and a layer fed gathered rows of an all-zero array only sees the first rows of its matrix
  (`0 · w = 0` for every extended real `w`). No law that needs finiteness is used, so the precondition is never opened.
  The frames are the generated ones; the idealization rewrote nothing, so `preserves` is trivial.
-/
import proofs.«425260_j75557064671889_3_alg».proof.Defs
import proofs.«425260_j75557064671889_3_alg».proof.Proof.Gen.Kernel
import proofs.«425260_j75557064671889_3_alg».proof.Proof.Gen.Kernel.Frame
import proofs.«425260_j75557064671889_3_alg».proof.Proof.Gen.KernelIdeal
import proofs.«425260_j75557064671889_3_alg».proof.Proof.Gen.KernelIdeal.Frame
import proofs.«425260_j75557064671889_3_alg».proof.Proof.Gen.ReferenceIdeal
import proofs.«425260_j75557064671889_3_alg».proof.Proof.RefRun
import proofs.«425260_j75557064671889_3_alg».proof.Proof.Gen.Pre_finite_inputs
import proofs.«425260_j75557064671889_3_alg».proof.Proof.KernelRun
import proofs.«425260_j75557064671889_3_alg».proof.Proof.Thread2
import proofs.«425260_j75557064671889_3_alg».proof.Proof.RefValue
import Idealize.ShloMosaic.Adequacy
import Idealize.ShloMosaic.Init

set_option maxRecDepth 16384

noncomputable section

namespace Cert.Proof

open Idealize.ShloMosaic Idealize.SL.Sem

/-- The two programs' scatter dimension numbers are the same record. -/
theorem scatter_eq :
    Cert.ReferenceIdeal.scatter_S65536x64_S524288x1_S524288x64_1_0_0_1
      = Cert.KernelIdeal.scatter_S65536x64_S524288x1_S524288x64_1_0_0_1 := rfl

/-- From memories that agree on the arguments, the reference's parameters of the network are the kernel program's. -/
theorem params_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) :
    Cert.ReferenceIdeal.RefValue.params m' c = Cert.KernelIdeal.Thread.params m c := by
  unfold Cert.ReferenceIdeal.RefValue.params Cert.KernelIdeal.Thread.params
  rw [h0, h1, h2, h5, h6, h7, h8, h9, h10, h11, h12, h13, h14, h15, h16, h17, h18, h19, h20, h21, h22, h23, h24]

/-- At `Ideal` the kernel program's result array ends at the network's function of its arguments (its run with the result
    read, then the walk back through its segments), and the reference's at the same function of arguments that agree;
    both runs leave their arguments as launched. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Spec.result (Cert.KernelIdeal.Thread.params m c) Cert.KernelIdeal.Thread.z6
      (Cert.KernelIdeal.Thread.σR m c) (Cert.KernelIdeal.Thread.σS m c) (Cert.KernelIdeal.Thread.sc m c), ?_, ?_⟩
  · exact (θ_run Cert.KernelIdeal.defs _ _).mono
      (fun r h c => ⟨(h c).1.trans (Cert.KernelIdeal.Thread.result_eq m ρ c), (h c).2⟩)
      (Cert.KernelIdeal.GenRun.run_result (F := Ideal) m ρ)
  · refine (θ_run Cert.ReferenceIdeal.defs _ _).mono (fun r h c => ⟨((h c).1.trans (Cert.ReferenceIdeal.RefValue.result_eq m' c)).trans ?_, (h c).2⟩)
      (Cert.ReferenceIdeal.ValueW.run (F := Ideal) m' ρ')
    obtain ⟨h0, h1, h2, h3, h4, h5, h6, h7, h8, h9, h10, h11, h12, h13, h14, h15, h16, h17, h18, h19, h20, h21, h22, h23, h24⟩ := hagree c
    rw [params_eq m m' c h0 h1 h2 h5 h6 h7 h8 h9 h10 h11 h12 h13 h14 h15 h16 h17 h18 h19 h20 h21 h22 h23 h24, h3, h4, scatter_eq]
    rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueW.run (F := Ideal) m ρ),
  trivial,
  algebraic⟩

end Cert.Proof

end
